-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v102)) (v3 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_v104) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S4000000x3 : Shape := ⟨2, ![4000000, 3]⟩
abbrev S4000000x1 : Shape := ⟨2, ![4000000, 1]⟩
abbrev S200000x4 : Shape := ⟨2, ![200000, 4]⟩
abbrev S200000x3 : Shape := ⟨2, ![200000, 3]⟩
abbrev S200000x1 : Shape := ⟨2, ![200000, 1]⟩
abbrev S200000 : Shape := ⟨1, ![200000]⟩
abbrev S4000000 : Shape := ⟨1, ![4000000]⟩
abbrev S_ : Shape := ⟨0, ![]⟩
abbrev S220001 : Shape := ⟨1, ![220001]⟩
abbrev S1 : Shape := ⟨1, ![1]⟩
abbrev S3999999 : Shape := ⟨1, ![3999999]⟩
abbrev S40001x32x4 : Shape := ⟨3, ![40001, 32, 4]⟩
abbrev S4000000x2 : Shape := ⟨2, ![4000000, 2]⟩
abbrev S40000x32x4 : Shape := ⟨3, ![40000, 32, 4]⟩
abbrev S40001x3 : Shape := ⟨2, ![40001, 3]⟩
abbrev S40000x3 : Shape := ⟨2, ![40000, 3]⟩
abbrev S40001 : Shape := ⟨1, ![40001]⟩
abbrev S40000 : Shape := ⟨1, ![40000]⟩

abbrev nBuf : Space → Nat
  | .hbm => 157
  | .vmem => 6
  | .smem => 0
  | _ => 0

abbrev hbmTy0_0 (i : Nat) : BufTy := match i % 128 with
  | 0 => ⟨S4000000x4, .f32⟩
  | 1 => ⟨S4000000x3, .i32⟩
  | 2 => ⟨S4000000x1, .i32⟩
  | 3 => ⟨S4000000, .i32⟩
  | 4 => ⟨S_, .i32⟩
  | 5 => ⟨S4000000, .i32⟩
  | 6 => ⟨S4000000, .i1⟩
  | 7 => ⟨S4000000, .i32⟩
  | 8 => ⟨S_, .i32⟩
  | 9 => ⟨S_, .i32⟩
  | 10 => ⟨S4000000, .i32⟩
  | 11 => ⟨S4000000, .i32⟩
  | 12 => ⟨S_, .i32⟩
  | 13 => ⟨S220001, .i32⟩
  | 14 => ⟨S4000000x1, .i32⟩
  | 15 => ⟨S220001, .i32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S4000000x1, .i32⟩
  | 24 => ⟨S4000000, .i32⟩
  | 25 => ⟨S_, .i32⟩
  | 26 => ⟨S4000000, .i32⟩
  | 27 => ⟨S4000000, .i32⟩
  | 28 => ⟨S4000000, .i1⟩
  | 29 => ⟨S4000000, .i1⟩
  | 30 => ⟨S4000000, .i32⟩
  | 31 => ⟨S_, .i32⟩
  | 32 => ⟨S_, .i32⟩
  | 33 => ⟨S4000000, .i32⟩
  | 34 => ⟨S_, .i32⟩
  | 35 => ⟨S4000000, .i32⟩
  | 36 => ⟨S4000000, .i32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S4000000, .i32⟩
  | 46 => ⟨S4000000, .i32⟩
  | 47 => ⟨S4000000, .i32⟩
  | 48 => ⟨S4000000, .i32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000, .i32⟩
  | 58 => ⟨S4000000, .i32⟩
  | 59 => ⟨S_, .i1⟩
  | 60 => ⟨S1, .i1⟩
  | 61 => ⟨S3999999, .i32⟩
  | 62 => ⟨S3999999, .i32⟩
  | 63 => ⟨S3999999, .i1⟩
  | 64 => ⟨S4000000, .i1⟩
  | 65 => ⟨S_, .i32⟩
  | 66 => ⟨S_, .i32⟩
  | 67 => ⟨S4000000, .i32⟩
  | 68 => ⟨S4000000, .i32⟩
  | 69 => ⟨S_, .i32⟩
  | 70 => ⟨S_, .i32⟩
  | 71 => ⟨S4000000, .i32⟩
  | 72 => ⟨S_, .i32⟩
  | 73 => ⟨S4000000, .i32⟩
  | 74 => ⟨S4000000, .i32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S4000000, .i32⟩
  | 84 => ⟨S_, .i32⟩
  | 85 => ⟨S4000000, .i32⟩
  | 86 => ⟨S4000000, .i1⟩
  | 87 => ⟨S4000000, .i1⟩
  | 88 => ⟨S_, .i32⟩
  | 89 => ⟨S4000000, .i32⟩
  | 90 => ⟨S4000000, .i1⟩
  | 91 => ⟨S4000000, .i1⟩
  | 92 => ⟨S_, .i32⟩
  | 93 => ⟨S_, .i32⟩
  | 94 => ⟨S4000000, .i32⟩
  | 95 => ⟨S4000000, .i32⟩
  | 96 => ⟨S_, .i32⟩
  | 97 => ⟨S_, .i32⟩
  | 98 => ⟨S4000000, .i32⟩
  | 99 => ⟨S4000000, .i32⟩
  | 100 => ⟨S_, .f32⟩
  | 101 => ⟨S40001x32x4, .f32⟩
  | 102 => ⟨S_, .i32⟩
  | 103 => ⟨S4000000, .i32⟩
  | 104 => ⟨S4000000, .i1⟩
  | 105 => ⟨S_, .i32⟩
  | 106 => ⟨S4000000, .i32⟩
  | 107 => ⟨S4000000, .i32⟩
  | 108 => ⟨S4000000, .i32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S4000000x1, .i32⟩
  | 117 => ⟨S4000000x1, .i32⟩
  | 118 => ⟨S4000000x2, .i32⟩
  | 119 => ⟨S40001x32x4, .f32⟩
  | 120 => ⟨S40000x32x4, .f32⟩
  | 121 => ⟨S_, .i32⟩
  | 122 => ⟨S4000000, .i32⟩
  | 123 => ⟨S4000000, .i1⟩
  | 124 => ⟨S4000000, .i1⟩
  | 125 => ⟨S_, .i32⟩
  | 126 => ⟨S_, .i32⟩
  | 127 => ⟨S4000000, .i32⟩
  | _ => ⟨S4000000x4, .f32⟩

abbrev hbmTy0_1 (i : Nat) : BufTy := match i % 128 with
  | 0 => ⟨S4000000, .i32⟩
  | 1 => ⟨S_, .i32⟩
  | 2 => ⟨S40001x3, .i32⟩
  | 3 => ⟨S_, .i32⟩
  | 4 => ⟨S4000000, .i32⟩
  | 5 => ⟨S4000000, .i1⟩
  | 6 => ⟨S_, .i32⟩
  | 7 => ⟨S4000000, .i32⟩
  | 8 => ⟨S4000000, .i32⟩
  | 9 => ⟨S4000000, .i32⟩
  | 10 => ⟨S4000000x1, .i32⟩
  | 11 => ⟨S40001x3, .i32⟩
  | 12 => ⟨S40000x3, .i32⟩
  | 13 => ⟨S_, .i32⟩
  | 14 => ⟨S40001, .i32⟩
  | 15 => ⟨S4000000, .i32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S4000000x1, .i32⟩
  | 24 => ⟨S40001, .i32⟩
  | 25 => ⟨S40000, .i32⟩
  | 26 => ⟨S4000000, .i32⟩
  | 27 => ⟨S_, .i32⟩
  | 28 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S200000x4, .f32⟩
  | .local _ .vmem, ⟨1, _⟩ => ⟨S200000x4, .f32⟩
  | .local _ .vmem, ⟨2, _⟩ => ⟨S200000x3, .i32⟩
  | .local _ .vmem, ⟨3, _⟩ => ⟨S200000x3, .i32⟩
  | .local _ .vmem, ⟨4, _⟩ => ⟨S200000x1, .i32⟩
  | .local _ .vmem, ⟨5, _⟩ => ⟨S200000x1, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_call0_c : Ref sig .tc := ⟨.hbm, 31, rfl⟩
abbrev main_call1_call0_v0 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call2_v0 : Ref sig .tc := ⟨.hbm, 46, rfl⟩
abbrev main_call2_v1_0 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_call3_v0 : Ref sig .tc := ⟨.hbm, 66, rfl⟩
abbrev main_call3_v1 : Ref sig .tc := ⟨.hbm, 67, rfl⟩
abbrev main_v45 : Ref sig .tc := ⟨.hbm, 68, rfl⟩
abbrev main_call4_c : Ref sig .tc := ⟨.hbm, 69, rfl⟩
abbrev main_call4_v0 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_17 : Ref sig .tc := ⟨.hbm, 92, rfl⟩
abbrev main_call5_v0 : Ref sig .tc := ⟨.hbm, 93, rfl⟩
abbrev main_call5_v1 : Ref sig .tc := ⟨.hbm, 94, rfl⟩
abbrev main_v62 : Ref sig .tc := ⟨.hbm, 95, rfl⟩
abbrev main_c_18 : Ref sig .tc := ⟨.hbm, 96, rfl⟩
abbrev main_call6_v0 : Ref sig .tc := ⟨.hbm, 97, rfl⟩
abbrev main_call6_v1 : Ref sig .tc := ⟨.hbm, 98, rfl⟩
abbrev main_v63 : Ref sig .tc := ⟨.hbm, 99, rfl⟩
abbrev main_cst : Ref sig .tc := ⟨.hbm, 100, rfl⟩
abbrev main_v64 : Ref sig .tc := ⟨.hbm, 101, rfl⟩
abbrev main_c_19 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_21 : Ref sig .tc := ⟨.hbm, 109, rfl⟩
abbrev main_v70 : Ref sig .tc := ⟨.hbm, 110, rfl⟩
abbrev main_v71 : Ref sig .tc := ⟨.hbm, 111, rfl⟩
abbrev main_c_22 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_23 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_24 : Ref sig .tc := ⟨.hbm, 125, rfl⟩
abbrev main_call7_v0 : Ref sig .tc := ⟨.hbm, 126, rfl⟩
abbrev main_call7_v1 : Ref sig .tc := ⟨.hbm, 127, rfl⟩
abbrev main_v83 : Ref sig .tc := ⟨.hbm, 128, rfl⟩
abbrev main_c_25 : Ref sig .tc := ⟨.hbm, 129, rfl⟩
abbrev main_v84 : Ref sig .tc := ⟨.hbm, 130, rfl⟩
abbrev main_c_26 : Ref sig .tc := ⟨.hbm, 131, rfl⟩
abbrev main_v85 : Ref sig .tc := ⟨.hbm, 132, rfl⟩
abbrev main_v86 : Ref sig .tc := ⟨.hbm, 133, rfl⟩
abbrev main_c_27 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_28 : Ref sig .tc := ⟨.hbm, 141, rfl⟩
abbrev main_v93 : Ref sig .tc := ⟨.hbm, 142, rfl⟩
abbrev main_v94 : Ref sig .tc := ⟨.hbm, 143, rfl⟩
abbrev main_c_29 : Ref sig .tc := ⟨.hbm, 144, rfl⟩
abbrev main_v95 : Ref sig .tc := ⟨.hbm, 145, rfl⟩
abbrev main_v96 : Ref sig .tc := ⟨.hbm, 146, rfl⟩
abbrev main_c_30 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_31 : Ref sig .tc := ⟨.hbm, 155, rfl⟩
abbrev main_v104 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200000x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S200000x4_S200000x4_0_0 : ∀ a, (![0, 0] : Fin 2 → Nat) a + S200000x4.size a ≤ S200000x4.size a
  h_S200000x4 : 0 < S200000x4.numel
  slices_S200000x4_o0_0_S200000x1 : S200000x4.Slices ![0, 0] S200000x1
  shapeCasts_S200000x1_S200000 : S200000x1.ShapeCasts S200000
  slices_S200000x4_o0_1_S200000x1 : S200000x4.Slices ![0, 1] S200000x1
  slices_S200000x4_o0_2_S200000x1 : S200000x4.Slices ![0, 2] S200000x1
  shapeCasts_S200000_S200000x1 : S200000.ShapeCasts S200000x1
  concatenates_S200000x1_S200000x1_S200000x1_S200000x3_d1 : Shape.Concatenates [S200000x1, S200000x1, S200000x1] S200000x3 1
  inb_S200000x3_S200000x3_0_0 : ∀ a, (![0, 0] : Fin 2 → Nat) a + S200000x3.size a ≤ S200000x3.size a
  h_S200000x3 : 0 < S200000x3.numel
  inb_S200000x1_S200000x1_0_0 : ∀ a, (![0, 0] : Fin 2 → Nat) a + S200000x1.size a ≤ S200000x1.size a
  h_S200000x1 : 0 < S200000x1.numel
  shapeCasts_S4000000x1_S4000000 : S4000000x1.ShapeCasts S4000000
  bcast_S_S4000000 : S_.BroadcastsInDim S4000000 (![] : Fin 0 → Fin S4000000.rank)
  bcast_S_S220001 : S_.BroadcastsInDim S220001 (![] : Fin 0 → Fin S220001.rank)
  bcast_S4000000_S4000000x1_0 : S4000000.BroadcastsInDim S4000000x1 (![0] : Fin 1 → Fin S4000000x1.rank)
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  bcast_S_S40001x32x4 : S_.BroadcastsInDim S40001x32x4 (![] : Fin 0 → Fin S40001x32x4.rank)
  concatenates_S4000000x1_S4000000x1_S4000000x2_d1 : Shape.Concatenates [S4000000x1, S4000000x1] S4000000x2 1
  slices_S40001x32x4_S40000x32x4_0_0_0 : S40001x32x4.Slices ![0, 0, 0] S40000x32x4
  bcast_S_S40001x3 : S_.BroadcastsInDim S40001x3 (![] : Fin 0 → Fin S40001x3.rank)
  slices_S40001x3_S40000x3_0_0 : S40001x3.Slices ![0, 0] S40000x3
  bcast_S_S40001 : S_.BroadcastsInDim S40001 (![] : Fin 0 → Fin S40001.rank)
  slices_S40001_S40000_0 : S40001.Slices ![0] S40000
  reducesTo_S4000000_S_d0 : S4000000.ReducesTo [0] S_
  scatter_S220001_S4000000x1_S4000000_n_0_0_1_wf : ScatterDims.WF S220001 S4000000x1 S4000000 [] [0] [0] 1
  gather_S220001_S4000000x1_S4000000_n_0_n_n_0_1_1_wf : GatherDims.WF S220001 S4000000x1 S4000000 [] [0] [] [0] [] 1 ![1]
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  scatter_S40001x32x4_S4000000x2_S4000000x4_1_01_01_1_wf : ScatterDims.WF S40001x32x4 S4000000x2 S4000000x4 [1] [0, 1] [0, 1] 1
  scatter_S40001x3_S4000000x1_S4000000x3_1_0_0_1_wf : ScatterDims.WF S40001x3 S4000000x1 S4000000x3 [1] [0] [0] 1
  scatter_S40001_S4000000x1_S4000000_n_0_0_1_wf : ScatterDims.WF S40001 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200000x4.size a ≤ S4000000x4.size a
  hwx0_0 : ∀ i : grid0.Coords, EltTy.bits .f32 = 32 ∨ (Rect.block (s := S4000000x4) S200000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200000x3.size a ≤ S4000000x3.size a
  hwx0_1 : ∀ i : grid0.Coords, EltTy.bits .i32 = 32 ∨ (Rect.block (s := S4000000x3) S200000x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200000x1.size a ≤ S4000000x1.size a
  hwx0_2 : ∀ i : grid0.Coords, EltTy.bits .i32 = 32 ∨ (Rect.block (s := S4000000x1) S200000x1.size (cc0_transform_2 i) (hinb0_2 i)).WholeWords (EltTy.packing .i32)

variable [Facts₀]

def scatter_S220001_S4000000x1_S4000000_n_0_0_1 : ScatterDims S220001 S4000000x1 S4000000 where
  updateWindowDims := []
  insertedWindowDims := [0]
  scatterDimsToOperandDims := [0]
  indexVectorDim := 1
  wf := scatter_S220001_S4000000x1_S4000000_n_0_0_1_wf
def gather_S220001_S4000000x1_S4000000_n_0_n_n_0_1_1 : GatherDims S220001 S4000000x1 S4000000 where
  offsetDims := []
  collapsedSliceDims := [0]
  operandBatchingDims := []
  startIndicesBatchingDims := []
  startIndexMap := [0]
  indexVectorDim := 1
  sliceSizes := ![1]
  wf := gather_S220001_S4000000x1_S4000000_n_0_n_n_0_1_1_wf
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def comparator_i32_i32_d0 : BitVec 32 × BitVec 32 → BitVec 32 × BitVec 32 → BitVec 1 :=
  fun l r =>
    let v2 := IntOp.cmpi .slt l.1 r.1
    v2
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def scatter_S40001x32x4_S4000000x2_S4000000x4_1_01_01_1 : ScatterDims S40001x32x4 S4000000x2 S4000000x4 where
  updateWindowDims := [1]
  insertedWindowDims := [0, 1]
  scatterDimsToOperandDims := [0, 1]
  indexVectorDim := 1
  wf := scatter_S40001x32x4_S4000000x2_S4000000x4_1_01_01_1_wf
def scatter_S40001x3_S4000000x1_S4000000x3_1_0_0_1 : ScatterDims S40001x3 S4000000x1 S4000000x3 where
  updateWindowDims := [1]
  insertedWindowDims := [0]
  scatterDimsToOperandDims := [0]
  indexVectorDim := 1
  wf := scatter_S40001x3_S4000000x1_S4000000x3_1_0_0_1_wf
def scatter_S40001_S4000000x1_S4000000_n_0_0_1 : ScatterDims S40001 S4000000x1 S4000000 where
  updateWindowDims := []
  insertedWindowDims := [0]
  scatterDimsToOperandDims := [0]
  indexVectorDim := 1
  wf := scatter_S40001_S4000000x1_S4000000_n_0_0_1_wf

abbrev win0_0 : Pipeline.Window sig grid0 :=
  Pipeline.Window.ofSpec (Memref.whole main_arg0) S200000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S200000x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S200000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S220001 : Shape := ⟨1, ![220001]⟩
abbrev S1 : Shape := ⟨1, ![1]⟩
abbrev S3999999 : Shape := ⟨1, ![3999999]⟩
abbrev S40001x32x4 : Shape := ⟨3, ![40001, 32, 4]⟩
abbrev S4000000x2 : Shape := ⟨2, ![4000000, 2]⟩
abbrev S40000x32x4 : Shape := ⟨3, ![40000, 32, 4]⟩
abbrev S40001x3 : Shape := ⟨2, ![40001, 3]⟩
abbrev S40000x3 : Shape := ⟨2, ![40000, 3]⟩
abbrev S40001 : Shape := ⟨1, ![40001]⟩
abbrev S40000 : Shape := ⟨1, ![40000]⟩

abbrev nBuf : Space → Nat
  | .hbm => 190
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .i32⟩
  | 4 => ⟨S4000000x3, .f32⟩
  | 5 => ⟨S1x3, .f32⟩
  | 6 => ⟨S4000000x3, .f32⟩
  | 7 => ⟨S4000000x3, .f32⟩
  | 8 => ⟨S1x3, .f32⟩
  | 9 => ⟨S4000000x3, .f32⟩
  | 10 => ⟨S4000000x3, .f32⟩
  | 11 => ⟨S4000000x3, .f32⟩
  | 12 => ⟨S4000000x3, .i32⟩
  | 13 => ⟨S_, .i32⟩
  | 14 => ⟨S4000000x3, .i32⟩
  | 15 => ⟨S4000000x3, .i1⟩
  | 16 => ⟨S1x3, .i32⟩
  | 17 => ⟨S4000000x3, .i32⟩
  | 18 => ⟨S4000000x3, .i1⟩
  | 19 => ⟨S4000000x3, .i1⟩
  | 20 => ⟨S_, .i1⟩
  | 21 => ⟨S4000000, .i1⟩
  | 22 => ⟨S4000000x1, .i32⟩
  | 23 => ⟨S4000000, .i32⟩
  | 24 => ⟨S_, .i32⟩
  | 25 => ⟨S4000000, .i32⟩
  | 26 => ⟨S4000000, .i32⟩
  | 27 => ⟨S4000000x1, .i32⟩
  | 28 => ⟨S4000000, .i32⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S4000000, .i32⟩
  | 41 => ⟨S_, .i32⟩
  | 42 => ⟨S_, .i32⟩
  | 43 => ⟨S4000000, .i32⟩
  | 44 => ⟨S4000000, .i32⟩
  | 45 => ⟨S_, .i32⟩
  | 46 => ⟨S220001, .i32⟩
  | 47 => ⟨S4000000x1, .i32⟩
  | 48 => ⟨S220001, .i32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000, .i32⟩
  | 58 => ⟨S_, .i32⟩
  | 59 => ⟨S4000000, .i32⟩
  | 60 => ⟨S4000000, .i32⟩
  | 61 => ⟨S4000000, .i1⟩
  | 62 => ⟨S4000000, .i1⟩
  | 63 => ⟨S4000000, .i32⟩
  | 64 => ⟨S_, .i32⟩
  | 65 => ⟨S_, .i32⟩
  | 66 => ⟨S4000000, .i32⟩
  | 67 => ⟨S_, .i32⟩
  | 68 => ⟨S4000000, .i32⟩
  | 69 => ⟨S4000000, .i32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S4000000x1, .i32⟩
  | 78 => ⟨S4000000, .i32⟩
  | 79 => ⟨S4000000, .i32⟩
  | 80 => ⟨S4000000, .i32⟩
  | 81 => ⟨S4000000, .i32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000, .i32⟩
  | 91 => ⟨S4000000, .i32⟩
  | 92 => ⟨S_, .i1⟩
  | 93 => ⟨S1, .i1⟩
  | 94 => ⟨S3999999, .i32⟩
  | 95 => ⟨S3999999, .i32⟩
  | 96 => ⟨S3999999, .i1⟩
  | 97 => ⟨S4000000, .i1⟩
  | 98 => ⟨S_, .i32⟩
  | 99 => ⟨S_, .i32⟩
  | 100 => ⟨S4000000, .i32⟩
  | 101 => ⟨S4000000, .i32⟩
  | 102 => ⟨S_, .i32⟩
  | 103 => ⟨S_, .i32⟩
  | 104 => ⟨S4000000, .i32⟩
  | 105 => ⟨S_, .i32⟩
  | 106 => ⟨S4000000, .i32⟩
  | 107 => ⟨S4000000, .i32⟩
  | 108 => ⟨S_, .i32⟩
  | 109 => ⟨S4000000, .i32⟩
  | 110 => ⟨S4000000, .i1⟩
  | 111 => ⟨S_, .i32⟩
  | 112 => ⟨S4000000, .i32⟩
  | 113 => ⟨S4000000, .i32⟩
  | 114 => ⟨S4000000, .i32⟩
  | 115 => ⟨S4000000x1, .i32⟩
  | 116 => ⟨S4000000, .i32⟩
  | 117 => ⟨S_, .i32⟩
  | 118 => ⟨S4000000, .i32⟩
  | 119 => ⟨S4000000, .i1⟩
  | 120 => ⟨S4000000, .i1⟩
  | 121 => ⟨S_, .i32⟩
  | 122 => ⟨S4000000, .i32⟩
  | 123 => ⟨S4000000, .i1⟩
  | 124 => ⟨S4000000, .i1⟩
  | 125 => ⟨S_, .i32⟩
  | 126 => ⟨S_, .i32⟩
  | 127 => ⟨S4000000, .i32⟩
  | _ => ⟨S4000000x4, .f32⟩

abbrev hbmTy0_1 (i : Nat) : BufTy := match i % 128 with
  | 0 => ⟨S4000000, .i32⟩
  | 1 => ⟨S_, .i32⟩
  | 2 => ⟨S_, .i32⟩
  | 3 => ⟨S4000000, .i32⟩
  | 4 => ⟨S4000000, .i32⟩
  | 5 => ⟨S_, .f32⟩
  | 6 => ⟨S40001x32x4, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x1, .i32⟩
  | 23 => ⟨S4000000x2, .i32⟩
  | 24 => ⟨S40001x32x4, .f32⟩
  | 25 => ⟨S40000x32x4, .f32⟩
  | 26 => ⟨S_, .i32⟩
  | 27 => ⟨S4000000, .i32⟩
  | 28 => ⟨S4000000, .i1⟩
  | 29 => ⟨S4000000, .i1⟩
  | 30 => ⟨S_, .i32⟩
  | 31 => ⟨S_, .i32⟩
  | 32 => ⟨S4000000, .i32⟩
  | 33 => ⟨S4000000, .i32⟩
  | 34 => ⟨S_, .i32⟩
  | 35 => ⟨S40001x3, .i32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S40001x3, .i32⟩
  | 45 => ⟨S40000x3, .i32⟩
  | 46 => ⟨S_, .i32⟩
  | 47 => ⟨S40001, .i32⟩
  | 48 => ⟨S4000000, .i32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S40001, .i32⟩
  | 58 => ⟨S40000, .i32⟩
  | 59 => ⟨S4000000, .i32⟩
  | 60 => ⟨S_, .i32⟩
  | 61 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_call0_c : Ref sig .tc := ⟨.hbm, 64, rfl⟩
abbrev main_call2_call0_v0 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call3_v0 : Ref sig .tc := ⟨.hbm, 79, rfl⟩
abbrev main_call3_v1_0 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_call4_v0 : Ref sig .tc := ⟨.hbm, 99, rfl⟩
abbrev main_call4_v1 : Ref sig .tc := ⟨.hbm, 100, rfl⟩
abbrev main_v70 : Ref sig .tc := ⟨.hbm, 101, rfl⟩
abbrev main_call5_c : Ref sig .tc := ⟨.hbm, 102, rfl⟩
abbrev main_call5_v0 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_21 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_call6_v0 : Ref sig .tc := ⟨.hbm, 126, rfl⟩
abbrev main_call6_v1 : Ref sig .tc := ⟨.hbm, 127, rfl⟩
abbrev main_v87 : Ref sig .tc := ⟨.hbm, 128, rfl⟩
abbrev main_c_24 : Ref sig .tc := ⟨.hbm, 129, rfl⟩
abbrev main_call7_v0 : Ref sig .tc := ⟨.hbm, 130, rfl⟩
abbrev main_call7_v1 : Ref sig .tc := ⟨.hbm, 131, rfl⟩
abbrev main_v88 : Ref sig .tc := ⟨.hbm, 132, rfl⟩
abbrev main_cst_25 : Ref sig .tc := ⟨.hbm, 133, rfl⟩
abbrev main_v89 : Ref sig .tc := ⟨.hbm, 134, rfl⟩
abbrev main_c_26 : Ref sig .tc := ⟨.hbm, 135, rfl⟩
abbrev main_v90 : Ref sig .tc := ⟨.hbm, 136, rfl⟩
abbrev main_v91 : Ref sig .tc := ⟨.hbm, 137, rfl⟩
abbrev main_c_27 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_28 : Ref sig .tc := ⟨.hbm, 142, rfl⟩
abbrev main_v95 : Ref sig .tc := ⟨.hbm, 143, rfl⟩
abbrev main_v96 : Ref sig .tc := ⟨.hbm, 144, rfl⟩
abbrev main_c_29 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_30 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_31 : Ref sig .tc := ⟨.hbm, 158, rfl⟩
abbrev main_call8_v0 : Ref sig .tc := ⟨.hbm, 159, rfl⟩
abbrev main_call8_v1 : Ref sig .tc := ⟨.hbm, 160, rfl⟩
abbrev main_v108 : Ref sig .tc := ⟨.hbm, 161, rfl⟩
abbrev main_c_32 : Ref sig .tc := ⟨.hbm, 162, rfl⟩
abbrev main_v109 : Ref sig .tc := ⟨.hbm, 163, rfl⟩
abbrev main_c_33 : Ref sig .tc := ⟨.hbm, 164, rfl⟩
abbrev main_v110 : Ref sig .tc := ⟨.hbm, 165, rfl⟩
abbrev main_v111 : Ref sig .tc := ⟨.hbm, 166, rfl⟩
abbrev main_c_34 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_35 : Ref sig .tc := ⟨.hbm, 174, rfl⟩
abbrev main_v118 : Ref sig .tc := ⟨.hbm, 175, rfl⟩
abbrev main_v119 : Ref sig .tc := ⟨.hbm, 176, rfl⟩
abbrev main_c_36 : Ref sig .tc := ⟨.hbm, 177, rfl⟩
abbrev main_v120 : Ref sig .tc := ⟨.hbm, 178, rfl⟩
abbrev main_v121 : Ref sig .tc := ⟨.hbm, 179, rfl⟩
abbrev main_c_37 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_c_38 : Ref sig .tc := ⟨.hbm, 188, rfl⟩
abbrev main_v129 : Ref sig .tc := ⟨.hbm, 189, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  bcast_S_S4000000x3 : S_.BroadcastsInDim S4000000x3 (![] : Fin 0 → Fin S4000000x3.rank)
  reducesTo_S4000000x3_S4000000_d1 : S4000000x3.ReducesTo [1] S4000000
  h_S_ : 0 < S_.numel
  slices_S4000000x3_S4000000x1_0_0 : S4000000x3.Slices ![0, 0] S4000000x1
  shapeCasts_S4000000x1_S4000000 : S4000000x1.ShapeCasts S4000000
  bcast_S_S4000000 : S_.BroadcastsInDim S4000000 (![] : Fin 0 → Fin S4000000.rank)
  slices_S4000000x3_S4000000x1_0_1 : S4000000x3.Slices ![0, 1] S4000000x1
  slices_S4000000x3_S4000000x1_0_2 : S4000000x3.Slices ![0, 2] S4000000x1
  bcast_S_S220001 : S_.BroadcastsInDim S220001 (![] : Fin 0 → Fin S220001.rank)
  bcast_S4000000_S4000000x1_0 : S4000000.BroadcastsInDim S4000000x1 (![0] : Fin 1 → Fin S4000000x1.rank)
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  bcast_S_S40001x32x4 : S_.BroadcastsInDim S40001x32x4 (![] : Fin 0 → Fin S40001x32x4.rank)
  concatenates_S4000000x1_S4000000x1_S4000000x2_d1 : Shape.Concatenates [S4000000x1, S4000000x1] S4000000x2 1
  slices_S40001x32x4_S40000x32x4_0_0_0 : S40001x32x4.Slices ![0, 0, 0] S40000x32x4
  bcast_S_S40001x3 : S_.BroadcastsInDim S40001x3 (![] : Fin 0 → Fin S40001x3.rank)
  slices_S40001x3_S40000x3_0_0 : S40001x3.Slices ![0, 0] S40000x3
  bcast_S_S40001 : S_.BroadcastsInDim S40001 (![] : Fin 0 → Fin S40001.rank)
  slices_S40001_S40000_0 : S40001.Slices ![0] S40000
  reducesTo_S4000000_S_d0 : S4000000.ReducesTo [0] S_
  scatter_S220001_S4000000x1_S4000000_n_0_0_1_wf : ScatterDims.WF S220001 S4000000x1 S4000000 [] [0] [0] 1
  gather_S220001_S4000000x1_S4000000_n_0_n_n_0_1_1_wf : GatherDims.WF S220001 S4000000x1 S4000000 [] [0] [] [0] [] 1 ![1]
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  scatter_S40001x32x4_S4000000x2_S4000000x4_1_01_01_1_wf : ScatterDims.WF S40001x32x4 S4000000x2 S4000000x4 [1] [0, 1] [0, 1] 1
  scatter_S40001x3_S4000000x1_S4000000x3_1_0_0_1_wf : ScatterDims.WF S40001x3 S4000000x1 S4000000x3 [1] [0] [0] 1
  scatter_S40001_S4000000x1_S4000000_n_0_0_1_wf : ScatterDims.WF S40001 S4000000x1 S4000000 [] [0] [0] 1

variable [Facts₀]

def scatter_S220001_S4000000x1_S4000000_n_0_0_1 : ScatterDims S220001 S4000000x1 S4000000 where
  updateWindowDims := []
  insertedWindowDims := [0]
  scatterDimsToOperandDims := [0]
  indexVectorDim := 1
  wf := scatter_S220001_S4000000x1_S4000000_n_0_0_1_wf
def gather_S220001_S4000000x1_S4000000_n_0_n_n_0_1_1 : GatherDims S220001 S4000000x1 S4000000 where
  offsetDims := []
  collapsedSliceDims := [0]
  operandBatchingDims := []
  startIndicesBatchingDims := []
  startIndexMap := [0]
  indexVectorDim := 1
  sliceSizes := ![1]
  wf := gather_S220001_S4000000x1_S4000000_n_0_n_n_0_1_1_wf
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def comparator_i32_i32_d0 : BitVec 32 × BitVec 32 → BitVec 32 × BitVec 32 → BitVec 1 :=
  fun l r =>
    let v2 := IntOp.cmpi .slt l.1 r.1
    v2
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def scatter_S40001x32x4_S4000000x2_S4000000x4_1_01_01_1 : ScatterDims S40001x32x4 S4000000x2 S4000000x4 where
  updateWindowDims := [1]
  insertedWindowDims := [0, 1]
  scatterDimsToOperandDims := [0, 1]
  indexVectorDim := 1
  wf := scatter_S40001x32x4_S4000000x2_S4000000x4_1_01_01_1_wf
def scatter_S40001x3_S4000000x1_S4000000x3_1_0_0_1 : ScatterDims S40001x3 S4000000x1 S4000000x3 where
  updateWindowDims := [1]
  insertedWindowDims := [0]
  scatterDimsToOperandDims := [0]
  indexVectorDim := 1
  wf := scatter_S40001x3_S4000000x1_S4000000x3_1_0_0_1_wf
def scatter_S40001_S4000000x1_S4000000_n_0_0_1 : ScatterDims S40001 S4000000x1 S4000000 where
  updateWindowDims := []
  insertedWindowDims := [0]
  scatterDimsToOperandDims := [0]
  indexVectorDim := 1
  wf := scatter_S40001_S4000000x1_S4000000_n_0_0_1_wf

class Facts : Prop extends Facts₀ where

variable [Facts]
-- ==== Proof.KFrame.lean ====
/-
  The frame of the hashing program: @main is one pipelined region (twenty blocks of 200000 points) followed
  by host operations that read what the region wrote.  The region's body loads a block of points, computes the
  three cell coordinates and the linear cell id of every point of the block, and stores them whole; so after the
  body each output's staging buffer holds a pure function of the input block, every block is written back, and
  the argument array is never written: not by the region (it is only fetched), not by a later host operation
  (each writes its own result buffer).
-/
import proofs.«136472_j73985106641253_1_alg».proof.Proof.Gen.KernelIdeal.Launch
import proofs.«136472_j73985106641253_1_alg».proof.Proof.Gen.KernelIdeal.Skeleton
import proofs.«136472_j73985106641253_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- Core `c`'s buffer contents when the region is entered: the launch contents (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [] tailOpss (by simp only [List.Forall])
    (by simp only [List.Forall]) main_chain

/-- Each builder writes exactly its result buffer; a window's array is another reference than that buffer. -/
local macro "keeps_stretch" : tactic => `(tactic| (
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))))

/-- No builder allocates. -/
local macro "fresh_stretch" : tactic => `(tactic| (simp only [List.Forall]; repeat' constructor))

set_option maxHeartbeats 400000 in
theorem keeps_0 : (hostOps1 : List (HloOp τ sig (Elt F))).Forall fun op =>
    ∀ w, Proc.devRef .tc (Pipeline.arrRef spec0 w) ∉ op.writes := by keeps_stretch
set_option maxHeartbeats 400000 in
theorem fresh_0 : (hostOps1 : List (HloOp τ sig (Elt F))).Forall fun op => op.fresh = ∅ := by fresh_stretch
set_option maxHeartbeats 400000 in
theorem keeps_1 : (hostOps1_1 : List (HloOp τ sig (Elt F))).Forall fun op =>
    ∀ w, Proc.devRef .tc (Pipeline.arrRef spec0 w) ∉ op.writes := by keeps_stretch
set_option maxHeartbeats 400000 in
theorem fresh_1 : (hostOps1_1 : List (HloOp τ sig (Elt F))).Forall fun op => op.fresh = ∅ := by fresh_stretch
set_option maxHeartbeats 400000 in
theorem keeps_2 : (hostOps1_2 : List (HloOp τ sig (Elt F))).Forall fun op =>
    ∀ w, Proc.devRef .tc (Pipeline.arrRef spec0 w) ∉ op.writes := by keeps_stretch
set_option maxHeartbeats 400000 in
theorem fresh_2 : (hostOps1_2 : List (HloOp τ sig (Elt F))).Forall fun op => op.fresh = ∅ := by fresh_stretch
set_option maxHeartbeats 400000 in
theorem keeps_3 : (hostOps1_3 : List (HloOp τ sig (Elt F))).Forall fun op =>
    ∀ w, Proc.devRef .tc (Pipeline.arrRef spec0 w) ∉ op.writes := by keeps_stretch
set_option maxHeartbeats 400000 in
theorem fresh_3 : (hostOps1_3 : List (HloOp τ sig (Elt F))).Forall fun op => op.fresh = ∅ := by fresh_stretch
set_option maxHeartbeats 400000 in
theorem keeps_4 : (hostOps1_4 : List (HloOp τ sig (Elt F))).Forall fun op =>
    ∀ w, Proc.devRef .tc (Pipeline.arrRef spec0 w) ∉ op.writes := by keeps_stretch
set_option maxHeartbeats 400000 in
theorem fresh_4 : (hostOps1_4 : List (HloOp τ sig (Elt F))).Forall fun op => op.fresh = ∅ := by fresh_stretch
set_option maxHeartbeats 400000 in
theorem keeps_5 : (hostOps1_5 : List (HloOp τ sig (Elt F))).Forall fun op =>
    ∀ w, Proc.devRef .tc (Pipeline.arrRef spec0 w) ∉ op.writes := by keeps_stretch
set_option maxHeartbeats 400000 in
theorem fresh_5 : (hostOps1_5 : List (HloOp τ sig (Elt F))).Forall fun op => op.fresh = ∅ := by fresh_stretch
set_option maxHeartbeats 400000 in
theorem keeps_6 : (hostOps1_6 : List (HloOp τ sig (Elt F))).Forall fun op =>
    ∀ w, Proc.devRef .tc (Pipeline.arrRef spec0 w) ∉ op.writes := by keeps_stretch
set_option maxHeartbeats 400000 in
theorem fresh_6 : (hostOps1_6 : List (HloOp τ sig (Elt F))).Forall fun op => op.fresh = ∅ := by fresh_stretch
set_option maxHeartbeats 400000 in
theorem keeps_7 : (hostOps1_7 : List (HloOp τ sig (Elt F))).Forall fun op =>
    ∀ w, Proc.devRef .tc (Pipeline.arrRef spec0 w) ∉ op.writes := by keeps_stretch
set_option maxHeartbeats 400000 in
theorem fresh_7 : (hostOps1_7 : List (HloOp τ sig (Elt F))).Forall fun op => op.fresh = ∅ := by fresh_stretch
set_option maxHeartbeats 400000 in
theorem keeps_8 : (hostOps1_8 : List (HloOp τ sig (Elt F))).Forall fun op =>
    ∀ w, Proc.devRef .tc (Pipeline.arrRef spec0 w) ∉ op.writes := by keeps_stretch
set_option maxHeartbeats 400000 in
theorem fresh_8 : (hostOps1_8 : List (HloOp τ sig (Elt F))).Forall fun op => op.fresh = ∅ := by fresh_stretch
set_option maxHeartbeats 400000 in
theorem keeps_9 : (hostOps1_9 : List (HloOp τ sig (Elt F))).Forall fun op =>
    ∀ w, Proc.devRef .tc (Pipeline.arrRef spec0 w) ∉ op.writes := by keeps_stretch
set_option maxHeartbeats 400000 in
theorem fresh_9 : (hostOps1_9 : List (HloOp τ sig (Elt F))).Forall fun op => op.fresh = ∅ := by fresh_stretch
set_option maxHeartbeats 400000 in
theorem keeps_10 : (hostOps1_10 : List (HloOp τ sig (Elt F))).Forall fun op =>
    ∀ w, Proc.devRef .tc (Pipeline.arrRef spec0 w) ∉ op.writes := by keeps_stretch
set_option maxHeartbeats 400000 in
theorem fresh_10 : (hostOps1_10 : List (HloOp τ sig (Elt F))).Forall fun op => op.fresh = ∅ := by fresh_stretch
set_option maxHeartbeats 400000 in
theorem keeps_11 : (hostOps1_11 : List (HloOp τ sig (Elt F))).Forall fun op =>
    ∀ w, Proc.devRef .tc (Pipeline.arrRef spec0 w) ∉ op.writes := by keeps_stretch
set_option maxHeartbeats 400000 in
theorem fresh_11 : (hostOps1_11 : List (HloOp τ sig (Elt F))).Forall fun op => op.fresh = ∅ := by fresh_stretch
set_option maxHeartbeats 400000 in
theorem keeps_12 : (hostOps1_12 : List (HloOp τ sig (Elt F))).Forall fun op =>
    ∀ w, Proc.devRef .tc (Pipeline.arrRef spec0 w) ∉ op.writes := by keeps_stretch
set_option maxHeartbeats 400000 in
theorem fresh_12 : (hostOps1_12 : List (HloOp τ sig (Elt F))).Forall fun op => op.fresh = ∅ := by fresh_stretch
set_option maxHeartbeats 400000 in
theorem keeps_13 : (hostOps1_13 : List (HloOp τ sig (Elt F))).Forall fun op =>
    ∀ w, Proc.devRef .tc (Pipeline.arrRef spec0 w) ∉ op.writes := by keeps_stretch
set_option maxHeartbeats 400000 in
theorem fresh_13 : (hostOps1_13 : List (HloOp τ sig (Elt F))).Forall fun op => op.fresh = ∅ := by fresh_stretch
set_option maxHeartbeats 400000 in
theorem keeps_14 : (hostOps1_14 : List (HloOp τ sig (Elt F))).Forall fun op =>
    ∀ w, Proc.devRef .tc (Pipeline.arrRef spec0 w) ∉ op.writes := by keeps_stretch
set_option maxHeartbeats 400000 in
theorem fresh_14 : (hostOps1_14 : List (HloOp τ sig (Elt F))).Forall fun op => op.fresh = ∅ := by fresh_stretch
set_option maxHeartbeats 400000 in
theorem keeps_15 : (hostOps1_15 : List (HloOp τ sig (Elt F))).Forall fun op =>
    ∀ w, Proc.devRef .tc (Pipeline.arrRef spec0 w) ∉ op.writes := by keeps_stretch
set_option maxHeartbeats 400000 in
theorem fresh_15 : (hostOps1_15 : List (HloOp τ sig (Elt F))).Forall fun op => op.fresh = ∅ := by fresh_stretch

/-- A property of every operation of every stretch, from its holding stretch by stretch. -/
theorem forall_tail {P : HloOp τ sig (Elt F) → Prop}
    (h : (tailOpss : List (List (HloOp τ sig (Elt F)))).Forall fun ops => ops.Forall P) :
    ∀ ops ∈ (tailOpss : List (List (HloOp τ sig (Elt F)))), ∀ op ∈ ops, P op := fun ops hops op hop =>
  List.forall_iff_forall_mem.mp (List.forall_iff_forall_mem.mp h ops hops) op hop

/-- The later operations touch unscoped TensorCore buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_tail (P := fun op => op.bufs ⊆ StableHlo.tcRefs τ sig)
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub⟩ ops hops op hop)
/-- They allocate nothing. -/
theorem sfx_fresh : ∀ ops ∈ (tailOpss : List (List (HloOp τ sig (Elt F)))), ∀ op ∈ ops, op.fresh = ∅ :=
  forall_tail ⟨fresh_0, fresh_1, fresh_2, fresh_3, fresh_4, fresh_5, fresh_6, fresh_7, fresh_8, fresh_9, fresh_10, fresh_11, fresh_12, fresh_13, fresh_14, fresh_15⟩
/-- And none writes an array of the pipeline (each writes only its own result buffer). -/
theorem sfx_keeps : ∀ ops ∈ (tailOpss : List (List (HloOp τ sig (Elt F)))), ∀ op ∈ ops,
    ∀ w, Proc.devRef .tc (Pipeline.arrRef spec0 w) ∉ op.writes :=
  forall_tail ⟨keeps_0, keeps_1, keeps_2, keeps_3, keeps_4, keeps_5, keeps_6, keeps_7, keeps_8, keeps_9, keeps_10, keeps_11, keeps_12, keeps_13, keeps_14, keeps_15⟩

/-- The region finds the argument array as launched. -/
theorem V_main_arg0 (c : Dev nD) : V m c main_arg0 = m ((c : Thread nD τ).loc main_arg0) := rfl

/-- No host operation after the region writes the argument array: it ends as launched. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ (fun op hop => by
    obtain ⟨ops, hops, hop'⟩ := List.mem_flatten.mp hop
    exact sfx_keeps ops hops op hop' 0)]
  exact (Pipeline.withArrays_arr spec0 launch0.win.arr_inj c _ _ 0).trans
    (((dats 0 c).arrAt_in 0 rfl _).trans ((hA c 0).trans (V_main_arg0 m c)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

/-- The offsets of every access of the body: zero on both axes. -/
theorem zero_off : (![0, 0] : Fin 2 → Nat) = fun _ => 0 := funext fun a => by fin_cases a <;> rfl

abbrev r0_0 : Rect S200000x4 := Rect.unit (s := S200000x4) ![0, 0] S200000x4.size inb_S200000x4_S200000x4_0_0
abbrev r0_1 : Rect S200000x3 := Rect.unit (s := S200000x3) ![0, 0] S200000x3.size inb_S200000x3_S200000x3_0_0
abbrev r0_2 : Rect S200000x1 := Rect.unit (s := S200000x1) ![0, 0] S200000x1.size inb_S200000x1_S200000x1_0_0

/-- The coordinate buffer after the body: the three coordinate columns of the block's points, side by side. -/
def out0_1 (x0 : Vec F S200000x4 .f32) : Vec F S200000x3 .i32 :=
  View.canon [⟨r0_1, k0_pay1 (k0_pay3 (View.ld x0 r0_0)) (k0_pay4 (View.ld x0 r0_0)) (k0_pay5 (View.ld x0 r0_0))⟩]

/-- The cell-id buffer after the body: the linear cell id of each point of the block, or the sentinel. -/
def out0_2 (x0 : Vec F S200000x4 .f32) : Vec F S200000x1 .i32 :=
  View.canon [⟨r0_2, k0_pay2 (k0_pay4 (View.ld x0 r0_0)) (k0_pay5 (View.ld x0 r0_0)) (k0_pay6 (View.ld x0 r0_0)) (k0_pay7 (View.ld x0 r0_0))⟩]

/-- The one store covers the buffer, and the load reads the whole block: the buffer holds the payload itself. -/
theorem out0_1_eq (x0 : Vec F S200000x4 .f32) : out0_1 x0 = k0_pay1 (k0_pay3 x0) (k0_pay4 x0) (k0_pay5 x0) := by
  unfold out0_1
  rw [View.canon_unit_zero zero_off, View.ld_unit_zero (S := S200000x4) zero_off]
theorem out0_2_eq (x0 : Vec F S200000x4 .f32) : out0_2 x0 = k0_pay2 (k0_pay4 x0) (k0_pay5 x0) (k0_pay6 x0) (k0_pay7 x0) := by
  unfold out0_2
  rw [View.canon_unit_zero zero_off, View.ld_unit_zero (S := S200000x4) zero_off]

/-! ## The body's triple -/

/-- The one store into each output buffer covers it. -/
theorem cover0_1 (p0 : Vec F S200000x3 .i32) (y : S200000x3.Idx) :
    ∃ pc ∈ ([⟨r0_1, p0⟩] : List (View.Piece (Elt F) S200000x3 .i32)), y ∈ pc.1.set :=
  ⟨_, List.mem_singleton_self _, View.mem_set_unit_zero zero_off inb_S200000x3_S200000x3_0_0 y⟩
theorem cover0_2 (p0 : Vec F S200000x1 .i32) (y : S200000x1.Idx) :
    ∃ pc ∈ ([⟨r0_2, p0⟩] : List (View.Piece (Elt F) S200000x1 .i32)), y ∈ pc.1.set :=
  ⟨_, List.mem_singleton_self _, View.mem_set_unit_zero zero_off inb_S200000x1_S200000x1_0_0 y⟩

set_option maxHeartbeats 1000000 in
/-- The kernel body on whole staging memrefs, the input's at contents `x0` and the outputs' at anything, runs to
    the continuation holding the input's as it was and each output's at its function of `x0`. -/
theorem sound_kernel (c : Dev nD) (E : Set ℕ) (i : grid0.Coords)
    (arg1 : Memref sig .tc .vmem S200000x4 .f32) (harg1 : arg1.IsWhole)
    (arg2 : Memref sig .tc .vmem S200000x3 .i32) (harg2 : arg2.IsWhole)
    (arg3 : Memref sig .tc .vmem S200000x1 .i32) (harg3 : arg3.IsWhole)
    (x0 : Vec F S200000x4 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__hash_kernel i arg1 harg1 arg2 harg2 arg3 harg3) K := by
  simp only [cc0__hash_kernel_eq_skeleton]; unfold cc0__hash_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (cover0_1 _)
  iexists _; isplitr
  swap; · iexact H2
  ipureintro
  try dsimp only
  exact View.read_writes_eq_canon _ _ _ (cover0_2 _)

/-! ## The pipeline's proof data -/

/-- The proof data of the pipeline on core `c`: the arrays as the region finds them; after the body at point `t` the
    input's buffer at its block and each output's at its function of the input block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data
    computes, every other unscoped buffer as the later host operations leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (V_main_arg0 m c))) (run_main m ρ)

end Cert.KernelIdeal.HFrame

end
-- ==== Proof.KFrameBits.lean ====
/-
  The frame of the hashing program: @main is one pipelined region (twenty blocks of 200000 points) followed
  by host operations that read what the region wrote.  The region's body loads a block of points, computes the
  three cell coordinates and the linear cell id of every point of the block, and stores them whole; so after the
  body each output's staging buffer holds a pure function of the input block, every block is written back, and
  the argument array is never written: not by the region (it is only fetched), not by a later host operation
  (each writes its own result buffer).
-/
import proofs.«136472_j73985106641253_1_alg».proof.Proof.Gen.Kernel.Launch
import proofs.«136472_j73985106641253_1_alg».proof.Proof.Gen.Kernel.Skeleton
import proofs.«136472_j73985106641253_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- Core `c`'s buffer contents when the region is entered: the launch contents (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [] tailOpss (by simp only [List.Forall])
    (by simp only [List.Forall]) main_chain

/-- Each builder writes exactly its result buffer; a window's array is another reference than that buffer. -/
local macro "keeps_stretch" : tactic => `(tactic| (
  simp only [List.Forall]
  repeat' apply And.intro
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))))

/-- No builder allocates. -/
local macro "fresh_stretch" : tactic => `(tactic| (simp only [List.Forall]; repeat' constructor))

set_option maxHeartbeats 400000 in
theorem keeps_0 : (hostOps1 : List (HloOp τ sig (Elt F))).Forall fun op =>
    ∀ w, Proc.devRef .tc (Pipeline.arrRef spec0 w) ∉ op.writes := by keeps_stretch
set_option maxHeartbeats 400000 in
theorem fresh_0 : (hostOps1 : List (HloOp τ sig (Elt F))).Forall fun op => op.fresh = ∅ := by fresh_stretch
set_option maxHeartbeats 400000 in
theorem keeps_1 : (hostOps1_1 : List (HloOp τ sig (Elt F))).Forall fun op =>
    ∀ w, Proc.devRef .tc (Pipeline.arrRef spec0 w) ∉ op.writes := by keeps_stretch
set_option maxHeartbeats 400000 in
theorem fresh_1 : (hostOps1_1 : List (HloOp τ sig (Elt F))).Forall fun op => op.fresh = ∅ := by fresh_stretch
set_option maxHeartbeats 400000 in
theorem keeps_2 : (hostOps1_2 : List (HloOp τ sig (Elt F))).Forall fun op =>
    ∀ w, Proc.devRef .tc (Pipeline.arrRef spec0 w) ∉ op.writes := by keeps_stretch
set_option maxHeartbeats 400000 in
theorem fresh_2 : (hostOps1_2 : List (HloOp τ sig (Elt F))).Forall fun op => op.fresh = ∅ := by fresh_stretch
set_option maxHeartbeats 400000 in
theorem keeps_3 : (hostOps1_3 : List (HloOp τ sig (Elt F))).Forall fun op =>
    ∀ w, Proc.devRef .tc (Pipeline.arrRef spec0 w) ∉ op.writes := by keeps_stretch
set_option maxHeartbeats 400000 in
theorem fresh_3 : (hostOps1_3 : List (HloOp τ sig (Elt F))).Forall fun op => op.fresh = ∅ := by fresh_stretch
set_option maxHeartbeats 400000 in
theorem keeps_4 : (hostOps1_4 : List (HloOp τ sig (Elt F))).Forall fun op =>
    ∀ w, Proc.devRef .tc (Pipeline.arrRef spec0 w) ∉ op.writes := by keeps_stretch
set_option maxHeartbeats 400000 in
theorem fresh_4 : (hostOps1_4 : List (HloOp τ sig (Elt F))).Forall fun op => op.fresh = ∅ := by fresh_stretch
set_option maxHeartbeats 400000 in
theorem keeps_5 : (hostOps1_5 : List (HloOp τ sig (Elt F))).Forall fun op =>
    ∀ w, Proc.devRef .tc (Pipeline.arrRef spec0 w) ∉ op.writes := by keeps_stretch
set_option maxHeartbeats 400000 in
theorem fresh_5 : (hostOps1_5 : List (HloOp τ sig (Elt F))).Forall fun op => op.fresh = ∅ := by fresh_stretch
set_option maxHeartbeats 400000 in
theorem keeps_6 : (hostOps1_6 : List (HloOp τ sig (Elt F))).Forall fun op =>
    ∀ w, Proc.devRef .tc (Pipeline.arrRef spec0 w) ∉ op.writes := by keeps_stretch
set_option maxHeartbeats 400000 in
theorem fresh_6 : (hostOps1_6 : List (HloOp τ sig (Elt F))).Forall fun op => op.fresh = ∅ := by fresh_stretch
set_option maxHeartbeats 400000 in
theorem keeps_7 : (hostOps1_7 : List (HloOp τ sig (Elt F))).Forall fun op =>
    ∀ w, Proc.devRef .tc (Pipeline.arrRef spec0 w) ∉ op.writes := by keeps_stretch
set_option maxHeartbeats 400000 in
theorem fresh_7 : (hostOps1_7 : List (HloOp τ sig (Elt F))).Forall fun op => op.fresh = ∅ := by fresh_stretch
set_option maxHeartbeats 400000 in
theorem keeps_8 : (hostOps1_8 : List (HloOp τ sig (Elt F))).Forall fun op =>
    ∀ w, Proc.devRef .tc (Pipeline.arrRef spec0 w) ∉ op.writes := by keeps_stretch
set_option maxHeartbeats 400000 in
theorem fresh_8 : (hostOps1_8 : List (HloOp τ sig (Elt F))).Forall fun op => op.fresh = ∅ := by fresh_stretch
set_option maxHeartbeats 400000 in
theorem keeps_9 : (hostOps1_9 : List (HloOp τ sig (Elt F))).Forall fun op =>
    ∀ w, Proc.devRef .tc (Pipeline.arrRef spec0 w) ∉ op.writes := by keeps_stretch
set_option maxHeartbeats 400000 in
theorem fresh_9 : (hostOps1_9 : List (HloOp τ sig (Elt F))).Forall fun op => op.fresh = ∅ := by fresh_stretch
set_option maxHeartbeats 400000 in
theorem keeps_10 : (hostOps1_10 : List (HloOp τ sig (Elt F))).Forall fun op =>
    ∀ w, Proc.devRef .tc (Pipeline.arrRef spec0 w) ∉ op.writes := by keeps_stretch
set_option maxHeartbeats 400000 in
theorem fresh_10 : (hostOps1_10 : List (HloOp τ sig (Elt F))).Forall fun op => op.fresh = ∅ := by fresh_stretch
set_option maxHeartbeats 400000 in
theorem keeps_11 : (hostOps1_11 : List (HloOp τ sig (Elt F))).Forall fun op =>
    ∀ w, Proc.devRef .tc (Pipeline.arrRef spec0 w) ∉ op.writes := by keeps_stretch
set_option maxHeartbeats 400000 in
theorem fresh_11 : (hostOps1_11 : List (HloOp τ sig (Elt F))).Forall fun op => op.fresh = ∅ := by fresh_stretch
set_option maxHeartbeats 400000 in
theorem keeps_12 : (hostOps1_12 : List (HloOp τ sig (Elt F))).Forall fun op =>
    ∀ w, Proc.devRef .tc (Pipeline.arrRef spec0 w) ∉ op.writes := by keeps_stretch
set_option maxHeartbeats 400000 in
theorem fresh_12 : (hostOps1_12 : List (HloOp τ sig (Elt F))).Forall fun op => op.fresh = ∅ := by fresh_stretch
set_option maxHeartbeats 400000 in
theorem keeps_13 : (hostOps1_13 : List (HloOp τ sig (Elt F))).Forall fun op =>
    ∀ w, Proc.devRef .tc (Pipeline.arrRef spec0 w) ∉ op.writes := by keeps_stretch
set_option maxHeartbeats 400000 in
theorem fresh_13 : (hostOps1_13 : List (HloOp τ sig (Elt F))).Forall fun op => op.fresh = ∅ := by fresh_stretch
set_option maxHeartbeats 400000 in
theorem keeps_14 : (hostOps1_14 : List (HloOp τ sig (Elt F))).Forall fun op =>
    ∀ w, Proc.devRef .tc (Pipeline.arrRef spec0 w) ∉ op.writes := by keeps_stretch
set_option maxHeartbeats 400000 in
theorem fresh_14 : (hostOps1_14 : List (HloOp τ sig (Elt F))).Forall fun op => op.fresh = ∅ := by fresh_stretch
set_option maxHeartbeats 400000 in
theorem keeps_15 : (hostOps1_15 : List (HloOp τ sig (Elt F))).Forall fun op =>
    ∀ w, Proc.devRef .tc (Pipeline.arrRef spec0 w) ∉ op.writes := by keeps_stretch
set_option maxHeartbeats 400000 in
theorem fresh_15 : (hostOps1_15 : List (HloOp τ sig (Elt F))).Forall fun op => op.fresh = ∅ := by fresh_stretch

/-- A property of every operation of every stretch, from its holding stretch by stretch. -/
theorem forall_tail {P : HloOp τ sig (Elt F) → Prop}
    (h : (tailOpss : List (List (HloOp τ sig (Elt F)))).Forall fun ops => ops.Forall P) :
    ∀ ops ∈ (tailOpss : List (List (HloOp τ sig (Elt F)))), ∀ op ∈ ops, P op := fun ops hops op hop =>
  List.forall_iff_forall_mem.mp (List.forall_iff_forall_mem.mp h ops hops) op hop

/-- The later operations touch unscoped TensorCore buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_tail (P := fun op => op.bufs ⊆ StableHlo.tcRefs τ sig)
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub⟩ ops hops op hop)
/-- They allocate nothing. -/
theorem sfx_fresh : ∀ ops ∈ (tailOpss : List (List (HloOp τ sig (Elt F)))), ∀ op ∈ ops, op.fresh = ∅ :=
  forall_tail ⟨fresh_0, fresh_1, fresh_2, fresh_3, fresh_4, fresh_5, fresh_6, fresh_7, fresh_8, fresh_9, fresh_10, fresh_11, fresh_12, fresh_13, fresh_14, fresh_15⟩
/-- And none writes an array of the pipeline (each writes only its own result buffer). -/
theorem sfx_keeps : ∀ ops ∈ (tailOpss : List (List (HloOp τ sig (Elt F)))), ∀ op ∈ ops,
    ∀ w, Proc.devRef .tc (Pipeline.arrRef spec0 w) ∉ op.writes :=
  forall_tail ⟨keeps_0, keeps_1, keeps_2, keeps_3, keeps_4, keeps_5, keeps_6, keeps_7, keeps_8, keeps_9, keeps_10, keeps_11, keeps_12, keeps_13, keeps_14, keeps_15⟩

/-- The region finds the argument array as launched. -/
theorem V_main_arg0 (c : Dev nD) : V m c main_arg0 = m ((c : Thread nD τ).loc main_arg0) := rfl

/-- No host operation after the region writes the argument array: it ends as launched. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ (fun op hop => by
    obtain ⟨ops, hops, hop'⟩ := List.mem_flatten.mp hop
    exact sfx_keeps ops hops op hop' 0)]
  exact (Pipeline.withArrays_arr spec0 launch0.win.arr_inj c _ _ 0).trans
    (((dats 0 c).arrAt_in 0 rfl _).trans ((hA c 0).trans (V_main_arg0 m c)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

/-- The offsets of every access of the body: zero on both axes. -/
theorem zero_off : (![0, 0] : Fin 2 → Nat) = fun _ => 0 := funext fun a => by fin_cases a <;> rfl

abbrev r0_0 : Rect S200000x4 := Rect.unit (s := S200000x4) ![0, 0] S200000x4.size inb_S200000x4_S200000x4_0_0
abbrev r0_1 : Rect S200000x3 := Rect.unit (s := S200000x3) ![0, 0] S200000x3.size inb_S200000x3_S200000x3_0_0
abbrev r0_2 : Rect S200000x1 := Rect.unit (s := S200000x1) ![0, 0] S200000x1.size inb_S200000x1_S200000x1_0_0

/-- The coordinate buffer after the body: the three coordinate columns of the block's points, side by side. -/
def out0_1 (x0 : Vec F S200000x4 .f32) : Vec F S200000x3 .i32 :=
  View.canon [⟨r0_1, k0_pay1 (k0_pay3 (View.ld x0 r0_0)) (k0_pay4 (View.ld x0 r0_0)) (k0_pay5 (View.ld x0 r0_0))⟩]

/-- The cell-id buffer after the body: the linear cell id of each point of the block, or the sentinel. -/
def out0_2 (x0 : Vec F S200000x4 .f32) : Vec F S200000x1 .i32 :=
  View.canon [⟨r0_2, k0_pay2 (k0_pay4 (View.ld x0 r0_0)) (k0_pay5 (View.ld x0 r0_0)) (k0_pay6 (View.ld x0 r0_0)) (k0_pay7 (View.ld x0 r0_0))⟩]

/-- The one store covers the buffer, and the load reads the whole block: the buffer holds the payload itself. -/
theorem out0_1_eq (x0 : Vec F S200000x4 .f32) : out0_1 x0 = k0_pay1 (k0_pay3 x0) (k0_pay4 x0) (k0_pay5 x0) := by
  unfold out0_1
  rw [View.canon_unit_zero zero_off, View.ld_unit_zero (S := S200000x4) zero_off]
theorem out0_2_eq (x0 : Vec F S200000x4 .f32) : out0_2 x0 = k0_pay2 (k0_pay4 x0) (k0_pay5 x0) (k0_pay6 x0) (k0_pay7 x0) := by
  unfold out0_2
  rw [View.canon_unit_zero zero_off, View.ld_unit_zero (S := S200000x4) zero_off]

/-! ## The body's triple -/

/-- The one store into each output buffer covers it. -/
theorem cover0_1 (p0 : Vec F S200000x3 .i32) (y : S200000x3.Idx) :
    ∃ pc ∈ ([⟨r0_1, p0⟩] : List (View.Piece (Elt F) S200000x3 .i32)), y ∈ pc.1.set :=
  ⟨_, List.mem_singleton_self _, View.mem_set_unit_zero zero_off inb_S200000x3_S200000x3_0_0 y⟩
theorem cover0_2 (p0 : Vec F S200000x1 .i32) (y : S200000x1.Idx) :
    ∃ pc ∈ ([⟨r0_2, p0⟩] : List (View.Piece (Elt F) S200000x1 .i32)), y ∈ pc.1.set :=
  ⟨_, List.mem_singleton_self _, View.mem_set_unit_zero zero_off inb_S200000x1_S200000x1_0_0 y⟩

set_option maxHeartbeats 1000000 in
/-- The kernel body on whole staging memrefs, the input's at contents `x0` and the outputs' at anything, runs to
    the continuation holding the input's as it was and each output's at its function of `x0`. -/
theorem sound_kernel (c : Dev nD) (E : Set ℕ) (i : grid0.Coords)
    (arg1 : Memref sig .tc .vmem S200000x4 .f32) (harg1 : arg1.IsWhole)
    (arg2 : Memref sig .tc .vmem S200000x3 .i32) (harg2 : arg2.IsWhole)
    (arg3 : Memref sig .tc .vmem S200000x1 .i32) (harg3 : arg3.IsWhole)
    (x0 : Vec F S200000x4 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__hash_kernel i arg1 harg1 arg2 harg2 arg3 harg3) K := by
  simp only [cc0__hash_kernel_eq_skeleton]; unfold cc0__hash_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (cover0_1 _)
  iexists _; isplitr
  swap; · iexact H2
  ipureintro
  try dsimp only
  exact View.read_writes_eq_canon _ _ _ (cover0_2 _)

/-! ## The pipeline's proof data -/

/-- The proof data of the pipeline on core `c`: the arrays as the region finds them; after the body at point `t` the
    input's buffer at its block and each output's at its function of the input block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data
    computes, every other unscoped buffer as the later host operations leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (V_main_arg0 m c))) (run_main m ρ)

end Cert.Kernel.HFrame

end
-- ==== Proof.RefOps.lean ====
/-
  The reference program's host operations, in order, cut into lists: the first list ends with the linear cell id
  of every point; the later lists are what the reference computes from the points, their cell coordinates,
  their validity and their cell ids.
-/
import proofs.«136472_j73985106641253_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 39 operations. -/
abbrev ops0 : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
    StableHlo.unary main_cst main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),
    StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F)),
    StableHlo.unary main_cst_0 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F)),
    StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F)),
    StableHlo.unary main_v6 main_v7 (Host.floor : (⟨S4000000x3, .f32⟩ : BufTy).Contents (Elt F) → (⟨S4000000x3, .f32⟩ : BufTy).Contents (Elt F)),
    StableHlo.unary main_v7 main_v8 (fptosi 32 : (⟨S4000000x3, .f32⟩ : BufTy).Contents (Elt F) → (⟨S4000000x3, .i32⟩ : BufTy).Contents (Elt F)),
    StableHlo.nullary main_c_1 (constantI S_ 32 0#32),
    StableHlo.unary main_c_1 main_v9 (broadcastInDim S4000000x3 ![] bcast_S_S4000000x3 : (⟨S_, .i32⟩ : BufTy).Contents (Elt F) → (⟨S4000000x3, .i32⟩ : BufTy).Contents (Elt F)),
    StableHlo.binary main_v8 main_v9 main_v10 (cmpi .sge : (⟨S4000000x3, .i32⟩ : BufTy).Contents (Elt F) → (⟨S4000000x3, .i32⟩ : BufTy).Contents (Elt F) → (⟨S4000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S4000000x3 ![0, 1] bcast_S1x3_S4000000x3_0_1 : (⟨S1x3, .i32⟩ : BufTy).Contents (Elt F) → (⟨S4000000x3, .i32⟩ : BufTy).Contents (Elt F)),
    StableHlo.binary main_v8 main_v12 main_v13 (cmpi .slt : (⟨S4000000x3, .i32⟩ : BufTy).Contents (Elt F) → (⟨S4000000x3, .i32⟩ : BufTy).Contents (Elt F) → (⟨S4000000x3, .i1⟩ : BufTy).Contents (Elt F)),
    StableHlo.binary main_v10 main_v13 main_v14 (andi : (⟨S4000000x3, .i1⟩ : BufTy).Contents (Elt F) → (⟨S4000000x3, .i1⟩ : BufTy).Contents (Elt F) → (⟨S4000000x3, .i1⟩ : BufTy).Contents (Elt F)),
    StableHlo.nullary main_c_2 (constantI S_ 1 1#1),
    StableHlo.binary main_v14 main_c_2 main_v15 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),
    StableHlo.unary main_v8 main_v16 ((extractStridedSlice S4000000x1 ![0, 0] · slices_S4000000x3_S4000000x1_0_0) : (⟨S4000000x3, .i32⟩ : BufTy).Contents (Elt F) → (⟨S4000000x1, .i32⟩ : BufTy).Contents (Elt F)),
    StableHlo.reshape main_v16 main_v17 rfl shapeCasts_S4000000x1_S4000000,
    StableHlo.nullary main_c_3 (constantI S_ 32 500#32),
    StableHlo.unary main_c_3 main_v18 (broadcastInDim S4000000 ![] bcast_S_S4000000 : (⟨S_, .i32⟩ : BufTy).Contents (Elt F) → (⟨S4000000, .i32⟩ : BufTy).Contents (Elt F)),
    StableHlo.binary main_v17 main_v18 main_v19 (muli : (⟨S4000000, .i32⟩ : BufTy).Contents (Elt F) → (⟨S4000000, .i32⟩ : BufTy).Contents (Elt F) → (⟨S4000000, .i32⟩ : BufTy).Contents (Elt F)),
    StableHlo.unary main_v8 main_v20 ((extractStridedSlice S4000000x1 ![0, 1] · slices_S4000000x3_S4000000x1_0_1) : (⟨S4000000x3, .i32⟩ : BufTy).Contents (Elt F) → (⟨S4000000x1, .i32⟩ : BufTy).Contents (Elt F)),
    StableHlo.reshape main_v20 main_v21 rfl shapeCasts_S4000000x1_S4000000,
    StableHlo.nullary main_c_4 (constantI S_ 32 1#32),
    StableHlo.unary main_c_4 main_v22 (broadcastInDim S4000000 ![] bcast_S_S4000000 : (⟨S_, .i32⟩ : BufTy).Contents (Elt F) → (⟨S4000000, .i32⟩ : BufTy).Contents (Elt F)),
    StableHlo.binary main_v21 main_v22 main_v23 (muli : (⟨S4000000, .i32⟩ : BufTy).Contents (Elt F) → (⟨S4000000, .i32⟩ : BufTy).Contents (Elt F) → (⟨S4000000, .i32⟩ : BufTy).Contents (Elt F)),
    StableHlo.binary main_v19 main_v23 main_v24 (addi : (⟨S4000000, .i32⟩ : BufTy).Contents (Elt F) → (⟨S4000000, .i32⟩ : BufTy).Contents (Elt F) → (⟨S4000000, .i32⟩ : BufTy).Contents (Elt F)),
    StableHlo.unary main_v8 main_v25 ((extractStridedSlice S4000000x1 ![0, 2] · slices_S4000000x3_S4000000x1_0_2) : (⟨S4000000x3, .i32⟩ : BufTy).Contents (Elt F) → (⟨S4000000x1, .i32⟩ : BufTy).Contents (Elt F)),
    StableHlo.reshape main_v25 main_v26 rfl shapeCasts_S4000000x1_S4000000,
    StableHlo.binary main_v24 main_v26 main_v27 (addi : (⟨S4000000, .i32⟩ : BufTy).Contents (Elt F) → (⟨S4000000, .i32⟩ : BufTy).Contents (Elt F) → (⟨S4000000, .i32⟩ : BufTy).Contents (Elt F)),
    StableHlo.nullary main_c_5 (constantI S_ 32 220000#32),
    StableHlo.TRef.unary (.of main_c_5) main_call0.v0 id,
    StableHlo.TRef.unary main_call0.v0 main_call0.v1 (broadcastInDim S4000000 ![] bcast_S_S4000000),
    StableHlo.TRef.ternary (.of main_v15) (.of main_v27) main_call0.v1 main_call0.v2 select ]
theorem ops0_sub : (ops0 : List (HloOp τ sig (Elt F))).Forall fun op => op.bufs ⊆ tcRefs τ sig :=
  ⟨StableHlo.nullary_bufs_sub .., StableHlo.nullary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.unary_bufs_sub .., StableHlo.unary_bufs_sub .., StableHlo.ternary_bufs_sub ..⟩

/-- 30 operations. -/
abbrev ops1 : List (HloOp τ sig (Elt F)) :=
  [ StableHlo.nullary main_v29 (iotaInDim S4000000 32 0),
    StableHlo.nullary main_c_6 (constantI S_ 32 4000000#32),
    StableHlo.TRef.unary (.of main_c_6) main_call1.v0 id,
    StableHlo.TRef.unary main_call1.v0 main_call1.v1 (broadcastInDim S4000000 ![] bcast_S_S4000000),
    StableHlo.TRef.ternary (.of main_v15) (.of main_v29) main_call1.v1 main_call1.v2 select,
    StableHlo.nullary main_c_7 (constantI S_ 32 2147483647#32),
    StableHlo.unary main_c_7 main_v31 (broadcastInDim S220001 ![] bcast_S_S220001 : (⟨S_, .i32⟩ : BufTy).Contents (Elt F) → (⟨S220001, .i32⟩ : BufTy).Contents (Elt F)),
    StableHlo.unary main_v28 main_v32 (broadcastInDim S4000000x1 ![0] bcast_S4000000_S4000000x1_0 : (⟨S4000000, .i32⟩ : BufTy).Contents (Elt F) → (⟨S4000000x1, .i32⟩ : BufTy).Contents (Elt F)),
    StableHlo.ternary main_v31 main_v32 main_v30 main_v33 ((fun x i u => Host.scatter scatter_S220001_S4000000x1_S4000000_n_0_0_1 IntOp.minsi x i u) : (⟨S220001, .i32⟩ : BufTy).Contents (Elt F) → (⟨S4000000x1, .i32⟩ : BufTy).Contents (Elt F) → (⟨S4000000, .i32⟩ : BufTy).Contents (Elt F) → (⟨S220001, .i32⟩ : BufTy).Contents (Elt F)),
    StableHlo.nullary main_c_8 (constantI S_ 32 0#32),
    StableHlo.unary main_c_8 main_v34 (broadcastInDim S4000000 ![] bcast_S_S4000000 : (⟨S_, .i32⟩ : BufTy).Contents (Elt F) → (⟨S4000000, .i32⟩ : BufTy).Contents (Elt F)),
    StableHlo.binary main_v28 main_v34 main_v35 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 220001#32),
    StableHlo.unary main_c_9 main_v36 (broadcastInDim S4000000 ![] bcast_S_S4000000 : (⟨S_, .i32⟩ : BufTy).Contents (Elt F) → (⟨S4000000, .i32⟩ : BufTy).Contents (Elt F)),
    StableHlo.binary main_v28 main_v36 main_v37 (addi : (⟨S4000000, .i32⟩ : BufTy).Contents (Elt F) → (⟨S4000000, .i32⟩ : BufTy).Contents (Elt F) → (⟨S4000000, .i32⟩ : BufTy).Contents (Elt F)),
    StableHlo.ternary main_v35 main_v37 main_v28 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v38 main_v39 (broadcastInDim S4000000x1 ![0] bcast_S4000000_S4000000x1_0 : (⟨S4000000, .i32⟩ : BufTy).Contents (Elt F) → (⟨S4000000x1, .i32⟩ : BufTy).Contents (Elt F)),
    StableHlo.binary main_v33 main_v39 main_v40 ((fun x i => Host.gather gather_S220001_S4000000x1_S4000000_n_0_n_n_0_1_1 x i) : (⟨S220001, .i32⟩ : BufTy).Contents (Elt F) → (⟨S4000000x1, .i32⟩ : BufTy).Contents (Elt F) → (⟨S4000000, .i32⟩ : BufTy).Contents (Elt F)),
    StableHlo.nullary main_c_10 (constantI S_ 32 3999999#32),
    StableHlo.unary main_c_10 main_v41 (broadcastInDim S4000000 ![] bcast_S_S4000000 : (⟨S_, .i32⟩ : BufTy).Contents (Elt F) → (⟨S4000000, .i32⟩ : BufTy).Contents (Elt F)),
    StableHlo.binary main_v40 main_v41 main_v42 (minsi : (⟨S4000000, .i32⟩ : BufTy).Contents (Elt F) → (⟨S4000000, .i32⟩ : BufTy).Contents (Elt F) → (⟨S4000000, .i32⟩ : BufTy).Contents (Elt F)),
    StableHlo.binary main_v29 main_v42 main_v43 (cmpi .eq : (⟨S4000000, .i32⟩ : BufTy).Contents (Elt F) → (⟨S4000000, .i32⟩ : BufTy).Contents (Elt F) → (⟨S4000000, .i1⟩ : BufTy).Contents (Elt F)),
    StableHlo.binary main_v15 main_v43 main_v44 (andi : (⟨S4000000, .i1⟩ : BufTy).Contents (Elt F) → (⟨S4000000, .i1⟩ : BufTy).Contents (Elt F) → (⟨S4000000, .i1⟩ : BufTy).Contents (Elt F)),
    StableHlo.unary main_v44 main_v45 ((extui 32 · natLt_1_32) : (⟨S4000000, .i1⟩ : BufTy).Contents (Elt F) → (⟨S4000000, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v45) main_call2.call0.v0 main_call2.call0.v1 (fun x v => Host.reduceWindow IntOp.addi ![4000000] ![1] ![3999999] ![0] x v reduceWindows_S4000000_S4000000_w4000000s1p3999999_0 h_S_),
    StableHlo.nullary main_c_11 (constantI S_ 32 1#32),
    StableHlo.unary main_c_11 main_v47 (broadcastInDim S4000000 ![] bcast_S_S4000000 : (⟨S_, .i32⟩ : BufTy).Contents (Elt F) → (⟨S4000000, .i32⟩ : BufTy).Contents (Elt F)),
    StableHlo.binary main_v46 main_v47 main_v48 (subi : (⟨S4000000, .i32⟩ : BufTy).Contents (Elt F) → (⟨S4000000, .i32⟩ : BufTy).Contents (Elt F) → (⟨S4000000, .i32⟩ : BufTy).Contents (Elt F)) ]
theorem ops1_sub : (ops1 : List (HloOp τ sig (Elt F))).Forall fun op => op.bufs ⊆ tcRefs τ sig :=
  ⟨StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- 27 operations. -/
abbrev ops2 : List (HloOp τ sig (Elt F)) :=
  [ StableHlo.nullary main_c_12 (constantI S_ 32 0#32),
    StableHlo.unary main_c_12 main_v49 (broadcastInDim S4000000 ![] bcast_S_S4000000 : (⟨S_, .i32⟩ : BufTy).Contents (Elt F) → (⟨S4000000, .i32⟩ : BufTy).Contents (Elt F)),
    StableHlo.binary main_v42 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 4000000#32),
    StableHlo.unary main_c_13 main_v51 (broadcastInDim S4000000 ![] bcast_S_S4000000 : (⟨S_, .i32⟩ : BufTy).Contents (Elt F) → (⟨S4000000, .i32⟩ : BufTy).Contents (Elt F)),
    StableHlo.binary main_v42 main_v51 main_v52 (addi : (⟨S4000000, .i32⟩ : BufTy).Contents (Elt F) → (⟨S4000000, .i32⟩ : BufTy).Contents (Elt F) → (⟨S4000000, .i32⟩ : BufTy).Contents (Elt F)),
    StableHlo.ternary main_v50 main_v52 main_v42 main_v53 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v53 main_v54 (broadcastInDim S4000000x1 ![0] bcast_S4000000_S4000000x1_0 : (⟨S4000000, .i32⟩ : BufTy).Contents (Elt F) → (⟨S4000000x1, .i32⟩ : BufTy).Contents (Elt F)),
    StableHlo.binary main_v48 main_v54 main_v55 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.TRef.nullary main_call3.v0 (iotaInDim S4000000 32 0),
    StableHlo.TRef.binary (.of main_v28) main_call3.v0 main_call3.v1_0 (fun x y => (Host.sort2 S4000000 0 comparator_i32_i32_d0 x y).1),
    StableHlo.TRef.binary (.of main_v28) main_call3.v0 main_call3.v1_1 (fun x y => (Host.sort2 S4000000 0 comparator_i32_i32_d0 x y).2),
    StableHlo.nullary main_c_14 (constantI S_ 32 0#32),
    StableHlo.unary main_c_14 main_v57 (broadcastInDim S4000000 ![] bcast_S_S4000000 : (⟨S_, .i32⟩ : BufTy).Contents (Elt F) → (⟨S4000000, .i32⟩ : BufTy).Contents (Elt F)),
    StableHlo.binary main_v56 main_v57 main_v58 (cmpi .slt : (⟨S4000000, .i32⟩ : BufTy).Contents (Elt F) → (⟨S4000000, .i32⟩ : BufTy).Contents (Elt F) → (⟨S4000000, .i1⟩ : BufTy).Contents (Elt F)),
    StableHlo.nullary main_c_15 (constantI S_ 32 4000000#32),
    StableHlo.unary main_c_15 main_v59 (broadcastInDim S4000000 ![] bcast_S_S4000000 : (⟨S_, .i32⟩ : BufTy).Contents (Elt F) → (⟨S4000000, .i32⟩ : BufTy).Contents (Elt F)),
    StableHlo.binary main_v56 main_v59 main_v60 (addi : (⟨S4000000, .i32⟩ : BufTy).Contents (Elt F) → (⟨S4000000, .i32⟩ : BufTy).Contents (Elt F) → (⟨S4000000, .i32⟩ : BufTy).Contents (Elt F)),
    StableHlo.ternary main_v58 main_v60 main_v56 main_v61 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v61 main_v62 (broadcastInDim S4000000x1 ![0] bcast_S4000000_S4000000x1_0 : (⟨S4000000, .i32⟩ : BufTy).Contents (Elt F) → (⟨S4000000x1, .i32⟩ : BufTy).Contents (Elt F)),
    StableHlo.binary main_v28 main_v62 main_v63 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v64 (iotaInDim S4000000 32 0),
    StableHlo.nullary main_c_16 (constantI S_ 1 1#1),
    StableHlo.unary main_c_16 main_v65 (broadcastInDim S1 ![] bcast_S_S1 : (⟨S_, .i1⟩ : BufTy).Contents (Elt F) → (⟨S1, .i1⟩ : BufTy).Contents (Elt F)),
    StableHlo.unary main_v63 main_v66 ((extractStridedSlice S3999999 ![1] · slices_S4000000_S3999999_1) : (⟨S4000000, .i32⟩ : BufTy).Contents (Elt F) → (⟨S3999999, .i32⟩ : BufTy).Contents (Elt F)),
    StableHlo.unary main_v63 main_v67 ((extractStridedSlice S3999999 ![0] · slices_S4000000_S3999999_0) : (⟨S4000000, .i32⟩ : BufTy).Contents (Elt F) → (⟨S3999999, .i32⟩ : BufTy).Contents (Elt F)),
    StableHlo.binary main_v66 main_v67 main_v68 (cmpi .ne : (⟨S3999999, .i32⟩ : BufTy).Contents (Elt F) → (⟨S3999999, .i32⟩ : BufTy).Contents (Elt F) → (⟨S3999999, .i1⟩ : BufTy).Contents (Elt F)) ]
theorem ops2_sub : (ops2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.binary_bufs_sub ..⟩

/-- 30 operations. -/
abbrev ops3 : List (HloOp τ sig (Elt F)) :=
  [ StableHlo.binary main_v65 main_v68 main_v69 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    StableHlo.nullary main_c_17 (constantI S_ 32 0#32),
    StableHlo.TRef.unary (.of main_c_17) main_call4.v0 id,
    StableHlo.TRef.unary main_call4.v0 main_call4.v1 (broadcastInDim S4000000 ![] bcast_S_S4000000),
    StableHlo.TRef.ternary (.of main_v69) (.of main_v64) main_call4.v1 main_call4.v2 select,
    StableHlo.TRef.nullary main_call5.c (constantI S_ 32 2147483648#32),
    StableHlo.TRef.unary main_call5.c main_call5.v0 (broadcastInDim S_ ![] bcast_S_S_),
    StableHlo.TRef.binary (.of main_v70) main_call5.v0 main_call5.v1 (fun x v => Host.reduceWindow IntOp.maxsi ![4000000] ![1] ![3999999] ![0] x v reduceWindows_S4000000_S4000000_w4000000s1p3999999_0 h_S_),
    StableHlo.nullary main_c_18 (constantI S_ 32 0#32),
    StableHlo.unary main_c_18 main_v72 (broadcastInDim S4000000 ![] bcast_S_S4000000 : (⟨S_, .i32⟩ : BufTy).Contents (Elt F) → (⟨S4000000, .i32⟩ : BufTy).Contents (Elt F)),
    StableHlo.binary main_v64 main_v71 main_v73 (subi : (⟨S4000000, .i32⟩ : BufTy).Contents (Elt F) → (⟨S4000000, .i32⟩ : BufTy).Contents (Elt F) → (⟨S4000000, .i32⟩ : BufTy).Contents (Elt F)),
    StableHlo.nullary main_c_19 (constantI S_ 32 0#32),
    StableHlo.unary main_c_19 main_v74 (broadcastInDim S4000000 ![] bcast_S_S4000000 : (⟨S_, .i32⟩ : BufTy).Contents (Elt F) → (⟨S4000000, .i32⟩ : BufTy).Contents (Elt F)),
    StableHlo.binary main_v56 main_v74 main_v75 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 4000000#32),
    StableHlo.unary main_c_20 main_v76 (broadcastInDim S4000000 ![] bcast_S_S4000000 : (⟨S_, .i32⟩ : BufTy).Contents (Elt F) → (⟨S4000000, .i32⟩ : BufTy).Contents (Elt F)),
    StableHlo.binary main_v56 main_v76 main_v77 (addi : (⟨S4000000, .i32⟩ : BufTy).Contents (Elt F) → (⟨S4000000, .i32⟩ : BufTy).Contents (Elt F) → (⟨S4000000, .i32⟩ : BufTy).Contents (Elt F)),
    StableHlo.ternary main_v75 main_v77 main_v56 main_v78 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v78 main_v79 (broadcastInDim S4000000x1 ![0] bcast_S4000000_S4000000x1_0 : (⟨S4000000, .i32⟩ : BufTy).Contents (Elt F) → (⟨S4000000x1, .i32⟩ : BufTy).Contents (Elt F)),
    StableHlo.ternary main_v72 main_v79 main_v73 main_v80 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_21 (constantI S_ 32 40000#32),
    StableHlo.unary main_c_21 main_v81 (broadcastInDim S4000000 ![] bcast_S_S4000000 : (⟨S_, .i32⟩ : BufTy).Contents (Elt F) → (⟨S4000000, .i32⟩ : BufTy).Contents (Elt F)),
    StableHlo.binary main_v55 main_v81 main_v82 (cmpi .slt : (⟨S4000000, .i32⟩ : BufTy).Contents (Elt F) → (⟨S4000000, .i32⟩ : BufTy).Contents (Elt F) → (⟨S4000000, .i1⟩ : BufTy).Contents (Elt F)),
    StableHlo.binary main_v15 main_v82 main_v83 (andi : (⟨S4000000, .i1⟩ : BufTy).Contents (Elt F) → (⟨S4000000, .i1⟩ : BufTy).Contents (Elt F) → (⟨S4000000, .i1⟩ : BufTy).Contents (Elt F)),
    StableHlo.nullary main_c_22 (constantI S_ 32 32#32),
    StableHlo.unary main_c_22 main_v84 (broadcastInDim S4000000 ![] bcast_S_S4000000 : (⟨S_, .i32⟩ : BufTy).Contents (Elt F) → (⟨S4000000, .i32⟩ : BufTy).Contents (Elt F)),
    StableHlo.binary main_v80 main_v84 main_v85 (cmpi .slt : (⟨S4000000, .i32⟩ : BufTy).Contents (Elt F) → (⟨S4000000, .i32⟩ : BufTy).Contents (Elt F) → (⟨S4000000, .i1⟩ : BufTy).Contents (Elt F)),
    StableHlo.binary main_v83 main_v85 main_v86 (andi : (⟨S4000000, .i1⟩ : BufTy).Contents (Elt F) → (⟨S4000000, .i1⟩ : BufTy).Contents (Elt F) → (⟨S4000000, .i1⟩ : BufTy).Contents (Elt F)),
    StableHlo.nullary main_c_23 (constantI S_ 32 40000#32),
    StableHlo.TRef.unary (.of main_c_23) main_call6.v0 id ]
theorem ops3_sub : (ops3 : List (HloOp τ sig (Elt F))).Forall fun op => op.bufs ⊆ tcRefs τ sig :=
  ⟨StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub ..⟩

/-- 24 operations. -/
abbrev ops4 : List (HloOp τ sig (Elt F)) :=
  [ StableHlo.TRef.unary main_call6.v0 main_call6.v1 (broadcastInDim S4000000 ![] bcast_S_S4000000),
    StableHlo.TRef.ternary (.of main_v86) (.of main_v55) main_call6.v1 main_call6.v2 select,
    StableHlo.nullary main_c_24 (constantI S_ 32 0#32),
    StableHlo.TRef.unary (.of main_c_24) main_call7.v0 id,
    StableHlo.TRef.unary main_call7.v0 main_call7.v1 (broadcastInDim S4000000 ![] bcast_S_S4000000),
    StableHlo.TRef.ternary (.of main_v86) (.of main_v80) main_call7.v1 main_call7.v2 select,
    StableHlo.nullary main_cst_25 (constant S_ .f32 0x00000000#32),
    StableHlo.unary main_cst_25 main_v89 (broadcastInDim S40001x32x4 ![] bcast_S_S40001x32x4 : (⟨S_, .f32⟩ : BufTy).Contents (Elt F) → (⟨S40001x32x4, .f32⟩ : BufTy).Contents (Elt F)),
    StableHlo.nullary main_c_26 (constantI S_ 32 0#32),
    StableHlo.unary main_c_26 main_v90 (broadcastInDim S4000000 ![] bcast_S_S4000000 : (⟨S_, .i32⟩ : BufTy).Contents (Elt F) → (⟨S4000000, .i32⟩ : BufTy).Contents (Elt F)),
    StableHlo.binary main_v87 main_v90 main_v91 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 40001#32),
    StableHlo.unary main_c_27 main_v92 (broadcastInDim S4000000 ![] bcast_S_S4000000 : (⟨S_, .i32⟩ : BufTy).Contents (Elt F) → (⟨S4000000, .i32⟩ : BufTy).Contents (Elt F)),
    StableHlo.binary main_v87 main_v92 main_v93 (addi : (⟨S4000000, .i32⟩ : BufTy).Contents (Elt F) → (⟨S4000000, .i32⟩ : BufTy).Contents (Elt F) → (⟨S4000000, .i32⟩ : BufTy).Contents (Elt F)),
    StableHlo.ternary main_v91 main_v93 main_v87 main_v94 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_28 (constantI S_ 32 0#32),
    StableHlo.unary main_c_28 main_v95 (broadcastInDim S4000000 ![] bcast_S_S4000000 : (⟨S_, .i32⟩ : BufTy).Contents (Elt F) → (⟨S4000000, .i32⟩ : BufTy).Contents (Elt F)),
    StableHlo.binary main_v88 main_v95 main_v96 (cmpi .slt : (⟨S4000000, .i32⟩ : BufTy).Contents (Elt F) → (⟨S4000000, .i32⟩ : BufTy).Contents (Elt F) → (⟨S4000000, .i1⟩ : BufTy).Contents (Elt F)),
    StableHlo.nullary main_c_29 (constantI S_ 32 32#32),
    StableHlo.unary main_c_29 main_v97 (broadcastInDim S4000000 ![] bcast_S_S4000000 : (⟨S_, .i32⟩ : BufTy).Contents (Elt F) → (⟨S4000000, .i32⟩ : BufTy).Contents (Elt F)),
    StableHlo.binary main_v88 main_v97 main_v98 (addi : (⟨S4000000, .i32⟩ : BufTy).Contents (Elt F) → (⟨S4000000, .i32⟩ : BufTy).Contents (Elt F) → (⟨S4000000, .i32⟩ : BufTy).Contents (Elt F)),
    StableHlo.ternary main_v96 main_v98 main_v88 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v94 main_v100 (broadcastInDim S4000000x1 ![0] bcast_S4000000_S4000000x1_0 : (⟨S4000000, .i32⟩ : BufTy).Contents (Elt F) → (⟨S4000000x1, .i32⟩ : BufTy).Contents (Elt F)),
    StableHlo.unary main_v99 main_v101 (broadcastInDim S4000000x1 ![0] bcast_S4000000_S4000000x1_0 : (⟨S4000000, .i32⟩ : BufTy).Contents (Elt F) → (⟨S4000000x1, .i32⟩ : BufTy).Contents (Elt F)) ]
theorem ops4_sub : (ops4 : List (HloOp τ sig (Elt F))).Forall fun op => op.bufs ⊆ tcRefs τ sig :=
  ⟨StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩

/-- 30 operations. -/
abbrev ops5 : List (HloOp τ sig (Elt F)) :=
  [ StableHlo.binary main_v100 main_v101 main_v102 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v89 main_v102 main_arg0 main_v103 ((fun x i u => Host.scatter scatter_S40001x32x4_S4000000x2_S4000000x4_1_01_01_1 (fun _ b => b) x i u) : (⟨S40001x32x4, .f32⟩ : BufTy).Contents (Elt F) → (⟨S4000000x2, .i32⟩ : BufTy).Contents (Elt F) → (⟨S4000000x4, .f32⟩ : BufTy).Contents (Elt F) → (⟨S40001x32x4, .f32⟩ : BufTy).Contents (Elt F)),
    StableHlo.unary main_v103 main_v104 ((extractStridedSlice S40000x32x4 ![0, 0, 0] · slices_S40001x32x4_S40000x32x4_0_0_0) : (⟨S40001x32x4, .f32⟩ : BufTy).Contents (Elt F) → (⟨S40000x32x4, .f32⟩ : BufTy).Contents (Elt F)),
    StableHlo.nullary main_c_30 (constantI S_ 32 40000#32),
    StableHlo.unary main_c_30 main_v105 (broadcastInDim S4000000 ![] bcast_S_S4000000 : (⟨S_, .i32⟩ : BufTy).Contents (Elt F) → (⟨S4000000, .i32⟩ : BufTy).Contents (Elt F)),
    StableHlo.binary main_v55 main_v105 main_v106 (cmpi .slt : (⟨S4000000, .i32⟩ : BufTy).Contents (Elt F) → (⟨S4000000, .i32⟩ : BufTy).Contents (Elt F) → (⟨S4000000, .i1⟩ : BufTy).Contents (Elt F)),
    StableHlo.binary main_v44 main_v106 main_v107 (andi : (⟨S4000000, .i1⟩ : BufTy).Contents (Elt F) → (⟨S4000000, .i1⟩ : BufTy).Contents (Elt F) → (⟨S4000000, .i1⟩ : BufTy).Contents (Elt F)),
    StableHlo.nullary main_c_31 (constantI S_ 32 40000#32),
    StableHlo.TRef.unary (.of main_c_31) main_call8.v0 id,
    StableHlo.TRef.unary main_call8.v0 main_call8.v1 (broadcastInDim S4000000 ![] bcast_S_S4000000),
    StableHlo.TRef.ternary (.of main_v107) (.of main_v55) main_call8.v1 main_call8.v2 select,
    StableHlo.nullary main_c_32 (constantI S_ 32 0#32),
    StableHlo.unary main_c_32 main_v109 (broadcastInDim S40001x3 ![] bcast_S_S40001x3 : (⟨S_, .i32⟩ : BufTy).Contents (Elt F) → (⟨S40001x3, .i32⟩ : BufTy).Contents (Elt F)),
    StableHlo.nullary main_c_33 (constantI S_ 32 0#32),
    StableHlo.unary main_c_33 main_v110 (broadcastInDim S4000000 ![] bcast_S_S4000000 : (⟨S_, .i32⟩ : BufTy).Contents (Elt F) → (⟨S4000000, .i32⟩ : BufTy).Contents (Elt F)),
    StableHlo.binary main_v108 main_v110 main_v111 (cmpi .slt : (⟨S4000000, .i32⟩ : BufTy).Contents (Elt F) → (⟨S4000000, .i32⟩ : BufTy).Contents (Elt F) → (⟨S4000000, .i1⟩ : BufTy).Contents (Elt F)),
    StableHlo.nullary main_c_34 (constantI S_ 32 40001#32),
    StableHlo.unary main_c_34 main_v112 (broadcastInDim S4000000 ![] bcast_S_S4000000 : (⟨S_, .i32⟩ : BufTy).Contents (Elt F) → (⟨S4000000, .i32⟩ : BufTy).Contents (Elt F)),
    StableHlo.binary main_v108 main_v112 main_v113 (addi : (⟨S4000000, .i32⟩ : BufTy).Contents (Elt F) → (⟨S4000000, .i32⟩ : BufTy).Contents (Elt F) → (⟨S4000000, .i32⟩ : BufTy).Contents (Elt F)),
    StableHlo.ternary main_v111 main_v113 main_v108 main_v114 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v114 main_v115 (broadcastInDim S4000000x1 ![0] bcast_S4000000_S4000000x1_0 : (⟨S4000000, .i32⟩ : BufTy).Contents (Elt F) → (⟨S4000000x1, .i32⟩ : BufTy).Contents (Elt F)),
    StableHlo.ternary main_v109 main_v115 main_v8 main_v116 ((fun x i u => Host.scatter scatter_S40001x3_S4000000x1_S4000000x3_1_0_0_1 (fun _ b => b) x i u) : (⟨S40001x3, .i32⟩ : BufTy).Contents (Elt F) → (⟨S4000000x1, .i32⟩ : BufTy).Contents (Elt F) → (⟨S4000000x3, .i32⟩ : BufTy).Contents (Elt F) → (⟨S40001x3, .i32⟩ : BufTy).Contents (Elt F)),
    StableHlo.unary main_v116 main_v117 ((extractStridedSlice S40000x3 ![0, 0] · slices_S40001x3_S40000x3_0_0) : (⟨S40001x3, .i32⟩ : BufTy).Contents (Elt F) → (⟨S40000x3, .i32⟩ : BufTy).Contents (Elt F)),
    StableHlo.nullary main_c_35 (constantI S_ 32 0#32),
    StableHlo.unary main_c_35 main_v118 (broadcastInDim S40001 ![] bcast_S_S40001 : (⟨S_, .i32⟩ : BufTy).Contents (Elt F) → (⟨S40001, .i32⟩ : BufTy).Contents (Elt F)),
    StableHlo.unary main_v86 main_v119 ((extui 32 · natLt_1_32) : (⟨S4000000, .i1⟩ : BufTy).Contents (Elt F) → (⟨S4000000, .i32⟩ : BufTy).Contents (Elt F)),
    StableHlo.nullary main_c_36 (constantI S_ 32 0#32),
    StableHlo.unary main_c_36 main_v120 (broadcastInDim S4000000 ![] bcast_S_S4000000 : (⟨S_, .i32⟩ : BufTy).Contents (Elt F) → (⟨S4000000, .i32⟩ : BufTy).Contents (Elt F)),
    StableHlo.binary main_v87 main_v120 main_v121 (cmpi .slt : (⟨S4000000, .i32⟩ : BufTy).Contents (Elt F) → (⟨S4000000, .i32⟩ : BufTy).Contents (Elt F) → (⟨S4000000, .i1⟩ : BufTy).Contents (Elt F)),
    StableHlo.nullary main_c_37 (constantI S_ 32 40001#32) ]
theorem ops5_sub : (ops5 : List (HloOp τ sig (Elt F))).Forall fun op => op.bufs ⊆ tcRefs τ sig :=
  ⟨StableHlo.binary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub ..⟩

/-- 9 operations. -/
abbrev ops6 : List (HloOp τ sig (Elt F)) :=
  [ StableHlo.unary main_c_37 main_v122 (broadcastInDim S4000000 ![] bcast_S_S4000000 : (⟨S_, .i32⟩ : BufTy).Contents (Elt F) → (⟨S4000000, .i32⟩ : BufTy).Contents (Elt F)),
    StableHlo.binary main_v87 main_v122 main_v123 (addi : (⟨S4000000, .i32⟩ : BufTy).Contents (Elt F) → (⟨S4000000, .i32⟩ : BufTy).Contents (Elt F) → (⟨S4000000, .i32⟩ : BufTy).Contents (Elt F)),
    StableHlo.ternary main_v121 main_v123 main_v87 main_v124 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v124 main_v125 (broadcastInDim S4000000x1 ![0] bcast_S4000000_S4000000x1_0 : (⟨S4000000, .i32⟩ : BufTy).Contents (Elt F) → (⟨S4000000x1, .i32⟩ : BufTy).Contents (Elt F)),
    StableHlo.ternary main_v118 main_v125 main_v119 main_v126 ((fun x i u => Host.scatter scatter_S40001_S4000000x1_S4000000_n_0_0_1 IntOp.addi x i u) : (⟨S40001, .i32⟩ : BufTy).Contents (Elt F) → (⟨S4000000x1, .i32⟩ : BufTy).Contents (Elt F) → (⟨S4000000, .i32⟩ : BufTy).Contents (Elt F) → (⟨S40001, .i32⟩ : BufTy).Contents (Elt F)),
    StableHlo.unary main_v126 main_v127 ((extractStridedSlice S40000 ![0] · slices_S40001_S40000_0) : (⟨S40001, .i32⟩ : BufTy).Contents (Elt F) → (⟨S40000, .i32⟩ : BufTy).Contents (Elt F)),
    StableHlo.unary main_v107 main_v128 ((extui 32 · natLt_1_32) : (⟨S4000000, .i1⟩ : BufTy).Contents (Elt F) → (⟨S4000000, .i32⟩ : BufTy).Contents (Elt F)),
    StableHlo.nullary main_c_38 (constantI S_ 32 0#32),
    StableHlo.binary main_v128 main_c_38 main_v129 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)) ]
theorem ops6_sub : (ops6 : List (HloOp τ sig (Elt F))).Forall fun op => op.bufs ⊆ tcRefs τ sig :=
  ⟨StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.nullary_bufs_sub .., StableHlo.binary_bufs_sub ..⟩

/-- The lists after the first. -/
abbrev tailOpss : List (List (HloOp τ sig (Elt F))) := [ops1, ops2, ops3, ops4, ops5, ops6]

end Cert.ReferenceIdeal.RefRun

end
-- ==== Proof.RefSpec.lean ====
/-
  What the reference computes first, as functions of the point array: every point's three cell coordinates
  (the floor of its offset from the range's corner divided by the voxel size, as a signed word), whether all
  three lie inside the grid, and the point's linear cell id (the sentinel 220000 for a point outside the grid).
-/
import proofs.«136472_j73985106641253_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The cell coordinates of every point. -/
def coorOf (P : FVec F S4000000x4 .f32) : IVec S4000000x3 32 :=
  fptosi 32 (Host.floor (Host.divf
    (subf (extractStridedSlice S4000000x3 ![0, 0] P slices_S4000000x4_S4000000x3_0_0)
      (broadcastInDim S4000000x3 ![0, 1] bcast_S1x3_S4000000x3_0_1 (broadcastInDim S1x3 ![1] bcast_S3_S1x3_1 (fun i => FloatOps.ofBits .f32 (lit0 (S3.rowMajor i))))))
    (broadcastInDim S4000000x3 ![0, 1] bcast_S1x3_S4000000x3_0_1 (broadcastInDim S1x3 ![1] bcast_S3_S1x3_1 (fun i => FloatOps.ofBits .f32 (lit1 (S3.rowMajor i)))))))

/-- Whether a point's three coordinates all lie inside the grid. -/
def validOf (C : IVec S4000000x3 32) : IVec S4000000 1 :=
  Host.reduce IntOp.andi
    (andi (cmpi .sge C (broadcastInDim S4000000x3 ![] bcast_S_S4000000x3 (constantI S_ 32 0#32)))
      (cmpi .slt C (broadcastInDim S4000000x3 ![0, 1] bcast_S1x3_S4000000x3_0_1 (broadcastInDim S1x3 ![1] bcast_S3_S1x3_1 (fun i => lit2 (S3.rowMajor i))))))
    (constantI S_ 1 1#1) reducesTo_S4000000x3_S4000000_d1 h_S_

/-- A point's linear cell id, or the sentinel when it lies outside the grid. -/
def linOf (C : IVec S4000000x3 32) : IVec S4000000 32 :=
  select (validOf C)
    (addi (addi
      (muli (shapeCast S4000000 (extractStridedSlice S4000000x1 ![0, 0] C slices_S4000000x3_S4000000x1_0_0) shapeCasts_S4000000x1_S4000000)
        (broadcastInDim S4000000 ![] bcast_S_S4000000 (constantI S_ 32 500#32)))
      (muli (shapeCast S4000000 (extractStridedSlice S4000000x1 ![0, 1] C slices_S4000000x3_S4000000x1_0_1) shapeCasts_S4000000x1_S4000000)
        (broadcastInDim S4000000 ![] bcast_S_S4000000 (constantI S_ 32 1#32))))
      (shapeCast S4000000 (extractStridedSlice S4000000x1 ![0, 2] C slices_S4000000x3_S4000000x1_0_2) shapeCasts_S4000000x1_S4000000))
    (broadcastInDim S4000000 ![] bcast_S_S4000000 (id (constantI S_ 32 220000#32)))

/-- The first list of operations leaves the points as they were, -/
theorem head_arg0 (W : Valuation τ sig (Elt F)) :
    after ops0 W (Proc.devRef .tc main_arg0) = W (Proc.devRef .tc main_arg0) := by
  after_results
/-- the coordinates in their buffer, -/
theorem head_coor (W : Valuation τ sig (Elt F)) :
    after ops0 W (Proc.devRef .tc main_v8) = coorOf (W (Proc.devRef .tc main_arg0)) := by
  after_results
  rfl
/-- the validity bits in theirs, -/
theorem head_valid (W : Valuation τ sig (Elt F)) :
    after ops0 W (Proc.devRef .tc main_v15) = validOf (coorOf (W (Proc.devRef .tc main_arg0))) := by
  after_results
  rfl
/-- The cell id before the selection: 500 times the first coordinate, plus the second, plus the third. -/
def rawLinOf (C : IVec S4000000x3 32) : IVec S4000000 32 :=
  addi (addi
      (muli (shapeCast S4000000 (extractStridedSlice S4000000x1 ![0, 0] C slices_S4000000x3_S4000000x1_0_0) shapeCasts_S4000000x1_S4000000)
        (broadcastInDim S4000000 ![] bcast_S_S4000000 (constantI S_ 32 500#32)))
      (muli (shapeCast S4000000 (extractStridedSlice S4000000x1 ![0, 1] C slices_S4000000x3_S4000000x1_0_1) shapeCasts_S4000000x1_S4000000)
        (broadcastInDim S4000000 ![] bcast_S_S4000000 (constantI S_ 32 1#32))))
      (shapeCast S4000000 (extractStridedSlice S4000000x1 ![0, 2] C slices_S4000000x3_S4000000x1_0_2) shapeCasts_S4000000x1_S4000000)

set_option maxHeartbeats 2000000 in
/-- The first list leaves the unselected ids in their buffer. -/
theorem head_raw (W : Valuation τ sig (Elt F)) :
    after ops0 W (Proc.devRef .tc main_v27) = rawLinOf (coorOf (W (Proc.devRef .tc main_arg0))) := by
  after_results
  rfl

/-- The first list's last four operations: the sentinel, its copy and broadcast inside the selecting function, and the
    selection. -/
abbrev opsD : List (HloOp τ sig (Elt F)) :=
  [ StableHlo.nullary main_c_5 (constantI S_ 32 220000#32),
    StableHlo.TRef.unary (.of main_c_5) main_call0.v0 id,
    StableHlo.TRef.unary main_call0.v0 main_call0.v1 (broadcastInDim S4000000 ![] bcast_S_S4000000),
    StableHlo.TRef.ternary (.of main_v15) (.of main_v27) main_call0.v1 main_call0.v2 select ]

/-- The first list is its first thirty-five operations, then those four. -/
theorem ops0_cut : (ops0 : List (HloOp τ sig (Elt F))) = (ops0 : List (HloOp τ sig (Elt F))).take 35 ++ opsD := rfl

/-- The four write neither the validity bits -/
theorem stageD_valid (W : Valuation τ sig (Elt F)) :
    after opsD W (Proc.devRef .tc main_v15) = W (Proc.devRef .tc main_v15) := by
  simp only [after_cons, after_nil]
  rfl
/-- nor the unselected ids, -/
theorem stageD_raw (W : Valuation τ sig (Elt F)) :
    after opsD W (Proc.devRef .tc main_v27) = W (Proc.devRef .tc main_v27) := by
  simp only [after_cons, after_nil]
  rfl
/-- and leave in the cell ids' buffer the selection between the two they find there and the sentinel. -/
theorem stageD (W : Valuation τ sig (Elt F)) :
    after opsD W (Proc.devRef .tc main_v28)
      = select (W (Proc.devRef .tc main_v15)) (W (Proc.devRef .tc main_v27))
          (broadcastInDim S4000000 ![] bcast_S_S4000000 (id (constantI S_ 32 220000#32))) := by
  simp only [after_cons, after_nil]
  rfl

set_option maxHeartbeats 400000 in
/-- and the cell ids in theirs: after the first thirty-five operations the validity bits and the unselected ids are
    already what the whole list leaves, since the last four write neither; the four then select between them and
    the sentinel. -/
theorem head_lin (W : Valuation τ sig (Elt F)) :
    after ops0 W (Proc.devRef .tc main_v28) = linOf (coorOf (W (Proc.devRef .tc main_arg0))) := by
  have hv := head_valid W
  have hr := head_raw W
  rw [ops0_cut, after_append] at hv hr ⊢
  generalize after ((ops0 : List (HloOp τ sig (Elt F))).take 35) W = W' at hv hr ⊢
  rw [stageD_valid] at hv
  rw [stageD_raw] at hr
  rw [stageD, hv, hr]
  rfl

end Cert.ReferenceIdeal.RefRun

end
-- ==== Proof.RefRun.lean ====
/-
  The reference's run: @main is its operations in order, so every weakly fair execution ends with each buffer at
  the operations' fold over the launch contents; the point array is written by none of them.
-/
import proofs.«136472_j73985106641253_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops0 ++ (tailOpss (F := F)).flatten

/-- The signature scopes no TensorCore buffer -/
theorem scopedRefs_eq : (Finset.univ.filter fun b : Ref sig .tc => b.isScoped) = ∅ := by decide
/-- and no semaphore: the program is tensor values only. -/
theorem scopedSems_eq : (Finset.univ.filter fun sm : SemLoc sig => sm.isScoped .tc) = ∅ := by decide

set_option maxHeartbeats 4000000 in
set_option maxRecDepth 100000 in
/-- @main is that straight line: its three windows one after the other, each called function's body standing where
    it is called, over that call's buffers; sequencing re-associates to one chain of steps, the same chain on both
    sides. -/
theorem main_eq (c : Dev nD) : main (F := F) c = seq ops := by
  chain_rfl

/-- A list among the later lists is one of the six. -/
theorem mem_tailOpss {l : List (HloOp τ sig (Elt F))} (hl : l ∈ (tailOpss (F := F))) :
    l = ops1 ∨ l = ops2 ∨ l = ops3 ∨ l = ops4 ∨ l = ops5 ∨ l = ops6 := by
  simpa only [tailOpss, List.mem_cons, List.mem_nil_iff, or_false] using hl

/-- A property of every operation of the first list and of every operation of each later list holds of every
    operation of the whole line. -/
theorem forall_ops {p : HloOp τ sig (Elt F) → Prop} (h0 : (ops0 : List (HloOp τ sig (Elt F))).Forall p)
    (ht : ∀ l ∈ (tailOpss (F := F)), l.Forall p) : ∀ op ∈ (ops : List (HloOp τ sig (Elt F))), p op := by
  intro op hop
  rcases List.mem_append.mp hop with h | h
  · exact List.forall_iff_forall_mem.mp h0 op h
  · obtain ⟨l, hl, hop'⟩ := List.mem_flatten.mp h
    exact List.forall_iff_forall_mem.mp (ht l hl) op hop'

/-- Every operation touches TensorCore references only. -/
theorem ops_sub : (ops : List (HloOp τ sig (Elt F))).Forall fun op => op.bufs ⊆ tcRefs τ sig :=
  List.forall_iff_forall_mem.mpr (forall_ops ops0_sub fun l hl => by
    rcases mem_tailOpss hl with rfl | rfl | rfl | rfl | rfl | rfl
    · exact ops1_sub
    · exact ops2_sub
    · exact ops3_sub
    · exact ops4_sub
    · exact ops5_sub
    · exact ops6_sub)

/-- Every operation determines its results: none allocates a buffer of contents not chosen. -/
theorem ops_fresh : ∀ op ∈ (ops : List (HloOp τ sig (Elt F))), op.fresh = ∅ :=
  forall_ops (by simp only [List.Forall]; repeat' constructor) fun l hl => by
    rcases mem_tailOpss hl with rfl | rfl | rfl | rfl | rfl | rfl <;>
      (simp only [List.Forall]; repeat' constructor)

/-- Every weakly fair execution of the reference terminates with each buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

set_option maxHeartbeats 4000000 in
/-- Each operation of the later lists writes its own result buffer only, and that buffer is never the point array. -/
theorem tail_keeps : ∀ l ∈ (tailOpss (F := F)), l.Forall fun op => Proc.devRef .tc main_arg0 ∉ op.writes := by
  intro l hl
  rcases mem_tailOpss hl with rfl | rfl | rfl | rfl | rfl | rfl <;>
    (simp only [List.Forall, StableHlo.nullary_writes, StableHlo.unary_writes, StableHlo.binary_writes,
      StableHlo.ternary_writes, StableHlo.reshape_writes, Finset.mem_singleton]
     repeat' apply And.intro
     all_goals exact StableHlo.devRef_ne_of_ne (by decide))

/-- No operation writes the point array. -/
theorem tail_arg0 (W : Valuation τ sig (Elt F)) :
    after (tailOpss (F := F)).flatten W (Proc.devRef .tc main_arg0) = W (Proc.devRef .tc main_arg0) := by
  refine after_of_forall_not_mem _ W fun op hop => ?_
  obtain ⟨l, hl, hop'⟩ := List.mem_flatten.mp hop
  exact List.forall_iff_forall_mem.mp (tail_keeps l hl) op hop'

end Cert.ReferenceIdeal.RefRun

end
-- ==== Proof.Tail.lean ====
/-
  After the hashing step the two programs apply the same host operations: first occurrence per cell by a
  scatter-min, ranks by a running sum, slots by a stable sort and a running maximum, and the final scatters.  Fed the
  same points, coordinates and cell ids (the kernel's program recovers validity as "cell id below the sentinel"),
  they end with the same four results.

  The proof walks the two operation lists side by side.  The kernel program's list is its four opening operations
  (the cell ids as a flat array and the validity test) followed by 150 operations that match the reference's 150
  one for one, with the same function at every position and corresponding operands.  Both lists are cut at the same
  six places; at every cut only a handful of arrays is still read later, and for each of them one lemma says: if
  the arrays alive before the stretch agree, this array agrees after it.  Both sides of such a lemma reduce to the
  same composed expression over the arrays alive before the stretch.
-/
import proofs.«136472_j73985106641253_1_alg».proof.Proof.RefOps
import proofs.«136472_j73985106641253_1_alg».proof.Proof.Gen.KernelIdeal.Launch
import Idealize.ShloMosaic.Lib.Pipeline.Frame

noncomputable section

namespace Cert.Tail

open Idealize.ShloMosaic Idealize.ShloMosaic.TcCoe Idealize.SL.Sem Idealize.ShloMosaic.StableHlo

variable {F : FTy → Type} [FloatOps F]

/-- The kernel program's host operations after the region, as one list. -/
abbrev kTail : List (HloOp Cert.KernelIdeal.τ Cert.KernelIdeal.sig (Elt F)) :=
  List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15]

/-- The reference's operations after its hashing step, as one list. -/
abbrev rTail : List (HloOp Cert.ReferenceIdeal.τ Cert.ReferenceIdeal.sig (Elt F)) :=
  (Cert.ReferenceIdeal.RefRun.tailOpss (F := F)).flatten

/-! ## The kernel program's list, cut where the reference's is -/

section KernelLists

open Cert.KernelIdeal Cert.KernelIdeal.Gen

/-- The opening four operations: the cell ids as a flat array, and validity as "cell id below 220000". -/
abbrev kPre : List (HloOp τ sig (Elt F)) :=
  [ StableHlo.reshape main_v0_1 main_v1 rfl shapeCasts_S4000000x1_S4000000,
    StableHlo.nullary main_c (constantI S_ 32 220000#32),
    StableHlo.unary main_c main_v2 (broadcastInDim S4000000 ![] bcast_S_S4000000 : (⟨S_, .i32⟩ : BufTy).Contents (Elt F) → (⟨S4000000, .i32⟩ : BufTy).Contents (Elt F)),
    StableHlo.binary main_v1 main_v2 main_v3 (cmpi .slt : (⟨S4000000, .i32⟩ : BufTy).Contents (Elt F) → (⟨S4000000, .i32⟩ : BufTy).Contents (Elt F) → (⟨S4000000, .i1⟩ : BufTy).Contents (Elt F)) ]

/-- Stretch 1 (30 operations): first occurrence of every cell by a scatter-min over the point numbers, the flag "first point of its cell", and the running count of such flags. -/
abbrev k1 : List (HloOp τ sig (Elt F)) :=
  [ StableHlo.nullary main_v4 (iotaInDim S4000000 32 0),
    StableHlo.nullary main_c_0 (constantI S_ 32 4000000#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S4000000, .i32⟩) (broadcastInDim S4000000 ![] bcast_S_S4000000),
    StableHlo.TRef.ternary (.of main_v3 : StableHlo.TRef sig ⟨S4000000, .i1⟩) (.of main_v4 : StableHlo.TRef sig ⟨S4000000, .i32⟩) (.of main_call0_v1 : StableHlo.TRef sig ⟨S4000000, .i32⟩) (.of main_v5 : StableHlo.TRef sig ⟨S4000000, .i32⟩) select,
    StableHlo.nullary main_c_1 (constantI S_ 32 2147483647#32),
    StableHlo.unary main_c_1 main_v6 (broadcastInDim S220001 ![] bcast_S_S220001 : (⟨S_, .i32⟩ : BufTy).Contents (Elt F) → (⟨S220001, .i32⟩ : BufTy).Contents (Elt F)),
    StableHlo.unary main_v1 main_v7 (broadcastInDim S4000000x1 ![0] bcast_S4000000_S4000000x1_0 : (⟨S4000000, .i32⟩ : BufTy).Contents (Elt F) → (⟨S4000000x1, .i32⟩ : BufTy).Contents (Elt F)),
    StableHlo.ternary main_v6 main_v7 main_v5 main_v8 ((fun x i u => Host.scatter scatter_S220001_S4000000x1_S4000000_n_0_0_1 IntOp.minsi x i u) : (⟨S220001, .i32⟩ : BufTy).Contents (Elt F) → (⟨S4000000x1, .i32⟩ : BufTy).Contents (Elt F) → (⟨S4000000, .i32⟩ : BufTy).Contents (Elt F) → (⟨S220001, .i32⟩ : BufTy).Contents (Elt F)),
    StableHlo.nullary main_c_2 (constantI S_ 32 0#32),
    StableHlo.unary main_c_2 main_v9 (broadcastInDim S4000000 ![] bcast_S_S4000000 : (⟨S_, .i32⟩ : BufTy).Contents (Elt F) → (⟨S4000000, .i32⟩ : BufTy).Contents (Elt F)),
    StableHlo.binary main_v1 main_v9 main_v10 (cmpi .slt : (⟨S4000000, .i32⟩ : BufTy).Contents (Elt F) → (⟨S4000000, .i32⟩ : BufTy).Contents (Elt F) → (⟨S4000000, .i1⟩ : BufTy).Contents (Elt F)),
    StableHlo.nullary main_c_3 (constantI S_ 32 220001#32),
    StableHlo.unary main_c_3 main_v11 (broadcastInDim S4000000 ![] bcast_S_S4000000 : (⟨S_, .i32⟩ : BufTy).Contents (Elt F) → (⟨S4000000, .i32⟩ : BufTy).Contents (Elt F)),
    StableHlo.binary main_v1 main_v11 main_v12 (addi : (⟨S4000000, .i32⟩ : BufTy).Contents (Elt F) → (⟨S4000000, .i32⟩ : BufTy).Contents (Elt F) → (⟨S4000000, .i32⟩ : BufTy).Contents (Elt F)),
    StableHlo.ternary main_v10 main_v12 main_v1 main_v13 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v13 main_v14 (broadcastInDim S4000000x1 ![0] bcast_S4000000_S4000000x1_0 : (⟨S4000000, .i32⟩ : BufTy).Contents (Elt F) → (⟨S4000000x1, .i32⟩ : BufTy).Contents (Elt F)),
    StableHlo.binary main_v8 main_v14 main_v15 ((fun x i => Host.gather gather_S220001_S4000000x1_S4000000_n_0_n_n_0_1_1 x i) : (⟨S220001, .i32⟩ : BufTy).Contents (Elt F) → (⟨S4000000x1, .i32⟩ : BufTy).Contents (Elt F) → (⟨S4000000, .i32⟩ : BufTy).Contents (Elt F)),
    StableHlo.nullary main_c_4 (constantI S_ 32 3999999#32),
    StableHlo.unary main_c_4 main_v16 (broadcastInDim S4000000 ![] bcast_S_S4000000 : (⟨S_, .i32⟩ : BufTy).Contents (Elt F) → (⟨S4000000, .i32⟩ : BufTy).Contents (Elt F)),
    StableHlo.binary main_v15 main_v16 main_v17 (minsi : (⟨S4000000, .i32⟩ : BufTy).Contents (Elt F) → (⟨S4000000, .i32⟩ : BufTy).Contents (Elt F) → (⟨S4000000, .i32⟩ : BufTy).Contents (Elt F)),
    StableHlo.binary main_v4 main_v17 main_v18 (cmpi .eq : (⟨S4000000, .i32⟩ : BufTy).Contents (Elt F) → (⟨S4000000, .i32⟩ : BufTy).Contents (Elt F) → (⟨S4000000, .i1⟩ : BufTy).Contents (Elt F)),
    StableHlo.binary main_v3 main_v18 main_v19 (andi : (⟨S4000000, .i1⟩ : BufTy).Contents (Elt F) → (⟨S4000000, .i1⟩ : BufTy).Contents (Elt F) → (⟨S4000000, .i1⟩ : BufTy).Contents (Elt F)),
    StableHlo.unary main_v19 main_v20 ((extui 32 · natLt_1_32) : (⟨S4000000, .i1⟩ : BufTy).Contents (Elt F) → (⟨S4000000, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v20 : StableHlo.TRef sig ⟨S4000000, .i32⟩) (.of main_call1_call0_v0 : StableHlo.TRef sig ⟨S_, .i32⟩) (.of main_v21 : StableHlo.TRef sig ⟨S4000000, .i32⟩) (fun x v => Host.reduceWindow IntOp.addi ![4000000] ![1] ![3999999] ![0] x v reduceWindows_S4000000_S4000000_w4000000s1p3999999_0 h_S_),
    StableHlo.nullary main_c_5 (constantI S_ 32 1#32),
    StableHlo.unary main_c_5 main_v22 (broadcastInDim S4000000 ![] bcast_S_S4000000 : (⟨S_, .i32⟩ : BufTy).Contents (Elt F) → (⟨S4000000, .i32⟩ : BufTy).Contents (Elt F)),
    StableHlo.binary main_v21 main_v22 main_v23 (subi : (⟨S4000000, .i32⟩ : BufTy).Contents (Elt F) → (⟨S4000000, .i32⟩ : BufTy).Contents (Elt F) → (⟨S4000000, .i32⟩ : BufTy).Contents (Elt F)) ]

/-- Stretch 2 (27 operations): rank of every point's cell, the stable sort of the cell ids, and the sorted ids' neighbour comparison. -/
abbrev k2 : List (HloOp τ sig (Elt F)) :=
  [ StableHlo.nullary main_c_6 (constantI S_ 32 0#32),
    StableHlo.unary main_c_6 main_v24 (broadcastInDim S4000000 ![] bcast_S_S4000000 : (⟨S_, .i32⟩ : BufTy).Contents (Elt F) → (⟨S4000000, .i32⟩ : BufTy).Contents (Elt F)),
    StableHlo.binary main_v17 main_v24 main_v25 (cmpi .slt : (⟨S4000000, .i32⟩ : BufTy).Contents (Elt F) → (⟨S4000000, .i32⟩ : BufTy).Contents (Elt F) → (⟨S4000000, .i1⟩ : BufTy).Contents (Elt F)),
    StableHlo.nullary main_c_7 (constantI S_ 32 4000000#32),
    StableHlo.unary main_c_7 main_v26 (broadcastInDim S4000000 ![] bcast_S_S4000000 : (⟨S_, .i32⟩ : BufTy).Contents (Elt F) → (⟨S4000000, .i32⟩ : BufTy).Contents (Elt F)),
    StableHlo.binary main_v17 main_v26 main_v27 (addi : (⟨S4000000, .i32⟩ : BufTy).Contents (Elt F) → (⟨S4000000, .i32⟩ : BufTy).Contents (Elt F) → (⟨S4000000, .i32⟩ : BufTy).Contents (Elt F)),
    StableHlo.ternary main_v25 main_v27 main_v17 main_v28 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v28 main_v29 (broadcastInDim S4000000x1 ![0] bcast_S4000000_S4000000x1_0 : (⟨S4000000, .i32⟩ : BufTy).Contents (Elt F) → (⟨S4000000x1, .i32⟩ : BufTy).Contents (Elt F)),
    StableHlo.binary main_v23 main_v29 main_v30 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.TRef.nullary (.of main_call2_v0 : StableHlo.TRef sig ⟨S4000000, .i32⟩) (iotaInDim S4000000 32 0),
    StableHlo.TRef.binary (.of main_v1 : StableHlo.TRef sig ⟨S4000000, .i32⟩) (.of main_call2_v0 : StableHlo.TRef sig ⟨S4000000, .i32⟩) (.of main_call2_v1_0 : StableHlo.TRef sig ⟨S4000000, .i32⟩) (fun x y => (Host.sort2 S4000000 0 comparator_i32_i32_d0 x y).1),
    StableHlo.TRef.binary (.of main_v1 : StableHlo.TRef sig ⟨S4000000, .i32⟩) (.of main_call2_v0 : StableHlo.TRef sig ⟨S4000000, .i32⟩) (.of main_v31 : StableHlo.TRef sig ⟨S4000000, .i32⟩) (fun x y => (Host.sort2 S4000000 0 comparator_i32_i32_d0 x y).2),
    StableHlo.nullary main_c_8 (constantI S_ 32 0#32),
    StableHlo.unary main_c_8 main_v32 (broadcastInDim S4000000 ![] bcast_S_S4000000 : (⟨S_, .i32⟩ : BufTy).Contents (Elt F) → (⟨S4000000, .i32⟩ : BufTy).Contents (Elt F)),
    StableHlo.binary main_v31 main_v32 main_v33 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 4000000#32),
    StableHlo.unary main_c_9 main_v34 (broadcastInDim S4000000 ![] bcast_S_S4000000 : (⟨S_, .i32⟩ : BufTy).Contents (Elt F) → (⟨S4000000, .i32⟩ : BufTy).Contents (Elt F)),
    StableHlo.binary main_v31 main_v34 main_v35 (addi : (⟨S4000000, .i32⟩ : BufTy).Contents (Elt F) → (⟨S4000000, .i32⟩ : BufTy).Contents (Elt F) → (⟨S4000000, .i32⟩ : BufTy).Contents (Elt F)),
    StableHlo.ternary main_v33 main_v35 main_v31 main_v36 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v36 main_v37 (broadcastInDim S4000000x1 ![0] bcast_S4000000_S4000000x1_0 : (⟨S4000000, .i32⟩ : BufTy).Contents (Elt F) → (⟨S4000000x1, .i32⟩ : BufTy).Contents (Elt F)),
    StableHlo.binary main_v1 main_v37 main_v38 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v39 (iotaInDim S4000000 32 0),
    StableHlo.nullary main_c_10 (constantI S_ 1 1#1),
    StableHlo.unary main_c_10 main_v40 (broadcastInDim S1 ![] bcast_S_S1 : (⟨S_, .i1⟩ : BufTy).Contents (Elt F) → (⟨S1, .i1⟩ : BufTy).Contents (Elt F)),
    StableHlo.unary main_v38 main_v41 ((extractStridedSlice S3999999 ![1] · slices_S4000000_S3999999_1) : (⟨S4000000, .i32⟩ : BufTy).Contents (Elt F) → (⟨S3999999, .i32⟩ : BufTy).Contents (Elt F)),
    StableHlo.unary main_v38 main_v42 ((extractStridedSlice S3999999 ![0] · slices_S4000000_S3999999_0) : (⟨S4000000, .i32⟩ : BufTy).Contents (Elt F) → (⟨S3999999, .i32⟩ : BufTy).Contents (Elt F)),
    StableHlo.binary main_v41 main_v42 main_v43 (cmpi .ne : (⟨S3999999, .i32⟩ : BufTy).Contents (Elt F) → (⟨S3999999, .i32⟩ : BufTy).Contents (Elt F) → (⟨S3999999, .i1⟩ : BufTy).Contents (Elt F)) ]

/-- Stretch 3 (30 operations): start-of-run flags, the running maximum that gives every sorted point its position within its cell, its scatter back to point order, and the two keep-tests (cell rank below 40000, position below 32). -/
abbrev k3 : List (HloOp τ sig (Elt F)) :=
  [ StableHlo.binary main_v40 main_v43 main_v44 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    StableHlo.nullary main_c_11 (constantI S_ 32 0#32),
    StableHlo.TRef.unary (.of main_c_11 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4000000, .i32⟩) (broadcastInDim S4000000 ![] bcast_S_S4000000),
    StableHlo.TRef.ternary (.of main_v44 : StableHlo.TRef sig ⟨S4000000, .i1⟩) (.of main_v39 : StableHlo.TRef sig ⟨S4000000, .i32⟩) (.of main_call3_v1 : StableHlo.TRef sig ⟨S4000000, .i32⟩) (.of main_v45 : StableHlo.TRef sig ⟨S4000000, .i32⟩) select,
    StableHlo.TRef.nullary (.of main_call4_c : StableHlo.TRef sig ⟨S_, .i32⟩) (constantI S_ 32 2147483648#32),
    StableHlo.TRef.unary (.of main_call4_c : StableHlo.TRef sig ⟨S_, .i32⟩) (.of main_call4_v0 : StableHlo.TRef sig ⟨S_, .i32⟩) (broadcastInDim S_ ![] bcast_S_S_),
    StableHlo.TRef.binary (.of main_v45 : StableHlo.TRef sig ⟨S4000000, .i32⟩) (.of main_call4_v0 : StableHlo.TRef sig ⟨S_, .i32⟩) (.of main_v46 : StableHlo.TRef sig ⟨S4000000, .i32⟩) (fun x v => Host.reduceWindow IntOp.maxsi ![4000000] ![1] ![3999999] ![0] x v reduceWindows_S4000000_S4000000_w4000000s1p3999999_0 h_S_),
    StableHlo.nullary main_c_12 (constantI S_ 32 0#32),
    StableHlo.unary main_c_12 main_v47 (broadcastInDim S4000000 ![] bcast_S_S4000000 : (⟨S_, .i32⟩ : BufTy).Contents (Elt F) → (⟨S4000000, .i32⟩ : BufTy).Contents (Elt F)),
    StableHlo.binary main_v39 main_v46 main_v48 (subi : (⟨S4000000, .i32⟩ : BufTy).Contents (Elt F) → (⟨S4000000, .i32⟩ : BufTy).Contents (Elt F) → (⟨S4000000, .i32⟩ : BufTy).Contents (Elt F)),
    StableHlo.nullary main_c_13 (constantI S_ 32 0#32),
    StableHlo.unary main_c_13 main_v49 (broadcastInDim S4000000 ![] bcast_S_S4000000 : (⟨S_, .i32⟩ : BufTy).Contents (Elt F) → (⟨S4000000, .i32⟩ : BufTy).Contents (Elt F)),
    StableHlo.binary main_v31 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_14 (constantI S_ 32 4000000#32),
    StableHlo.unary main_c_14 main_v51 (broadcastInDim S4000000 ![] bcast_S_S4000000 : (⟨S_, .i32⟩ : BufTy).Contents (Elt F) → (⟨S4000000, .i32⟩ : BufTy).Contents (Elt F)),
    StableHlo.binary main_v31 main_v51 main_v52 (addi : (⟨S4000000, .i32⟩ : BufTy).Contents (Elt F) → (⟨S4000000, .i32⟩ : BufTy).Contents (Elt F) → (⟨S4000000, .i32⟩ : BufTy).Contents (Elt F)),
    StableHlo.ternary main_v50 main_v52 main_v31 main_v53 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v53 main_v54 (broadcastInDim S4000000x1 ![0] bcast_S4000000_S4000000x1_0 : (⟨S4000000, .i32⟩ : BufTy).Contents (Elt F) → (⟨S4000000x1, .i32⟩ : BufTy).Contents (Elt F)),
    StableHlo.ternary main_v47 main_v54 main_v48 main_v55 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_15 (constantI S_ 32 40000#32),
    StableHlo.unary main_c_15 main_v56 (broadcastInDim S4000000 ![] bcast_S_S4000000 : (⟨S_, .i32⟩ : BufTy).Contents (Elt F) → (⟨S4000000, .i32⟩ : BufTy).Contents (Elt F)),
    StableHlo.binary main_v30 main_v56 main_v57 (cmpi .slt : (⟨S4000000, .i32⟩ : BufTy).Contents (Elt F) → (⟨S4000000, .i32⟩ : BufTy).Contents (Elt F) → (⟨S4000000, .i1⟩ : BufTy).Contents (Elt F)),
    StableHlo.binary main_v3 main_v57 main_v58 (andi : (⟨S4000000, .i1⟩ : BufTy).Contents (Elt F) → (⟨S4000000, .i1⟩ : BufTy).Contents (Elt F) → (⟨S4000000, .i1⟩ : BufTy).Contents (Elt F)),
    StableHlo.nullary main_c_16 (constantI S_ 32 32#32),
    StableHlo.unary main_c_16 main_v59 (broadcastInDim S4000000 ![] bcast_S_S4000000 : (⟨S_, .i32⟩ : BufTy).Contents (Elt F) → (⟨S4000000, .i32⟩ : BufTy).Contents (Elt F)),
    StableHlo.binary main_v55 main_v59 main_v60 (cmpi .slt : (⟨S4000000, .i32⟩ : BufTy).Contents (Elt F) → (⟨S4000000, .i32⟩ : BufTy).Contents (Elt F) → (⟨S4000000, .i1⟩ : BufTy).Contents (Elt F)),
    StableHlo.binary main_v58 main_v60 main_v61 (andi : (⟨S4000000, .i1⟩ : BufTy).Contents (Elt F) → (⟨S4000000, .i1⟩ : BufTy).Contents (Elt F) → (⟨S4000000, .i1⟩ : BufTy).Contents (Elt F)),
    StableHlo.nullary main_c_17 (constantI S_ 32 40000#32),
    StableHlo.TRef.unary (.of main_c_17 : StableHlo.TRef sig ⟨S_, .i32⟩) (.of main_call5_v0 : StableHlo.TRef sig ⟨S_, .i32⟩) id ]

/-- Stretch 4 (24 operations): voxel row and slot of every kept point, with negative indices wrapped. -/
abbrev k4 : List (HloOp τ sig (Elt F)) :=
  [ StableHlo.TRef.unary (.of main_call5_v0 : StableHlo.TRef sig ⟨S_, .i32⟩) (.of main_call5_v1 : StableHlo.TRef sig ⟨S4000000, .i32⟩) (broadcastInDim S4000000 ![] bcast_S_S4000000),
    StableHlo.TRef.ternary (.of main_v61 : StableHlo.TRef sig ⟨S4000000, .i1⟩) (.of main_v30 : StableHlo.TRef sig ⟨S4000000, .i32⟩) (.of main_call5_v1 : StableHlo.TRef sig ⟨S4000000, .i32⟩) (.of main_v62 : StableHlo.TRef sig ⟨S4000000, .i32⟩) select,
    StableHlo.nullary main_c_18 (constantI S_ 32 0#32),
    StableHlo.TRef.unary (.of main_c_18 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S4000000, .i32⟩) (broadcastInDim S4000000 ![] bcast_S_S4000000),
    StableHlo.TRef.ternary (.of main_v61 : StableHlo.TRef sig ⟨S4000000, .i1⟩) (.of main_v55 : StableHlo.TRef sig ⟨S4000000, .i32⟩) (.of main_call6_v1 : StableHlo.TRef sig ⟨S4000000, .i32⟩) (.of main_v63 : StableHlo.TRef sig ⟨S4000000, .i32⟩) select,
    StableHlo.nullary main_cst (constant S_ .f32 0x00000000#32),
    StableHlo.unary main_cst main_v64 (broadcastInDim S40001x32x4 ![] bcast_S_S40001x32x4 : (⟨S_, .f32⟩ : BufTy).Contents (Elt F) → (⟨S40001x32x4, .f32⟩ : BufTy).Contents (Elt F)),
    StableHlo.nullary main_c_19 (constantI S_ 32 0#32),
    StableHlo.unary main_c_19 main_v65 (broadcastInDim S4000000 ![] bcast_S_S4000000 : (⟨S_, .i32⟩ : BufTy).Contents (Elt F) → (⟨S4000000, .i32⟩ : BufTy).Contents (Elt F)),
    StableHlo.binary main_v62 main_v65 main_v66 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 40001#32),
    StableHlo.unary main_c_20 main_v67 (broadcastInDim S4000000 ![] bcast_S_S4000000 : (⟨S_, .i32⟩ : BufTy).Contents (Elt F) → (⟨S4000000, .i32⟩ : BufTy).Contents (Elt F)),
    StableHlo.binary main_v62 main_v67 main_v68 (addi : (⟨S4000000, .i32⟩ : BufTy).Contents (Elt F) → (⟨S4000000, .i32⟩ : BufTy).Contents (Elt F) → (⟨S4000000, .i32⟩ : BufTy).Contents (Elt F)),
    StableHlo.ternary main_v66 main_v68 main_v62 main_v69 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_21 (constantI S_ 32 0#32),
    StableHlo.unary main_c_21 main_v70 (broadcastInDim S4000000 ![] bcast_S_S4000000 : (⟨S_, .i32⟩ : BufTy).Contents (Elt F) → (⟨S4000000, .i32⟩ : BufTy).Contents (Elt F)),
    StableHlo.binary main_v63 main_v70 main_v71 (cmpi .slt : (⟨S4000000, .i32⟩ : BufTy).Contents (Elt F) → (⟨S4000000, .i32⟩ : BufTy).Contents (Elt F) → (⟨S4000000, .i1⟩ : BufTy).Contents (Elt F)),
    StableHlo.nullary main_c_22 (constantI S_ 32 32#32),
    StableHlo.unary main_c_22 main_v72 (broadcastInDim S4000000 ![] bcast_S_S4000000 : (⟨S_, .i32⟩ : BufTy).Contents (Elt F) → (⟨S4000000, .i32⟩ : BufTy).Contents (Elt F)),
    StableHlo.binary main_v63 main_v72 main_v73 (addi : (⟨S4000000, .i32⟩ : BufTy).Contents (Elt F) → (⟨S4000000, .i32⟩ : BufTy).Contents (Elt F) → (⟨S4000000, .i32⟩ : BufTy).Contents (Elt F)),
    StableHlo.ternary main_v71 main_v73 main_v63 main_v74 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v69 main_v75 (broadcastInDim S4000000x1 ![0] bcast_S4000000_S4000000x1_0 : (⟨S4000000, .i32⟩ : BufTy).Contents (Elt F) → (⟨S4000000x1, .i32⟩ : BufTy).Contents (Elt F)),
    StableHlo.unary main_v74 main_v76 (broadcastInDim S4000000x1 ![0] bcast_S4000000_S4000000x1_0 : (⟨S4000000, .i32⟩ : BufTy).Contents (Elt F) → (⟨S4000000x1, .i32⟩ : BufTy).Contents (Elt F)) ]

/-- Stretch 5 (30 operations): the voxel scatter of the points, the scatter of the first points' coordinates, and the start of the per-voxel count. -/
abbrev k5 : List (HloOp τ sig (Elt F)) :=
  [ StableHlo.binary main_v75 main_v76 main_v77 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v64 main_v77 main_arg0 main_v78 ((fun x i u => Host.scatter scatter_S40001x32x4_S4000000x2_S4000000x4_1_01_01_1 (fun _ b => b) x i u) : (⟨S40001x32x4, .f32⟩ : BufTy).Contents (Elt F) → (⟨S4000000x2, .i32⟩ : BufTy).Contents (Elt F) → (⟨S4000000x4, .f32⟩ : BufTy).Contents (Elt F) → (⟨S40001x32x4, .f32⟩ : BufTy).Contents (Elt F)),
    StableHlo.unary main_v78 main_v79 ((extractStridedSlice S40000x32x4 ![0, 0, 0] · slices_S40001x32x4_S40000x32x4_0_0_0) : (⟨S40001x32x4, .f32⟩ : BufTy).Contents (Elt F) → (⟨S40000x32x4, .f32⟩ : BufTy).Contents (Elt F)),
    StableHlo.nullary main_c_23 (constantI S_ 32 40000#32),
    StableHlo.unary main_c_23 main_v80 (broadcastInDim S4000000 ![] bcast_S_S4000000 : (⟨S_, .i32⟩ : BufTy).Contents (Elt F) → (⟨S4000000, .i32⟩ : BufTy).Contents (Elt F)),
    StableHlo.binary main_v30 main_v80 main_v81 (cmpi .slt : (⟨S4000000, .i32⟩ : BufTy).Contents (Elt F) → (⟨S4000000, .i32⟩ : BufTy).Contents (Elt F) → (⟨S4000000, .i1⟩ : BufTy).Contents (Elt F)),
    StableHlo.binary main_v19 main_v81 main_v82 (andi : (⟨S4000000, .i1⟩ : BufTy).Contents (Elt F) → (⟨S4000000, .i1⟩ : BufTy).Contents (Elt F) → (⟨S4000000, .i1⟩ : BufTy).Contents (Elt F)),
    StableHlo.nullary main_c_24 (constantI S_ 32 40000#32),
    StableHlo.TRef.unary (.of main_c_24 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S4000000, .i32⟩) (broadcastInDim S4000000 ![] bcast_S_S4000000),
    StableHlo.TRef.ternary (.of main_v82 : StableHlo.TRef sig ⟨S4000000, .i1⟩) (.of main_v30 : StableHlo.TRef sig ⟨S4000000, .i32⟩) (.of main_call7_v1 : StableHlo.TRef sig ⟨S4000000, .i32⟩) (.of main_v83 : StableHlo.TRef sig ⟨S4000000, .i32⟩) select,
    StableHlo.nullary main_c_25 (constantI S_ 32 0#32),
    StableHlo.unary main_c_25 main_v84 (broadcastInDim S40001x3 ![] bcast_S_S40001x3 : (⟨S_, .i32⟩ : BufTy).Contents (Elt F) → (⟨S40001x3, .i32⟩ : BufTy).Contents (Elt F)),
    StableHlo.nullary main_c_26 (constantI S_ 32 0#32),
    StableHlo.unary main_c_26 main_v85 (broadcastInDim S4000000 ![] bcast_S_S4000000 : (⟨S_, .i32⟩ : BufTy).Contents (Elt F) → (⟨S4000000, .i32⟩ : BufTy).Contents (Elt F)),
    StableHlo.binary main_v83 main_v85 main_v86 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 40001#32),
    StableHlo.unary main_c_27 main_v87 (broadcastInDim S4000000 ![] bcast_S_S4000000 : (⟨S_, .i32⟩ : BufTy).Contents (Elt F) → (⟨S4000000, .i32⟩ : BufTy).Contents (Elt F)),
    StableHlo.binary main_v83 main_v87 main_v88 (addi : (⟨S4000000, .i32⟩ : BufTy).Contents (Elt F) → (⟨S4000000, .i32⟩ : BufTy).Contents (Elt F) → (⟨S4000000, .i32⟩ : BufTy).Contents (Elt F)),
    StableHlo.ternary main_v86 main_v88 main_v83 main_v89 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v89 main_v90 (broadcastInDim S4000000x1 ![0] bcast_S4000000_S4000000x1_0 : (⟨S4000000, .i32⟩ : BufTy).Contents (Elt F) → (⟨S4000000x1, .i32⟩ : BufTy).Contents (Elt F)),
    StableHlo.ternary main_v84 main_v90 main_v0_0 main_v91 ((fun x i u => Host.scatter scatter_S40001x3_S4000000x1_S4000000x3_1_0_0_1 (fun _ b => b) x i u) : (⟨S40001x3, .i32⟩ : BufTy).Contents (Elt F) → (⟨S4000000x1, .i32⟩ : BufTy).Contents (Elt F) → (⟨S4000000x3, .i32⟩ : BufTy).Contents (Elt F) → (⟨S40001x3, .i32⟩ : BufTy).Contents (Elt F)),
    StableHlo.unary main_v91 main_v92 ((extractStridedSlice S40000x3 ![0, 0] · slices_S40001x3_S40000x3_0_0) : (⟨S40001x3, .i32⟩ : BufTy).Contents (Elt F) → (⟨S40000x3, .i32⟩ : BufTy).Contents (Elt F)),
    StableHlo.nullary main_c_28 (constantI S_ 32 0#32),
    StableHlo.unary main_c_28 main_v93 (broadcastInDim S40001 ![] bcast_S_S40001 : (⟨S_, .i32⟩ : BufTy).Contents (Elt F) → (⟨S40001, .i32⟩ : BufTy).Contents (Elt F)),
    StableHlo.unary main_v61 main_v94 ((extui 32 · natLt_1_32) : (⟨S4000000, .i1⟩ : BufTy).Contents (Elt F) → (⟨S4000000, .i32⟩ : BufTy).Contents (Elt F)),
    StableHlo.nullary main_c_29 (constantI S_ 32 0#32),
    StableHlo.unary main_c_29 main_v95 (broadcastInDim S4000000 ![] bcast_S_S4000000 : (⟨S_, .i32⟩ : BufTy).Contents (Elt F) → (⟨S4000000, .i32⟩ : BufTy).Contents (Elt F)),
    StableHlo.binary main_v62 main_v95 main_v96 (cmpi .slt : (⟨S4000000, .i32⟩ : BufTy).Contents (Elt F) → (⟨S4000000, .i32⟩ : BufTy).Contents (Elt F) → (⟨S4000000, .i1⟩ : BufTy).Contents (Elt F)),
    StableHlo.nullary main_c_30 (constantI S_ 32 40001#32) ]

/-- Stretch 6 (9 operations): the per-voxel count and the number of voxels. -/
abbrev k6 : List (HloOp τ sig (Elt F)) :=
  [ StableHlo.unary main_c_30 main_v97 (broadcastInDim S4000000 ![] bcast_S_S4000000 : (⟨S_, .i32⟩ : BufTy).Contents (Elt F) → (⟨S4000000, .i32⟩ : BufTy).Contents (Elt F)),
    StableHlo.binary main_v62 main_v97 main_v98 (addi : (⟨S4000000, .i32⟩ : BufTy).Contents (Elt F) → (⟨S4000000, .i32⟩ : BufTy).Contents (Elt F) → (⟨S4000000, .i32⟩ : BufTy).Contents (Elt F)),
    StableHlo.ternary main_v96 main_v98 main_v62 main_v99 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v99 main_v100 (broadcastInDim S4000000x1 ![0] bcast_S4000000_S4000000x1_0 : (⟨S4000000, .i32⟩ : BufTy).Contents (Elt F) → (⟨S4000000x1, .i32⟩ : BufTy).Contents (Elt F)),
    StableHlo.ternary main_v93 main_v100 main_v94 main_v101 ((fun x i u => Host.scatter scatter_S40001_S4000000x1_S4000000_n_0_0_1 IntOp.addi x i u) : (⟨S40001, .i32⟩ : BufTy).Contents (Elt F) → (⟨S4000000x1, .i32⟩ : BufTy).Contents (Elt F) → (⟨S4000000, .i32⟩ : BufTy).Contents (Elt F) → (⟨S40001, .i32⟩ : BufTy).Contents (Elt F)),
    StableHlo.unary main_v101 main_v102 ((extractStridedSlice S40000 ![0] · slices_S40001_S40000_0) : (⟨S40001, .i32⟩ : BufTy).Contents (Elt F) → (⟨S40000, .i32⟩ : BufTy).Contents (Elt F)),
    StableHlo.unary main_v82 main_v103 ((extui 32 · natLt_1_32) : (⟨S4000000, .i1⟩ : BufTy).Contents (Elt F) → (⟨S4000000, .i32⟩ : BufTy).Contents (Elt F)),
    StableHlo.nullary main_c_31 (constantI S_ 32 0#32),
    StableHlo.binary main_v103 main_c_31 main_v104 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)) ]

end KernelLists

set_option maxRecDepth 8192 in
/-- The kernel program's list is the seven stretches in order. -/
theorem kTail_split : (kTail (F := F)) = kPre ++ (k1 ++ (k2 ++ (k3 ++ (k4 ++ (k5 ++ k6))))) := rfl

set_option maxRecDepth 8192 in
/-- The reference's list is its six stretches in order. -/
theorem rTail_split : (rTail (F := F)) = Cert.ReferenceIdeal.RefRun.ops1 ++ (Cert.ReferenceIdeal.RefRun.ops2 ++ (Cert.ReferenceIdeal.RefRun.ops3 ++ (Cert.ReferenceIdeal.RefRun.ops4 ++ (Cert.ReferenceIdeal.RefRun.ops5 ++ Cert.ReferenceIdeal.RefRun.ops6)))) := rfl

/-- Running the kernel program's list is running its stretches one after the other. -/
theorem kTail_after (W : Valuation Cert.KernelIdeal.τ Cert.KernelIdeal.sig (Elt F)) :
    after kTail W = after k6 (after k5 (after k4 (after k3 (after k2 (after k1 (after kPre W)))))) := by
  rw [kTail_split]; simp only [StableHlo.after_append]

/-- Running the reference's list is running its stretches one after the other. -/
theorem rTail_after (W' : Valuation Cert.ReferenceIdeal.τ Cert.ReferenceIdeal.sig (Elt F)) :
    after rTail W' = after Cert.ReferenceIdeal.RefRun.ops6 (after Cert.ReferenceIdeal.RefRun.ops5 (after Cert.ReferenceIdeal.RefRun.ops4 (after Cert.ReferenceIdeal.RefRun.ops3 (after Cert.ReferenceIdeal.RefRun.ops2 (after Cert.ReferenceIdeal.RefRun.ops1 W'))))) := by
  rw [rTail_split]; simp only [StableHlo.after_append]

/-! ## The opening four operations -/

/-- The flat cell ids. -/
theorem pre_v1 (W : Valuation Cert.KernelIdeal.τ Cert.KernelIdeal.sig (Elt F)) :
    after kPre W (Proc.devRef .tc Cert.KernelIdeal.main_v1)
      = shapeCast Cert.KernelIdeal.S4000000 (W (Proc.devRef .tc Cert.KernelIdeal.main_v0_1)) Cert.KernelIdeal.Facts₀.shapeCasts_S4000000x1_S4000000 := by
  after_results_simp
  all_goals rfl

/-- Validity, as the kernel's program computes it. -/
theorem pre_v3 (W : Valuation Cert.KernelIdeal.τ Cert.KernelIdeal.sig (Elt F)) :
    after kPre W (Proc.devRef .tc Cert.KernelIdeal.main_v3)
      = cmpi .slt (shapeCast Cert.KernelIdeal.S4000000 (W (Proc.devRef .tc Cert.KernelIdeal.main_v0_1)) Cert.KernelIdeal.Facts₀.shapeCasts_S4000000x1_S4000000)
          (broadcastInDim Cert.KernelIdeal.S4000000 ![] Cert.KernelIdeal.Facts₀.bcast_S_S4000000 (constantI Cert.KernelIdeal.S_ 32 220000#32)) := by
  after_results_simp
  all_goals rfl

/-- The points are not touched. -/
theorem pre_arg0 (W : Valuation Cert.KernelIdeal.τ Cert.KernelIdeal.sig (Elt F)) : after kPre W (Proc.devRef .tc Cert.KernelIdeal.main_arg0) = W (Proc.devRef .tc Cert.KernelIdeal.main_arg0) := by
  after_results_simp

/-- The coordinates are not touched. -/
theorem pre_v0_0 (W : Valuation Cert.KernelIdeal.τ Cert.KernelIdeal.sig (Elt F)) : after kPre W (Proc.devRef .tc Cert.KernelIdeal.main_v0_0) = W (Proc.devRef .tc Cert.KernelIdeal.main_v0_0) := by
  after_results_simp

/-! ## Stretch 1: first occurrence of every cell by a scatter-min over the point numbers, the flag "first point of its cell", and the running count of such flags -/

set_option maxHeartbeats 400000 in
/-- Array %v17 of the kernel's program (the reference's %v42) after stretch 1. -/
theorem s1_v17 (W : Valuation Cert.KernelIdeal.τ Cert.KernelIdeal.sig (Elt F)) (W' : Valuation Cert.ReferenceIdeal.τ Cert.ReferenceIdeal.sig (Elt F))
    (h_v1 : W' (Proc.devRef .tc Cert.ReferenceIdeal.main_v28) = W (Proc.devRef .tc Cert.KernelIdeal.main_v1))
    (h_v3 : W' (Proc.devRef .tc Cert.ReferenceIdeal.main_v15) = W (Proc.devRef .tc Cert.KernelIdeal.main_v3))
    : after Cert.ReferenceIdeal.RefRun.ops1 W' (Proc.devRef .tc Cert.ReferenceIdeal.main_v42) = after k1 W (Proc.devRef .tc Cert.KernelIdeal.main_v17) := by
  after_results_simp
  all_goals (try rw [h_v1, h_v3])
  all_goals rfl

set_option maxHeartbeats 400000 in
/-- Array %v23 of the kernel's program (the reference's %v48) after stretch 1. -/
theorem s1_v23 (W : Valuation Cert.KernelIdeal.τ Cert.KernelIdeal.sig (Elt F)) (W' : Valuation Cert.ReferenceIdeal.τ Cert.ReferenceIdeal.sig (Elt F))
    (h_v3 : W' (Proc.devRef .tc Cert.ReferenceIdeal.main_v15) = W (Proc.devRef .tc Cert.KernelIdeal.main_v3))
    (h_v1 : W' (Proc.devRef .tc Cert.ReferenceIdeal.main_v28) = W (Proc.devRef .tc Cert.KernelIdeal.main_v1))
    : after Cert.ReferenceIdeal.RefRun.ops1 W' (Proc.devRef .tc Cert.ReferenceIdeal.main_v48) = after k1 W (Proc.devRef .tc Cert.KernelIdeal.main_v23) := by
  after_results_simp
  all_goals (try rw [h_v3, h_v1])
  all_goals rfl

set_option maxHeartbeats 400000 in
/-- Stretch 1 leaves array %v1 (the reference's %v28) alone. -/
theorem s1_v1 (W : Valuation Cert.KernelIdeal.τ Cert.KernelIdeal.sig (Elt F)) (W' : Valuation Cert.ReferenceIdeal.τ Cert.ReferenceIdeal.sig (Elt F))
    (h_v1 : W' (Proc.devRef .tc Cert.ReferenceIdeal.main_v28) = W (Proc.devRef .tc Cert.KernelIdeal.main_v1))
    : after Cert.ReferenceIdeal.RefRun.ops1 W' (Proc.devRef .tc Cert.ReferenceIdeal.main_v28) = after k1 W (Proc.devRef .tc Cert.KernelIdeal.main_v1) := by
  after_results_simp
  all_goals (try rw [h_v1])
  all_goals rfl

set_option maxHeartbeats 400000 in
/-- Stretch 1 leaves array %v3 (the reference's %v15) alone. -/
theorem s1_v3 (W : Valuation Cert.KernelIdeal.τ Cert.KernelIdeal.sig (Elt F)) (W' : Valuation Cert.ReferenceIdeal.τ Cert.ReferenceIdeal.sig (Elt F))
    (h_v3 : W' (Proc.devRef .tc Cert.ReferenceIdeal.main_v15) = W (Proc.devRef .tc Cert.KernelIdeal.main_v3))
    : after Cert.ReferenceIdeal.RefRun.ops1 W' (Proc.devRef .tc Cert.ReferenceIdeal.main_v15) = after k1 W (Proc.devRef .tc Cert.KernelIdeal.main_v3) := by
  after_results_simp
  all_goals (try rw [h_v3])
  all_goals rfl

set_option maxHeartbeats 400000 in
/-- Stretch 1 leaves array %arg0 (the reference's %arg0) alone. -/
theorem s1_arg0 (W : Valuation Cert.KernelIdeal.τ Cert.KernelIdeal.sig (Elt F)) (W' : Valuation Cert.ReferenceIdeal.τ Cert.ReferenceIdeal.sig (Elt F))
    (h_arg0 : W' (Proc.devRef .tc Cert.ReferenceIdeal.main_arg0) = W (Proc.devRef .tc Cert.KernelIdeal.main_arg0))
    : after Cert.ReferenceIdeal.RefRun.ops1 W' (Proc.devRef .tc Cert.ReferenceIdeal.main_arg0) = after k1 W (Proc.devRef .tc Cert.KernelIdeal.main_arg0) := by
  after_results_simp
  all_goals (try rw [h_arg0])
  all_goals rfl

set_option maxHeartbeats 400000 in
/-- Array %v19 of the kernel's program (the reference's %v44) after stretch 1. -/
theorem s1_v19 (W : Valuation Cert.KernelIdeal.τ Cert.KernelIdeal.sig (Elt F)) (W' : Valuation Cert.ReferenceIdeal.τ Cert.ReferenceIdeal.sig (Elt F))
    (h_v3 : W' (Proc.devRef .tc Cert.ReferenceIdeal.main_v15) = W (Proc.devRef .tc Cert.KernelIdeal.main_v3))
    (h_v1 : W' (Proc.devRef .tc Cert.ReferenceIdeal.main_v28) = W (Proc.devRef .tc Cert.KernelIdeal.main_v1))
    : after Cert.ReferenceIdeal.RefRun.ops1 W' (Proc.devRef .tc Cert.ReferenceIdeal.main_v44) = after k1 W (Proc.devRef .tc Cert.KernelIdeal.main_v19) := by
  after_results_simp
  all_goals (try rw [h_v3, h_v1])
  all_goals rfl

set_option maxHeartbeats 400000 in
/-- Stretch 1 leaves array %v0_0 (the reference's %v8) alone. -/
theorem s1_v0_0 (W : Valuation Cert.KernelIdeal.τ Cert.KernelIdeal.sig (Elt F)) (W' : Valuation Cert.ReferenceIdeal.τ Cert.ReferenceIdeal.sig (Elt F))
    (h_v0_0 : W' (Proc.devRef .tc Cert.ReferenceIdeal.main_v8) = W (Proc.devRef .tc Cert.KernelIdeal.main_v0_0))
    : after Cert.ReferenceIdeal.RefRun.ops1 W' (Proc.devRef .tc Cert.ReferenceIdeal.main_v8) = after k1 W (Proc.devRef .tc Cert.KernelIdeal.main_v0_0) := by
  after_results_simp
  all_goals (try rw [h_v0_0])
  all_goals rfl

/-! ## Stretch 2: rank of every point's cell, the stable sort of the cell ids, and the sorted ids' neighbour comparison -/

set_option maxHeartbeats 400000 in
/-- Array %v40 of the kernel's program (the reference's %v65) after stretch 2. -/
theorem s2_v40 (W : Valuation Cert.KernelIdeal.τ Cert.KernelIdeal.sig (Elt F)) (W' : Valuation Cert.ReferenceIdeal.τ Cert.ReferenceIdeal.sig (Elt F))
    : after Cert.ReferenceIdeal.RefRun.ops2 W' (Proc.devRef .tc Cert.ReferenceIdeal.main_v65) = after k2 W (Proc.devRef .tc Cert.KernelIdeal.main_v40) := by
  after_results_simp
  all_goals rfl

set_option maxHeartbeats 400000 in
/-- Array %v43 of the kernel's program (the reference's %v68) after stretch 2. -/
theorem s2_v43 (W : Valuation Cert.KernelIdeal.τ Cert.KernelIdeal.sig (Elt F)) (W' : Valuation Cert.ReferenceIdeal.τ Cert.ReferenceIdeal.sig (Elt F))
    (h_v1 : W' (Proc.devRef .tc Cert.ReferenceIdeal.main_v28) = W (Proc.devRef .tc Cert.KernelIdeal.main_v1))
    : after Cert.ReferenceIdeal.RefRun.ops2 W' (Proc.devRef .tc Cert.ReferenceIdeal.main_v68) = after k2 W (Proc.devRef .tc Cert.KernelIdeal.main_v43) := by
  after_results_simp
  all_goals (try rw [h_v1])
  all_goals rfl

set_option maxHeartbeats 400000 in
/-- Array %v39 of the kernel's program (the reference's %v64) after stretch 2. -/
theorem s2_v39 (W : Valuation Cert.KernelIdeal.τ Cert.KernelIdeal.sig (Elt F)) (W' : Valuation Cert.ReferenceIdeal.τ Cert.ReferenceIdeal.sig (Elt F))
    : after Cert.ReferenceIdeal.RefRun.ops2 W' (Proc.devRef .tc Cert.ReferenceIdeal.main_v64) = after k2 W (Proc.devRef .tc Cert.KernelIdeal.main_v39) := by
  after_results_simp
  all_goals rfl

set_option maxHeartbeats 400000 in
/-- Array %v31 of the kernel's program (the reference's %v56) after stretch 2. -/
theorem s2_v31 (W : Valuation Cert.KernelIdeal.τ Cert.KernelIdeal.sig (Elt F)) (W' : Valuation Cert.ReferenceIdeal.τ Cert.ReferenceIdeal.sig (Elt F))
    (h_v1 : W' (Proc.devRef .tc Cert.ReferenceIdeal.main_v28) = W (Proc.devRef .tc Cert.KernelIdeal.main_v1))
    : after Cert.ReferenceIdeal.RefRun.ops2 W' (Proc.devRef .tc Cert.ReferenceIdeal.main_v56) = after k2 W (Proc.devRef .tc Cert.KernelIdeal.main_v31) := by
  after_results_simp
  all_goals (try rw [h_v1])
  all_goals rfl

set_option maxHeartbeats 400000 in
/-- Array %v30 of the kernel's program (the reference's %v55) after stretch 2. -/
theorem s2_v30 (W : Valuation Cert.KernelIdeal.τ Cert.KernelIdeal.sig (Elt F)) (W' : Valuation Cert.ReferenceIdeal.τ Cert.ReferenceIdeal.sig (Elt F))
    (h_v23 : W' (Proc.devRef .tc Cert.ReferenceIdeal.main_v48) = W (Proc.devRef .tc Cert.KernelIdeal.main_v23))
    (h_v17 : W' (Proc.devRef .tc Cert.ReferenceIdeal.main_v42) = W (Proc.devRef .tc Cert.KernelIdeal.main_v17))
    : after Cert.ReferenceIdeal.RefRun.ops2 W' (Proc.devRef .tc Cert.ReferenceIdeal.main_v55) = after k2 W (Proc.devRef .tc Cert.KernelIdeal.main_v30) := by
  after_results_simp
  all_goals (try rw [h_v23, h_v17])
  all_goals rfl

set_option maxHeartbeats 400000 in
/-- Stretch 2 leaves array %v3 (the reference's %v15) alone. -/
theorem s2_v3 (W : Valuation Cert.KernelIdeal.τ Cert.KernelIdeal.sig (Elt F)) (W' : Valuation Cert.ReferenceIdeal.τ Cert.ReferenceIdeal.sig (Elt F))
    (h_v3 : W' (Proc.devRef .tc Cert.ReferenceIdeal.main_v15) = W (Proc.devRef .tc Cert.KernelIdeal.main_v3))
    : after Cert.ReferenceIdeal.RefRun.ops2 W' (Proc.devRef .tc Cert.ReferenceIdeal.main_v15) = after k2 W (Proc.devRef .tc Cert.KernelIdeal.main_v3) := by
  after_results_simp
  all_goals (try rw [h_v3])
  all_goals rfl

set_option maxHeartbeats 400000 in
/-- Stretch 2 leaves array %arg0 (the reference's %arg0) alone. -/
theorem s2_arg0 (W : Valuation Cert.KernelIdeal.τ Cert.KernelIdeal.sig (Elt F)) (W' : Valuation Cert.ReferenceIdeal.τ Cert.ReferenceIdeal.sig (Elt F))
    (h_arg0 : W' (Proc.devRef .tc Cert.ReferenceIdeal.main_arg0) = W (Proc.devRef .tc Cert.KernelIdeal.main_arg0))
    : after Cert.ReferenceIdeal.RefRun.ops2 W' (Proc.devRef .tc Cert.ReferenceIdeal.main_arg0) = after k2 W (Proc.devRef .tc Cert.KernelIdeal.main_arg0) := by
  after_results_simp
  all_goals (try rw [h_arg0])
  all_goals rfl

set_option maxHeartbeats 400000 in
/-- Stretch 2 leaves array %v19 (the reference's %v44) alone. -/
theorem s2_v19 (W : Valuation Cert.KernelIdeal.τ Cert.KernelIdeal.sig (Elt F)) (W' : Valuation Cert.ReferenceIdeal.τ Cert.ReferenceIdeal.sig (Elt F))
    (h_v19 : W' (Proc.devRef .tc Cert.ReferenceIdeal.main_v44) = W (Proc.devRef .tc Cert.KernelIdeal.main_v19))
    : after Cert.ReferenceIdeal.RefRun.ops2 W' (Proc.devRef .tc Cert.ReferenceIdeal.main_v44) = after k2 W (Proc.devRef .tc Cert.KernelIdeal.main_v19) := by
  after_results_simp
  all_goals (try rw [h_v19])
  all_goals rfl

set_option maxHeartbeats 400000 in
/-- Stretch 2 leaves array %v0_0 (the reference's %v8) alone. -/
theorem s2_v0_0 (W : Valuation Cert.KernelIdeal.τ Cert.KernelIdeal.sig (Elt F)) (W' : Valuation Cert.ReferenceIdeal.τ Cert.ReferenceIdeal.sig (Elt F))
    (h_v0_0 : W' (Proc.devRef .tc Cert.ReferenceIdeal.main_v8) = W (Proc.devRef .tc Cert.KernelIdeal.main_v0_0))
    : after Cert.ReferenceIdeal.RefRun.ops2 W' (Proc.devRef .tc Cert.ReferenceIdeal.main_v8) = after k2 W (Proc.devRef .tc Cert.KernelIdeal.main_v0_0) := by
  after_results_simp
  all_goals (try rw [h_v0_0])
  all_goals rfl

/-! ## Stretch 3: start-of-run flags, the running maximum that gives every sorted point its position within its cell, its scatter back to point order, and the two keep-tests (cell rank below 40000, position below 32) -/

set_option maxHeartbeats 400000 in
/-- Array %call5_v0 of the kernel's program (the reference's %call6_v0) after stretch 3. -/
theorem s3_call5_v0 (W : Valuation Cert.KernelIdeal.τ Cert.KernelIdeal.sig (Elt F)) (W' : Valuation Cert.ReferenceIdeal.τ Cert.ReferenceIdeal.sig (Elt F))
    : after Cert.ReferenceIdeal.RefRun.ops3 W' (Proc.devRef .tc Cert.ReferenceIdeal.main_call6_v0) = after k3 W (Proc.devRef .tc Cert.KernelIdeal.main_call5_v0) := by
  after_results_simp
  all_goals rfl

set_option maxHeartbeats 400000 in
/-- Array %v61 of the kernel's program (the reference's %v86) after stretch 3. -/
theorem s3_v61 (W : Valuation Cert.KernelIdeal.τ Cert.KernelIdeal.sig (Elt F)) (W' : Valuation Cert.ReferenceIdeal.τ Cert.ReferenceIdeal.sig (Elt F))
    (h_v3 : W' (Proc.devRef .tc Cert.ReferenceIdeal.main_v15) = W (Proc.devRef .tc Cert.KernelIdeal.main_v3))
    (h_v30 : W' (Proc.devRef .tc Cert.ReferenceIdeal.main_v55) = W (Proc.devRef .tc Cert.KernelIdeal.main_v30))
    (h_v31 : W' (Proc.devRef .tc Cert.ReferenceIdeal.main_v56) = W (Proc.devRef .tc Cert.KernelIdeal.main_v31))
    (h_v39 : W' (Proc.devRef .tc Cert.ReferenceIdeal.main_v64) = W (Proc.devRef .tc Cert.KernelIdeal.main_v39))
    (h_v40 : W' (Proc.devRef .tc Cert.ReferenceIdeal.main_v65) = W (Proc.devRef .tc Cert.KernelIdeal.main_v40))
    (h_v43 : W' (Proc.devRef .tc Cert.ReferenceIdeal.main_v68) = W (Proc.devRef .tc Cert.KernelIdeal.main_v43))
    : after Cert.ReferenceIdeal.RefRun.ops3 W' (Proc.devRef .tc Cert.ReferenceIdeal.main_v86) = after k3 W (Proc.devRef .tc Cert.KernelIdeal.main_v61) := by
  after_results_simp
  all_goals (try rw [h_v3, h_v30, h_v31, h_v39, h_v40, h_v43])
  all_goals rfl

set_option maxHeartbeats 400000 in
/-- Stretch 3 leaves array %v30 (the reference's %v55) alone. -/
theorem s3_v30 (W : Valuation Cert.KernelIdeal.τ Cert.KernelIdeal.sig (Elt F)) (W' : Valuation Cert.ReferenceIdeal.τ Cert.ReferenceIdeal.sig (Elt F))
    (h_v30 : W' (Proc.devRef .tc Cert.ReferenceIdeal.main_v55) = W (Proc.devRef .tc Cert.KernelIdeal.main_v30))
    : after Cert.ReferenceIdeal.RefRun.ops3 W' (Proc.devRef .tc Cert.ReferenceIdeal.main_v55) = after k3 W (Proc.devRef .tc Cert.KernelIdeal.main_v30) := by
  after_results_simp
  all_goals (try rw [h_v30])
  all_goals rfl

set_option maxHeartbeats 400000 in
/-- Array %v55 of the kernel's program (the reference's %v80) after stretch 3. -/
theorem s3_v55 (W : Valuation Cert.KernelIdeal.τ Cert.KernelIdeal.sig (Elt F)) (W' : Valuation Cert.ReferenceIdeal.τ Cert.ReferenceIdeal.sig (Elt F))
    (h_v31 : W' (Proc.devRef .tc Cert.ReferenceIdeal.main_v56) = W (Proc.devRef .tc Cert.KernelIdeal.main_v31))
    (h_v39 : W' (Proc.devRef .tc Cert.ReferenceIdeal.main_v64) = W (Proc.devRef .tc Cert.KernelIdeal.main_v39))
    (h_v40 : W' (Proc.devRef .tc Cert.ReferenceIdeal.main_v65) = W (Proc.devRef .tc Cert.KernelIdeal.main_v40))
    (h_v43 : W' (Proc.devRef .tc Cert.ReferenceIdeal.main_v68) = W (Proc.devRef .tc Cert.KernelIdeal.main_v43))
    : after Cert.ReferenceIdeal.RefRun.ops3 W' (Proc.devRef .tc Cert.ReferenceIdeal.main_v80) = after k3 W (Proc.devRef .tc Cert.KernelIdeal.main_v55) := by
  after_results_simp
  all_goals (try rw [h_v31, h_v39, h_v40, h_v43])
  all_goals rfl

set_option maxHeartbeats 400000 in
/-- Stretch 3 leaves array %arg0 (the reference's %arg0) alone. -/
theorem s3_arg0 (W : Valuation Cert.KernelIdeal.τ Cert.KernelIdeal.sig (Elt F)) (W' : Valuation Cert.ReferenceIdeal.τ Cert.ReferenceIdeal.sig (Elt F))
    (h_arg0 : W' (Proc.devRef .tc Cert.ReferenceIdeal.main_arg0) = W (Proc.devRef .tc Cert.KernelIdeal.main_arg0))
    : after Cert.ReferenceIdeal.RefRun.ops3 W' (Proc.devRef .tc Cert.ReferenceIdeal.main_arg0) = after k3 W (Proc.devRef .tc Cert.KernelIdeal.main_arg0) := by
  after_results_simp
  all_goals (try rw [h_arg0])
  all_goals rfl

set_option maxHeartbeats 400000 in
/-- Stretch 3 leaves array %v19 (the reference's %v44) alone. -/
theorem s3_v19 (W : Valuation Cert.KernelIdeal.τ Cert.KernelIdeal.sig (Elt F)) (W' : Valuation Cert.ReferenceIdeal.τ Cert.ReferenceIdeal.sig (Elt F))
    (h_v19 : W' (Proc.devRef .tc Cert.ReferenceIdeal.main_v44) = W (Proc.devRef .tc Cert.KernelIdeal.main_v19))
    : after Cert.ReferenceIdeal.RefRun.ops3 W' (Proc.devRef .tc Cert.ReferenceIdeal.main_v44) = after k3 W (Proc.devRef .tc Cert.KernelIdeal.main_v19) := by
  after_results_simp
  all_goals (try rw [h_v19])
  all_goals rfl

set_option maxHeartbeats 400000 in
/-- Stretch 3 leaves array %v0_0 (the reference's %v8) alone. -/
theorem s3_v0_0 (W : Valuation Cert.KernelIdeal.τ Cert.KernelIdeal.sig (Elt F)) (W' : Valuation Cert.ReferenceIdeal.τ Cert.ReferenceIdeal.sig (Elt F))
    (h_v0_0 : W' (Proc.devRef .tc Cert.ReferenceIdeal.main_v8) = W (Proc.devRef .tc Cert.KernelIdeal.main_v0_0))
    : after Cert.ReferenceIdeal.RefRun.ops3 W' (Proc.devRef .tc Cert.ReferenceIdeal.main_v8) = after k3 W (Proc.devRef .tc Cert.KernelIdeal.main_v0_0) := by
  after_results_simp
  all_goals (try rw [h_v0_0])
  all_goals rfl

/-! ## Stretch 4: voxel row and slot of every kept point, with negative indices wrapped -/

set_option maxHeartbeats 400000 in
/-- Array %v75 of the kernel's program (the reference's %v100) after stretch 4. -/
theorem s4_v75 (W : Valuation Cert.KernelIdeal.τ Cert.KernelIdeal.sig (Elt F)) (W' : Valuation Cert.ReferenceIdeal.τ Cert.ReferenceIdeal.sig (Elt F))
    (h_v61 : W' (Proc.devRef .tc Cert.ReferenceIdeal.main_v86) = W (Proc.devRef .tc Cert.KernelIdeal.main_v61))
    (h_v30 : W' (Proc.devRef .tc Cert.ReferenceIdeal.main_v55) = W (Proc.devRef .tc Cert.KernelIdeal.main_v30))
    (h_call5_v0 : W' (Proc.devRef .tc Cert.ReferenceIdeal.main_call6_v0) = W (Proc.devRef .tc Cert.KernelIdeal.main_call5_v0))
    : after Cert.ReferenceIdeal.RefRun.ops4 W' (Proc.devRef .tc Cert.ReferenceIdeal.main_v100) = after k4 W (Proc.devRef .tc Cert.KernelIdeal.main_v75) := by
  after_results_simp
  all_goals (try rw [h_v61, h_v30, h_call5_v0])
  all_goals rfl

set_option maxHeartbeats 400000 in
/-- Array %v76 of the kernel's program (the reference's %v101) after stretch 4. -/
theorem s4_v76 (W : Valuation Cert.KernelIdeal.τ Cert.KernelIdeal.sig (Elt F)) (W' : Valuation Cert.ReferenceIdeal.τ Cert.ReferenceIdeal.sig (Elt F))
    (h_v61 : W' (Proc.devRef .tc Cert.ReferenceIdeal.main_v86) = W (Proc.devRef .tc Cert.KernelIdeal.main_v61))
    (h_v55 : W' (Proc.devRef .tc Cert.ReferenceIdeal.main_v80) = W (Proc.devRef .tc Cert.KernelIdeal.main_v55))
    : after Cert.ReferenceIdeal.RefRun.ops4 W' (Proc.devRef .tc Cert.ReferenceIdeal.main_v101) = after k4 W (Proc.devRef .tc Cert.KernelIdeal.main_v76) := by
  after_results_simp
  all_goals (try rw [h_v61, h_v55])
  all_goals rfl

set_option maxHeartbeats 400000 in
/-- Array %v64 of the kernel's program (the reference's %v89) after stretch 4. -/
theorem s4_v64 (W : Valuation Cert.KernelIdeal.τ Cert.KernelIdeal.sig (Elt F)) (W' : Valuation Cert.ReferenceIdeal.τ Cert.ReferenceIdeal.sig (Elt F))
    : after Cert.ReferenceIdeal.RefRun.ops4 W' (Proc.devRef .tc Cert.ReferenceIdeal.main_v89) = after k4 W (Proc.devRef .tc Cert.KernelIdeal.main_v64) := by
  after_results_simp
  all_goals rfl

set_option maxHeartbeats 400000 in
/-- Stretch 4 leaves array %arg0 (the reference's %arg0) alone. -/
theorem s4_arg0 (W : Valuation Cert.KernelIdeal.τ Cert.KernelIdeal.sig (Elt F)) (W' : Valuation Cert.ReferenceIdeal.τ Cert.ReferenceIdeal.sig (Elt F))
    (h_arg0 : W' (Proc.devRef .tc Cert.ReferenceIdeal.main_arg0) = W (Proc.devRef .tc Cert.KernelIdeal.main_arg0))
    : after Cert.ReferenceIdeal.RefRun.ops4 W' (Proc.devRef .tc Cert.ReferenceIdeal.main_arg0) = after k4 W (Proc.devRef .tc Cert.KernelIdeal.main_arg0) := by
  after_results_simp
  all_goals (try rw [h_arg0])
  all_goals rfl

set_option maxHeartbeats 400000 in
/-- Stretch 4 leaves array %v30 (the reference's %v55) alone. -/
theorem s4_v30 (W : Valuation Cert.KernelIdeal.τ Cert.KernelIdeal.sig (Elt F)) (W' : Valuation Cert.ReferenceIdeal.τ Cert.ReferenceIdeal.sig (Elt F))
    (h_v30 : W' (Proc.devRef .tc Cert.ReferenceIdeal.main_v55) = W (Proc.devRef .tc Cert.KernelIdeal.main_v30))
    : after Cert.ReferenceIdeal.RefRun.ops4 W' (Proc.devRef .tc Cert.ReferenceIdeal.main_v55) = after k4 W (Proc.devRef .tc Cert.KernelIdeal.main_v30) := by
  after_results_simp
  all_goals (try rw [h_v30])
  all_goals rfl

set_option maxHeartbeats 400000 in
/-- Stretch 4 leaves array %v19 (the reference's %v44) alone. -/
theorem s4_v19 (W : Valuation Cert.KernelIdeal.τ Cert.KernelIdeal.sig (Elt F)) (W' : Valuation Cert.ReferenceIdeal.τ Cert.ReferenceIdeal.sig (Elt F))
    (h_v19 : W' (Proc.devRef .tc Cert.ReferenceIdeal.main_v44) = W (Proc.devRef .tc Cert.KernelIdeal.main_v19))
    : after Cert.ReferenceIdeal.RefRun.ops4 W' (Proc.devRef .tc Cert.ReferenceIdeal.main_v44) = after k4 W (Proc.devRef .tc Cert.KernelIdeal.main_v19) := by
  after_results_simp
  all_goals (try rw [h_v19])
  all_goals rfl

set_option maxHeartbeats 400000 in
/-- Stretch 4 leaves array %v0_0 (the reference's %v8) alone. -/
theorem s4_v0_0 (W : Valuation Cert.KernelIdeal.τ Cert.KernelIdeal.sig (Elt F)) (W' : Valuation Cert.ReferenceIdeal.τ Cert.ReferenceIdeal.sig (Elt F))
    (h_v0_0 : W' (Proc.devRef .tc Cert.ReferenceIdeal.main_v8) = W (Proc.devRef .tc Cert.KernelIdeal.main_v0_0))
    : after Cert.ReferenceIdeal.RefRun.ops4 W' (Proc.devRef .tc Cert.ReferenceIdeal.main_v8) = after k4 W (Proc.devRef .tc Cert.KernelIdeal.main_v0_0) := by
  after_results_simp
  all_goals (try rw [h_v0_0])
  all_goals rfl

set_option maxHeartbeats 400000 in
/-- Stretch 4 leaves array %v61 (the reference's %v86) alone. -/
theorem s4_v61 (W : Valuation Cert.KernelIdeal.τ Cert.KernelIdeal.sig (Elt F)) (W' : Valuation Cert.ReferenceIdeal.τ Cert.ReferenceIdeal.sig (Elt F))
    (h_v61 : W' (Proc.devRef .tc Cert.ReferenceIdeal.main_v86) = W (Proc.devRef .tc Cert.KernelIdeal.main_v61))
    : after Cert.ReferenceIdeal.RefRun.ops4 W' (Proc.devRef .tc Cert.ReferenceIdeal.main_v86) = after k4 W (Proc.devRef .tc Cert.KernelIdeal.main_v61) := by
  after_results_simp
  all_goals (try rw [h_v61])
  all_goals rfl

set_option maxHeartbeats 400000 in
/-- Array %v62 of the kernel's program (the reference's %v87) after stretch 4. -/
theorem s4_v62 (W : Valuation Cert.KernelIdeal.τ Cert.KernelIdeal.sig (Elt F)) (W' : Valuation Cert.ReferenceIdeal.τ Cert.ReferenceIdeal.sig (Elt F))
    (h_v61 : W' (Proc.devRef .tc Cert.ReferenceIdeal.main_v86) = W (Proc.devRef .tc Cert.KernelIdeal.main_v61))
    (h_v30 : W' (Proc.devRef .tc Cert.ReferenceIdeal.main_v55) = W (Proc.devRef .tc Cert.KernelIdeal.main_v30))
    (h_call5_v0 : W' (Proc.devRef .tc Cert.ReferenceIdeal.main_call6_v0) = W (Proc.devRef .tc Cert.KernelIdeal.main_call5_v0))
    : after Cert.ReferenceIdeal.RefRun.ops4 W' (Proc.devRef .tc Cert.ReferenceIdeal.main_v87) = after k4 W (Proc.devRef .tc Cert.KernelIdeal.main_v62) := by
  after_results_simp
  all_goals (try rw [h_v61, h_v30, h_call5_v0])
  all_goals rfl

/-! ## Stretch 5: the voxel scatter of the points, the scatter of the first points' coordinates, and the start of the per-voxel count -/

set_option maxHeartbeats 400000 in
/-- Array %c_30 of the kernel's program (the reference's %c_37) after stretch 5. -/
theorem s5_c_30 (W : Valuation Cert.KernelIdeal.τ Cert.KernelIdeal.sig (Elt F)) (W' : Valuation Cert.ReferenceIdeal.τ Cert.ReferenceIdeal.sig (Elt F))
    : after Cert.ReferenceIdeal.RefRun.ops5 W' (Proc.devRef .tc Cert.ReferenceIdeal.main_c_37) = after k5 W (Proc.devRef .tc Cert.KernelIdeal.main_c_30) := by
  after_results_simp
  all_goals rfl

set_option maxHeartbeats 400000 in
/-- Stretch 5 leaves array %v62 (the reference's %v87) alone. -/
theorem s5_v62 (W : Valuation Cert.KernelIdeal.τ Cert.KernelIdeal.sig (Elt F)) (W' : Valuation Cert.ReferenceIdeal.τ Cert.ReferenceIdeal.sig (Elt F))
    (h_v62 : W' (Proc.devRef .tc Cert.ReferenceIdeal.main_v87) = W (Proc.devRef .tc Cert.KernelIdeal.main_v62))
    : after Cert.ReferenceIdeal.RefRun.ops5 W' (Proc.devRef .tc Cert.ReferenceIdeal.main_v87) = after k5 W (Proc.devRef .tc Cert.KernelIdeal.main_v62) := by
  after_results_simp
  all_goals (try rw [h_v62])
  all_goals rfl

set_option maxHeartbeats 400000 in
/-- Array %v96 of the kernel's program (the reference's %v121) after stretch 5. -/
theorem s5_v96 (W : Valuation Cert.KernelIdeal.τ Cert.KernelIdeal.sig (Elt F)) (W' : Valuation Cert.ReferenceIdeal.τ Cert.ReferenceIdeal.sig (Elt F))
    (h_v62 : W' (Proc.devRef .tc Cert.ReferenceIdeal.main_v87) = W (Proc.devRef .tc Cert.KernelIdeal.main_v62))
    : after Cert.ReferenceIdeal.RefRun.ops5 W' (Proc.devRef .tc Cert.ReferenceIdeal.main_v121) = after k5 W (Proc.devRef .tc Cert.KernelIdeal.main_v96) := by
  after_results_simp
  all_goals (try rw [h_v62])
  all_goals rfl

set_option maxHeartbeats 400000 in
/-- Array %v93 of the kernel's program (the reference's %v118) after stretch 5. -/
theorem s5_v93 (W : Valuation Cert.KernelIdeal.τ Cert.KernelIdeal.sig (Elt F)) (W' : Valuation Cert.ReferenceIdeal.τ Cert.ReferenceIdeal.sig (Elt F))
    : after Cert.ReferenceIdeal.RefRun.ops5 W' (Proc.devRef .tc Cert.ReferenceIdeal.main_v118) = after k5 W (Proc.devRef .tc Cert.KernelIdeal.main_v93) := by
  after_results_simp
  all_goals rfl

set_option maxHeartbeats 400000 in
/-- Array %v94 of the kernel's program (the reference's %v119) after stretch 5. -/
theorem s5_v94 (W : Valuation Cert.KernelIdeal.τ Cert.KernelIdeal.sig (Elt F)) (W' : Valuation Cert.ReferenceIdeal.τ Cert.ReferenceIdeal.sig (Elt F))
    (h_v61 : W' (Proc.devRef .tc Cert.ReferenceIdeal.main_v86) = W (Proc.devRef .tc Cert.KernelIdeal.main_v61))
    : after Cert.ReferenceIdeal.RefRun.ops5 W' (Proc.devRef .tc Cert.ReferenceIdeal.main_v119) = after k5 W (Proc.devRef .tc Cert.KernelIdeal.main_v94) := by
  after_results_simp
  all_goals (try rw [h_v61])
  all_goals rfl

set_option maxHeartbeats 400000 in
/-- Array %v82 of the kernel's program (the reference's %v107) after stretch 5. -/
theorem s5_v82 (W : Valuation Cert.KernelIdeal.τ Cert.KernelIdeal.sig (Elt F)) (W' : Valuation Cert.ReferenceIdeal.τ Cert.ReferenceIdeal.sig (Elt F))
    (h_v19 : W' (Proc.devRef .tc Cert.ReferenceIdeal.main_v44) = W (Proc.devRef .tc Cert.KernelIdeal.main_v19))
    (h_v30 : W' (Proc.devRef .tc Cert.ReferenceIdeal.main_v55) = W (Proc.devRef .tc Cert.KernelIdeal.main_v30))
    : after Cert.ReferenceIdeal.RefRun.ops5 W' (Proc.devRef .tc Cert.ReferenceIdeal.main_v107) = after k5 W (Proc.devRef .tc Cert.KernelIdeal.main_v82) := by
  after_results_simp
  all_goals (try rw [h_v19, h_v30])
  all_goals rfl

set_option maxHeartbeats 400000 in
/-- Array %v79 of the kernel's program (the reference's %v104) after stretch 5. -/
theorem s5_v79 (W : Valuation Cert.KernelIdeal.τ Cert.KernelIdeal.sig (Elt F)) (W' : Valuation Cert.ReferenceIdeal.τ Cert.ReferenceIdeal.sig (Elt F))
    (h_v64 : W' (Proc.devRef .tc Cert.ReferenceIdeal.main_v89) = W (Proc.devRef .tc Cert.KernelIdeal.main_v64))
    (h_v75 : W' (Proc.devRef .tc Cert.ReferenceIdeal.main_v100) = W (Proc.devRef .tc Cert.KernelIdeal.main_v75))
    (h_v76 : W' (Proc.devRef .tc Cert.ReferenceIdeal.main_v101) = W (Proc.devRef .tc Cert.KernelIdeal.main_v76))
    (h_arg0 : W' (Proc.devRef .tc Cert.ReferenceIdeal.main_arg0) = W (Proc.devRef .tc Cert.KernelIdeal.main_arg0))
    : after Cert.ReferenceIdeal.RefRun.ops5 W' (Proc.devRef .tc Cert.ReferenceIdeal.main_v104) = after k5 W (Proc.devRef .tc Cert.KernelIdeal.main_v79) := by
  after_results_simp
  all_goals (try rw [h_v64, h_v75, h_v76, h_arg0])
  all_goals rfl

set_option maxHeartbeats 400000 in
/-- Array %v92 of the kernel's program (the reference's %v117) after stretch 5. -/
theorem s5_v92 (W : Valuation Cert.KernelIdeal.τ Cert.KernelIdeal.sig (Elt F)) (W' : Valuation Cert.ReferenceIdeal.τ Cert.ReferenceIdeal.sig (Elt F))
    (h_v19 : W' (Proc.devRef .tc Cert.ReferenceIdeal.main_v44) = W (Proc.devRef .tc Cert.KernelIdeal.main_v19))
    (h_v30 : W' (Proc.devRef .tc Cert.ReferenceIdeal.main_v55) = W (Proc.devRef .tc Cert.KernelIdeal.main_v30))
    (h_v0_0 : W' (Proc.devRef .tc Cert.ReferenceIdeal.main_v8) = W (Proc.devRef .tc Cert.KernelIdeal.main_v0_0))
    : after Cert.ReferenceIdeal.RefRun.ops5 W' (Proc.devRef .tc Cert.ReferenceIdeal.main_v117) = after k5 W (Proc.devRef .tc Cert.KernelIdeal.main_v92) := by
  after_results_simp
  all_goals (try rw [h_v19, h_v30, h_v0_0])
  all_goals rfl

/-! ## Stretch 6: the per-voxel count and the number of voxels -/

set_option maxHeartbeats 400000 in
/-- Stretch 6 leaves array %v79 (the reference's %v104) alone. -/
theorem s6_v79 (W : Valuation Cert.KernelIdeal.τ Cert.KernelIdeal.sig (Elt F)) (W' : Valuation Cert.ReferenceIdeal.τ Cert.ReferenceIdeal.sig (Elt F))
    (h_v79 : W' (Proc.devRef .tc Cert.ReferenceIdeal.main_v104) = W (Proc.devRef .tc Cert.KernelIdeal.main_v79))
    : after Cert.ReferenceIdeal.RefRun.ops6 W' (Proc.devRef .tc Cert.ReferenceIdeal.main_v104) = after k6 W (Proc.devRef .tc Cert.KernelIdeal.main_v79) := by
  after_results_simp
  all_goals (try rw [h_v79])
  all_goals rfl

set_option maxHeartbeats 400000 in
/-- Stretch 6 leaves array %v92 (the reference's %v117) alone. -/
theorem s6_v92 (W : Valuation Cert.KernelIdeal.τ Cert.KernelIdeal.sig (Elt F)) (W' : Valuation Cert.ReferenceIdeal.τ Cert.ReferenceIdeal.sig (Elt F))
    (h_v92 : W' (Proc.devRef .tc Cert.ReferenceIdeal.main_v117) = W (Proc.devRef .tc Cert.KernelIdeal.main_v92))
    : after Cert.ReferenceIdeal.RefRun.ops6 W' (Proc.devRef .tc Cert.ReferenceIdeal.main_v117) = after k6 W (Proc.devRef .tc Cert.KernelIdeal.main_v92) := by
  after_results_simp
  all_goals (try rw [h_v92])
  all_goals rfl

set_option maxHeartbeats 400000 in
/-- Array %v102 of the kernel's program (the reference's %v127) after stretch 6. -/
theorem s6_v102 (W : Valuation Cert.KernelIdeal.τ Cert.KernelIdeal.sig (Elt F)) (W' : Valuation Cert.ReferenceIdeal.τ Cert.ReferenceIdeal.sig (Elt F))
    (h_v93 : W' (Proc.devRef .tc Cert.ReferenceIdeal.main_v118) = W (Proc.devRef .tc Cert.KernelIdeal.main_v93))
    (h_v96 : W' (Proc.devRef .tc Cert.ReferenceIdeal.main_v121) = W (Proc.devRef .tc Cert.KernelIdeal.main_v96))
    (h_v62 : W' (Proc.devRef .tc Cert.ReferenceIdeal.main_v87) = W (Proc.devRef .tc Cert.KernelIdeal.main_v62))
    (h_c_30 : W' (Proc.devRef .tc Cert.ReferenceIdeal.main_c_37) = W (Proc.devRef .tc Cert.KernelIdeal.main_c_30))
    (h_v94 : W' (Proc.devRef .tc Cert.ReferenceIdeal.main_v119) = W (Proc.devRef .tc Cert.KernelIdeal.main_v94))
    : after Cert.ReferenceIdeal.RefRun.ops6 W' (Proc.devRef .tc Cert.ReferenceIdeal.main_v127) = after k6 W (Proc.devRef .tc Cert.KernelIdeal.main_v102) := by
  after_results_simp
  all_goals (try rw [h_v93, h_v96, h_v62, h_c_30, h_v94])
  all_goals rfl

set_option maxHeartbeats 400000 in
/-- Array %v104 of the kernel's program (the reference's %v129) after stretch 6. -/
theorem s6_v104 (W : Valuation Cert.KernelIdeal.τ Cert.KernelIdeal.sig (Elt F)) (W' : Valuation Cert.ReferenceIdeal.τ Cert.ReferenceIdeal.sig (Elt F))
    (h_v82 : W' (Proc.devRef .tc Cert.ReferenceIdeal.main_v107) = W (Proc.devRef .tc Cert.KernelIdeal.main_v82))
    : after Cert.ReferenceIdeal.RefRun.ops6 W' (Proc.devRef .tc Cert.ReferenceIdeal.main_v129) = after k6 W (Proc.devRef .tc Cert.KernelIdeal.main_v104) := by
  after_results_simp
  all_goals (try rw [h_v82])
  all_goals rfl

/-! ## The four results -/

/-- Same points, same coordinates, same cell ids, and validity the test "cell id below 220000": same four results. -/
theorem tail_eq (W : Valuation Cert.KernelIdeal.τ Cert.KernelIdeal.sig (Elt F)) (W' : Valuation Cert.ReferenceIdeal.τ Cert.ReferenceIdeal.sig (Elt F))
    (hP : W' (Proc.devRef .tc Cert.ReferenceIdeal.main_arg0) = W (Proc.devRef .tc Cert.KernelIdeal.main_arg0))
    (hC : W' (Proc.devRef .tc Cert.ReferenceIdeal.main_v8) = W (Proc.devRef .tc Cert.KernelIdeal.main_v0_0))
    (hL : W' (Proc.devRef .tc Cert.ReferenceIdeal.main_v28)
        = shapeCast Cert.KernelIdeal.S4000000 (W (Proc.devRef .tc Cert.KernelIdeal.main_v0_1)) Cert.KernelIdeal.Facts₀.shapeCasts_S4000000x1_S4000000)
    (hV : W' (Proc.devRef .tc Cert.ReferenceIdeal.main_v15)
        = cmpi .slt (W' (Proc.devRef .tc Cert.ReferenceIdeal.main_v28))
            (broadcastInDim Cert.ReferenceIdeal.S4000000 ![] Cert.ReferenceIdeal.Facts₀.bcast_S_S4000000 (constantI Cert.ReferenceIdeal.S_ 32 220000#32))) :
    after rTail W' (Proc.devRef .tc Cert.ReferenceIdeal.main_v104) = after kTail W (Proc.devRef .tc Cert.KernelIdeal.main_v79)
    ∧ after rTail W' (Proc.devRef .tc Cert.ReferenceIdeal.main_v117) = after kTail W (Proc.devRef .tc Cert.KernelIdeal.main_v92)
    ∧ after rTail W' (Proc.devRef .tc Cert.ReferenceIdeal.main_v127) = after kTail W (Proc.devRef .tc Cert.KernelIdeal.main_v102)
    ∧ after rTail W' (Proc.devRef .tc Cert.ReferenceIdeal.main_v129) = after kTail W (Proc.devRef .tc Cert.KernelIdeal.main_v104) := by
  -- before the first stretch: the four arrays both programs start from
  have e0_arg0 : W' (Proc.devRef .tc Cert.ReferenceIdeal.main_arg0) = after kPre W (Proc.devRef .tc Cert.KernelIdeal.main_arg0) := hP.trans (pre_arg0 W).symm
  have e0_v0_0 : W' (Proc.devRef .tc Cert.ReferenceIdeal.main_v8) = after kPre W (Proc.devRef .tc Cert.KernelIdeal.main_v0_0) := hC.trans (pre_v0_0 W).symm
  have e0_v1 : W' (Proc.devRef .tc Cert.ReferenceIdeal.main_v28) = after kPre W (Proc.devRef .tc Cert.KernelIdeal.main_v1) := hL.trans (pre_v1 W).symm
  have e0_v3 : W' (Proc.devRef .tc Cert.ReferenceIdeal.main_v15) = after kPre W (Proc.devRef .tc Cert.KernelIdeal.main_v3) := by
    rw [hV, hL, pre_v3 W] <;> rfl
  -- after stretch 1
  have e1_v17 := s1_v17 (after kPre W) W' e0_v1 e0_v3
  have e1_v23 := s1_v23 (after kPre W) W' e0_v3 e0_v1
  have e1_v1 := s1_v1 (after kPre W) W' e0_v1
  have e1_v3 := s1_v3 (after kPre W) W' e0_v3
  have e1_arg0 := s1_arg0 (after kPre W) W' e0_arg0
  have e1_v19 := s1_v19 (after kPre W) W' e0_v3 e0_v1
  have e1_v0_0 := s1_v0_0 (after kPre W) W' e0_v0_0
  -- after stretch 2
  have e2_v40 := s2_v40 (after k1 (after kPre W)) (after Cert.ReferenceIdeal.RefRun.ops1 W')
  have e2_v43 := s2_v43 (after k1 (after kPre W)) (after Cert.ReferenceIdeal.RefRun.ops1 W') e1_v1
  have e2_v39 := s2_v39 (after k1 (after kPre W)) (after Cert.ReferenceIdeal.RefRun.ops1 W')
  have e2_v31 := s2_v31 (after k1 (after kPre W)) (after Cert.ReferenceIdeal.RefRun.ops1 W') e1_v1
  have e2_v30 := s2_v30 (after k1 (after kPre W)) (after Cert.ReferenceIdeal.RefRun.ops1 W') e1_v23 e1_v17
  have e2_v3 := s2_v3 (after k1 (after kPre W)) (after Cert.ReferenceIdeal.RefRun.ops1 W') e1_v3
  have e2_arg0 := s2_arg0 (after k1 (after kPre W)) (after Cert.ReferenceIdeal.RefRun.ops1 W') e1_arg0
  have e2_v19 := s2_v19 (after k1 (after kPre W)) (after Cert.ReferenceIdeal.RefRun.ops1 W') e1_v19
  have e2_v0_0 := s2_v0_0 (after k1 (after kPre W)) (after Cert.ReferenceIdeal.RefRun.ops1 W') e1_v0_0
  -- after stretch 3
  have e3_call5_v0 := s3_call5_v0 (after k2 (after k1 (after kPre W))) (after Cert.ReferenceIdeal.RefRun.ops2 (after Cert.ReferenceIdeal.RefRun.ops1 W'))
  have e3_v61 := s3_v61 (after k2 (after k1 (after kPre W))) (after Cert.ReferenceIdeal.RefRun.ops2 (after Cert.ReferenceIdeal.RefRun.ops1 W')) e2_v3 e2_v30 e2_v31 e2_v39 e2_v40 e2_v43
  have e3_v30 := s3_v30 (after k2 (after k1 (after kPre W))) (after Cert.ReferenceIdeal.RefRun.ops2 (after Cert.ReferenceIdeal.RefRun.ops1 W')) e2_v30
  have e3_v55 := s3_v55 (after k2 (after k1 (after kPre W))) (after Cert.ReferenceIdeal.RefRun.ops2 (after Cert.ReferenceIdeal.RefRun.ops1 W')) e2_v31 e2_v39 e2_v40 e2_v43
  have e3_arg0 := s3_arg0 (after k2 (after k1 (after kPre W))) (after Cert.ReferenceIdeal.RefRun.ops2 (after Cert.ReferenceIdeal.RefRun.ops1 W')) e2_arg0
  have e3_v19 := s3_v19 (after k2 (after k1 (after kPre W))) (after Cert.ReferenceIdeal.RefRun.ops2 (after Cert.ReferenceIdeal.RefRun.ops1 W')) e2_v19
  have e3_v0_0 := s3_v0_0 (after k2 (after k1 (after kPre W))) (after Cert.ReferenceIdeal.RefRun.ops2 (after Cert.ReferenceIdeal.RefRun.ops1 W')) e2_v0_0
  -- after stretch 4
  have e4_v75 := s4_v75 (after k3 (after k2 (after k1 (after kPre W)))) (after Cert.ReferenceIdeal.RefRun.ops3 (after Cert.ReferenceIdeal.RefRun.ops2 (after Cert.ReferenceIdeal.RefRun.ops1 W'))) e3_v61 e3_v30 e3_call5_v0
  have e4_v76 := s4_v76 (after k3 (after k2 (after k1 (after kPre W)))) (after Cert.ReferenceIdeal.RefRun.ops3 (after Cert.ReferenceIdeal.RefRun.ops2 (after Cert.ReferenceIdeal.RefRun.ops1 W'))) e3_v61 e3_v55
  have e4_v64 := s4_v64 (after k3 (after k2 (after k1 (after kPre W)))) (after Cert.ReferenceIdeal.RefRun.ops3 (after Cert.ReferenceIdeal.RefRun.ops2 (after Cert.ReferenceIdeal.RefRun.ops1 W')))
  have e4_arg0 := s4_arg0 (after k3 (after k2 (after k1 (after kPre W)))) (after Cert.ReferenceIdeal.RefRun.ops3 (after Cert.ReferenceIdeal.RefRun.ops2 (after Cert.ReferenceIdeal.RefRun.ops1 W'))) e3_arg0
  have e4_v30 := s4_v30 (after k3 (after k2 (after k1 (after kPre W)))) (after Cert.ReferenceIdeal.RefRun.ops3 (after Cert.ReferenceIdeal.RefRun.ops2 (after Cert.ReferenceIdeal.RefRun.ops1 W'))) e3_v30
  have e4_v19 := s4_v19 (after k3 (after k2 (after k1 (after kPre W)))) (after Cert.ReferenceIdeal.RefRun.ops3 (after Cert.ReferenceIdeal.RefRun.ops2 (after Cert.ReferenceIdeal.RefRun.ops1 W'))) e3_v19
  have e4_v0_0 := s4_v0_0 (after k3 (after k2 (after k1 (after kPre W)))) (after Cert.ReferenceIdeal.RefRun.ops3 (after Cert.ReferenceIdeal.RefRun.ops2 (after Cert.ReferenceIdeal.RefRun.ops1 W'))) e3_v0_0
  have e4_v61 := s4_v61 (after k3 (after k2 (after k1 (after kPre W)))) (after Cert.ReferenceIdeal.RefRun.ops3 (after Cert.ReferenceIdeal.RefRun.ops2 (after Cert.ReferenceIdeal.RefRun.ops1 W'))) e3_v61
  have e4_v62 := s4_v62 (after k3 (after k2 (after k1 (after kPre W)))) (after Cert.ReferenceIdeal.RefRun.ops3 (after Cert.ReferenceIdeal.RefRun.ops2 (after Cert.ReferenceIdeal.RefRun.ops1 W'))) e3_v61 e3_v30 e3_call5_v0
  -- after stretch 5
  have e5_c_30 := s5_c_30 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W'))))
  have e5_v62 := s5_v62 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W')))) e4_v62
  have e5_v96 := s5_v96 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W')))) e4_v62
  have e5_v93 := s5_v93 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W'))))
  have e5_v94 := s5_v94 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W')))) e4_v61
  have e5_v82 := s5_v82 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W')))) e4_v19 e4_v30
  have e5_v79 := s5_v79 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W')))) e4_v64 e4_v75 e4_v76 e4_arg0
  have e5_v92 := s5_v92 (after k4 (after k3 (after k2 (after k1 (after kPre W))))) (after Cert.ReferenceIdeal.RefRun.ops4 (after Cert.ReferenceIdeal.RefRun.ops3 (after Cert.ReferenceIdeal.RefRun.ops2 (after Cert.ReferenceIdeal.RefRun.ops1 W')))) e4_v19 e4_v30 e4_v0_0
  -- after stretch 6
  have e6_v79 := s6_v79 (after k5 (after k4 (after k3 (after k2 (after k1 (after kPre W)))))) (after Cert.ReferenceIdeal.RefRun.ops5 (after Cert.ReferenceIdeal.RefRun.ops4 (after Cert.ReferenceIdeal.RefRun.ops3 (after Cert.ReferenceIdeal.RefRun.ops2 (after Cert.ReferenceIdeal.RefRun.ops1 W'))))) e5_v79
  have e6_v92 := s6_v92 (after k5 (after k4 (after k3 (after k2 (after k1 (after kPre W)))))) (after Cert.ReferenceIdeal.RefRun.ops5 (after Cert.ReferenceIdeal.RefRun.ops4 (after Cert.ReferenceIdeal.RefRun.ops3 (after Cert.ReferenceIdeal.RefRun.ops2 (after Cert.ReferenceIdeal.RefRun.ops1 W'))))) e5_v92
  have e6_v102 := s6_v102 (after k5 (after k4 (after k3 (after k2 (after k1 (after kPre W)))))) (after Cert.ReferenceIdeal.RefRun.ops5 (after Cert.ReferenceIdeal.RefRun.ops4 (after Cert.ReferenceIdeal.RefRun.ops3 (after Cert.ReferenceIdeal.RefRun.ops2 (after Cert.ReferenceIdeal.RefRun.ops1 W'))))) e5_v93 e5_v96 e5_v62 e5_c_30 e5_v94
  have e6_v104 := s6_v104 (after k5 (after k4 (after k3 (after k2 (after k1 (after kPre W)))))) (after Cert.ReferenceIdeal.RefRun.ops5 (after Cert.ReferenceIdeal.RefRun.ops4 (after Cert.ReferenceIdeal.RefRun.ops3 (after Cert.ReferenceIdeal.RefRun.ops2 (after Cert.ReferenceIdeal.RefRun.ops1 W'))))) e5_v82
  rw [kTail_after, rTail_after]
  exact ⟨e6_v79, e6_v92, e6_v102, e6_v104⟩

end Cert.Tail

end
-- ==== Proof.Bridge.lean ====
/-
  Validity from the cell id.  A point is valid when 0 ≤ x < 440, 0 ≤ y < 500 and 0 ≤ z < 1 for its three
  coordinates; then its cell id 500·x + y + z is at most 219999 and the word arithmetic does not wrap.  An invalid
  point's cell id is the sentinel 220000.  So "valid" is "cell id below 220000", for any coordinate words.
-/
import proofs.«136472_j73985106641253_1_alg».proof.Proof.RefSpec
import Idealize.ShloMosaic.Lib.ValueIdx
import Idealize.ShloMosaic.Lib.Pipeline.Value
import Idealize.ShloMosaic.PureOps.Reduce

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## Words: one coordinate's range test, and the cell id of three coordinates in range -/

/-- The two signed tests of a coordinate word, "at least 0" and "below a bound" (the bound below 2³¹), together say
    that the word, read as a natural number, is below the bound: a word with its sign bit set fails the first test
    and, read as a natural number, is at least 2³¹. -/
theorem range_bit (a : BitVec 32) (B : Nat) (hB : B < 2 ^ 31) :
    IntOp.andi (IntOp.cmpi .sge a 0#32) (IntOp.cmpi .slt a (BitVec.ofNat 32 B)) = BitVec.ofBool (decide (a.toNat < B)) := by
  have hlt := a.isLt
  have e : ((0#32).sle a && a.slt (BitVec.ofNat 32 B)) = decide (a.toNat < B) := by
    rw [Bool.eq_iff_iff]
    simp only [Bool.and_eq_true, BitVec.sle, BitVec.slt, decide_eq_true_eq, BitVec.toInt_eq_toNat_cond, BitVec.toNat_ofNat]
    have : B % 2 ^ 32 = B := Nat.mod_eq_of_lt (by omega)
    rw [this]
    simp only [BitVec.toNat_ofNat, Nat.zero_mod]
    split <;> split <;> omega
  show BitVec.ofBool ((0#32).sle a) &&& BitVec.ofBool (a.slt (BitVec.ofNat 32 B)) = _
  rw [← e]
  cases (0#32).sle a <;> cases a.slt (BitVec.ofNat 32 B) <;> rfl

/-- THE WORD-LEVEL CORE.  Let `v` be the and of the initial bit and the three coordinates' range tests.  If `v` is 1
    then x < 440, y < 500 and z < 1 as natural numbers, so 500·x + y + z ≤ 219999 does not wrap and is below 220000
    as a signed word; if `v` is 0 the select gives 220000, which is not below itself.  Either way `v` is the bit
    "the selected word is below 220000". -/
theorem valid_bit_eq_lt (x y z : BitVec 32) (v : BitVec 1)
    (hv : v = IntOp.andi (IntOp.andi (IntOp.andi 1#1
        (IntOp.andi (IntOp.cmpi .sge x 0#32) (IntOp.cmpi .slt x 440#32)))
        (IntOp.andi (IntOp.cmpi .sge y 0#32) (IntOp.cmpi .slt y 500#32)))
        (IntOp.andi (IntOp.cmpi .sge z 0#32) (IntOp.cmpi .slt z 1#32))) :
    v = IntOp.cmpi .slt (Scalar.select v (IntOp.addi (IntOp.addi (IntOp.muli x 500#32) (IntOp.muli y 1#32)) z) 220000#32)
          220000#32 := by
  rw [range_bit x 440 (by omega), range_bit y 500 (by omega), range_bit z 1 (by omega)] at hv
  by_cases hx : x.toNat < 440
  · by_cases hy : y.toNat < 500
    · by_cases hz : z.toNat < 1
      · have h1 : v = 1#1 := by rw [hv]; simp [hx, hy, hz, IntOp.andi]
        rw [h1, select_one]
        show 1#1 = BitVec.ofBool ((x * 500#32 + y * 1#32 + z).slt 220000#32)
        have hs : (x * 500#32 + y * 1#32 + z).toNat = x.toNat * 500 + y.toNat + z.toNat := by
          simp only [BitVec.toNat_add, BitVec.toNat_mul, BitVec.toNat_ofNat]; omega
        have hi : (x * 500#32 + y * 1#32 + z).toInt = ((x.toNat * 500 + y.toNat + z.toNat : Nat) : Int) := by
          rw [BitVec.toInt_eq_toNat_cond, hs, if_pos (by omega)]
        have hc : (220000#32 : BitVec 32).toInt = 220000 := by decide
        have : (x * 500#32 + y * 1#32 + z).slt 220000#32 = true := by
          rw [BitVec.slt, hi, hc, decide_eq_true_eq]; omega
        rw [this]; rfl
      · have h0 : v = 0#1 := by rw [hv]; simp [hx, hy, hz, IntOp.andi]
        rw [h0, select_zero]; rfl
    · have h0 : v = 0#1 := by rw [hv]; simp [hx, hy, IntOp.andi]
      rw [h0, select_zero]; rfl
  · have h0 : v = 0#1 := by rw [hv]; simp [hx, IntOp.andi]
    rw [h0, select_zero]; rfl

/-! ## The arrays read at a row -/

/-- A fold by a commutative, associative operation over the three coordinates of an axis of extent 3, in their order. -/
theorem fold_fin3 {α : Type} (op : α → α → α) [Std.Commutative op] [Std.Associative op] (b : α) (g : Fin 3 → α) :
    (Finset.univ : Finset (Fin 3)).fold op b g = op (op (op b (g 0)) (g 1)) (g 2) := by
  unfold Finset.fold
  rw [Fin.univ_val_map, Multiset.coe_fold_l]
  simp [List.ofFn_succ]

/-- The index of the coordinate array over row `n` whose coordinate on the reduced axis is `k` is `(n, k)`. -/
theorem lift_row (h : S4000000x3.Reduces [1] S4000000) (n : Fin 4000000) (k : Fin 3) :
    Shape.Reduces.lift h (ix1 n) k = ix2 n k := by
  funext c
  match c with
  | ⟨0, _⟩ => rfl
  | ⟨1, _⟩ => rfl

/-- The row of upper limits [440, 500, 1], laid along the second axis of the coordinate array, reads at `(n, k)` the
    limit of column `k`. -/
theorem lim_apply (n : Fin 4000000) (k : Fin 3) :
    broadcastInDim S4000000x3 ![0, 1] bcast_S1x3_S4000000x3_0_1
      (broadcastInDim S1x3 ![1] bcast_S3_S1x3_1 (fun i => lit2 (S3.rowMajor i))) (ix2 n k) = lit2 k := by
  refine (broadcastInDim_apply _ _ _ (ix2 n k) (ix2 (0 : Fin 1) k) (fun a => ?_)).trans ?_
  · match a with
    | ⟨0, _⟩ => rfl
    | ⟨1, _⟩ => rfl
  · refine (broadcastInDim_apply _ _ _ (ix2 (0 : Fin 1) k) (ix1 k) (fun a => ?_)).trans ?_
    · match a with
      | ⟨0, _⟩ => rfl
    · show lit2 (S3.rowMajor (ix1 k)) = lit2 k
      congr 1
      exact Fin.ext (Shape.rowMajor_val_one _)

/-- The range test of the coordinate at `(n, k)`: at least 0 and below column `k`'s limit. -/
theorem test_apply (C : IVec S4000000x3 32) (n : Fin 4000000) (k : Fin 3) :
    andi (cmpi .sge C (broadcastInDim S4000000x3 ![] bcast_S_S4000000x3 (constantI S_ 32 0#32)))
      (cmpi .slt C (broadcastInDim S4000000x3 ![0, 1] bcast_S1x3_S4000000x3_0_1
        (broadcastInDim S1x3 ![1] bcast_S3_S1x3_1 (fun i => lit2 (S3.rowMajor i))))) (ix2 n k)
      = IntOp.andi (IntOp.cmpi .sge (C (ix2 n k)) 0#32) (IntOp.cmpi .slt (C (ix2 n k)) (lit2 k)) := by
  have e := lim_apply n k
  unfold andi cmpi
  dsimp only
  rw [e]
  rfl

/-- Validity read at a row: the initial bit and the three coordinates' range tests, folded by and in the order of the
    reduction.  The reduction over the second axis is a fold over that axis's three coordinates; and is commutative
    and associative, so the fold is the and of the three tests from the initial bit. -/
theorem validOf_apply (C : IVec S4000000x3 32) (n : Fin 4000000) :
    validOf C (ix1 n) =
      IntOp.andi (IntOp.andi (IntOp.andi 1#1
        (IntOp.andi (IntOp.cmpi .sge (C (ix2 n (0 : Fin 3))) 0#32) (IntOp.cmpi .slt (C (ix2 n (0 : Fin 3))) 440#32)))
        (IntOp.andi (IntOp.cmpi .sge (C (ix2 n (1 : Fin 3))) 0#32) (IntOp.cmpi .slt (C (ix2 n (1 : Fin 3))) 500#32)))
        (IntOp.andi (IntOp.cmpi .sge (C (ix2 n (2 : Fin 3))) 0#32) (IntOp.cmpi .slt (C (ix2 n (2 : Fin 3))) 1#32)) := by
  have h : S4000000x3.Reduces [1] S4000000 := by decide
  unfold validOf
  refine (Host.reduce_eq_fold_single IntOp.andi _ _ reducesTo_S4000000x3_S4000000_d1 h h_S_ (ix1 n)).trans ?_
  refine (fold_fin3 IntOp.andi _ _).trans ?_
  simp only [Function.comp, lift_row]
  rw [test_apply C n 0, test_apply C n 1, test_apply C n 2]
  rfl

/-- Column `o` of the coordinate array as a vector over the points reads, at row `n`, the coordinate at `(n, o)`: the
    vector's row-major position `n` is position `n · 1 + 0` of the [N, 1] slice, which starts at column `o`. -/
theorem col_apply (C : IVec S4000000x3 32) (o : Nat) (ho : o < 3) (hs : S4000000x3.Slices ![0, o] S4000000x1)
    (hc : S4000000x1.ShapeCasts S4000000) (n : Fin 4000000) :
    shapeCast S4000000 (extractStridedSlice S4000000x1 ![0, o] C hs) hc (ix1 n) = C (ix2 n (⟨o, ho⟩ : Fin 3)) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply _ C hs _ (ix2 n (⟨o, ho⟩ : Fin 3)) (fun a => ?_)
    match a with
    | ⟨0, _⟩ => show n.val = 0 + n.val; omega
    | ⟨1, _⟩ => show o = o + 0; omega

/-- The cell id read at a row: the linear id of the three coordinates where the row is valid, the sentinel elsewhere. -/
theorem linOf_apply (C : IVec S4000000x3 32) (n : Fin 4000000) :
    linOf C (ix1 n) =
      Scalar.select (validOf C (ix1 n))
        (IntOp.addi (IntOp.addi (IntOp.muli (C (ix2 n (0 : Fin 3))) 500#32) (IntOp.muli (C (ix2 n (1 : Fin 3))) 1#32))
          (C (ix2 n (2 : Fin 3))))
        220000#32 := by
  unfold linOf
  show Scalar.select (validOf C (ix1 n))
      (IntOp.addi (IntOp.addi (IntOp.muli (shapeCast S4000000 _ _ (ix1 n)) 500#32)
        (IntOp.muli (shapeCast S4000000 _ _ (ix1 n)) 1#32)) (shapeCast S4000000 _ _ (ix1 n))) 220000#32 = _
  rw [col_apply C 0 (by omega), col_apply C 1 (by omega), col_apply C 2 (by omega)]
  rfl

/-! ## The bridge -/

/-- Validity is the test "cell id below the sentinel". -/
theorem valid_eq_lin_lt (C : IVec S4000000x3 32) :
    validOf C = cmpi .slt (linOf C) (broadcastInDim S4000000 ![] bcast_S_S4000000 (constantI S_ 32 220000#32)) := by
  funext i
  obtain ⟨n, rfl⟩ : ∃ n : Fin 4000000, i = ix1 n := ⟨i 0, eq_ix1 i⟩
  show validOf C (ix1 n) = IntOp.cmpi .slt (linOf C (ix1 n)) 220000#32
  rw [linOf_apply]
  exact valid_bit_eq_lt _ _ _ _ (validOf_apply C n)

end Cert.ReferenceIdeal.RefRun

end
-- ==== Proof.KValueA.lean ====
/-
  One point of the cloud, at the extended reals.  A point's cell coordinate on axis `j` is the floor of
  `(x_j − corner_j) / size_j` read as a signed word; the region computes it per block from column `j` of the block,
  the reference per array from column `j` of the array, by the same scalar operations with the same literal words.
  This module reads both sides at one row and one column: the region's coordinate block and cell-id block at a row of
  the block, the reference's coordinate array at a row of the array.
-/
import proofs.«136472_j73985106641253_1_alg».proof.Proof.Gen.KernelIdeal.Skeleton
import proofs.«136472_j73985106641253_1_alg».proof.Proof.RefSpec
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen
open Idealize.ShloMosaic Idealize.ShloMosaic.ValueIdx

/-- Cell coordinate `j` of a point whose position on axis `j` is `x`: the floor of `(x − corner j) / size j`, as a
    signed 32-bit word.  The corners and sizes are the reference's two literal rows. -/
def cell (j : Fin 3) (x : Ideal .f32) : BitVec 32 :=
  FloatOps.fptosi (F := Ideal) 32 (FloatOps.floor (FloatOps.divf
    (FloatOps.subf x (FloatOps.ofBits .f32 (Cert.ReferenceIdeal.lit0 j))) (FloatOps.ofBits .f32 (Cert.ReferenceIdeal.lit1 j))))

/-- Column `j` of the four position columns that carries axis `j`. -/
abbrev col4 (j : Fin 3) : Fin 4 := ⟨j.val, by omega⟩

/-! ## Columns of a block -/

/-- A one-column slice of a block, flattened, read at row `r`: the block at `(r, q)`, `q` the slice's column. -/
theorem column_read {α : Type} (x0 : S200000x4.Idx → α) (off : Fin 2 → Nat) (h : S200000x4.Slices off S200000x1)
    (q : Fin 4) (h0 : off 0 = 0) (h1 : off 1 = q.val) (r : Fin 200000) :
    shapeCast S200000 (extractStridedSlice S200000x1 off x0 h) shapeCasts_S200000x1_S200000 (ix1 r) = x0 (ix2 r q) := by
  refine (shapeCast_apply _ _ (ix1 r) (ix2 r (0 : Fin 1)) ?_).trans
    (extractStridedSlice_apply off x0 h (ix2 r (0 : Fin 1)) (ix2 r q) fun a => ?_)
  · rw [Shape.rowMajor_val_two, Shape.rowMajor_val_one]
    show r.val * 1 + 0 = r.val
    omega
  · match a with
    | ⟨0, _⟩ => show r.val = off 0 + r.val; omega
    | ⟨1, _⟩ => show q.val = off 1 + 0; omega

/-- A vector stood up as one column, read at row `r`: the vector at `r`. -/
theorem as_column_read {α : Type} (v : S200000.Idx → α) (r : Fin 200000) :
    shapeCast S200000x1 v shapeCasts_S200000_S200000x1 (ix2 r (0 : Fin 1)) = v (ix1 r) := by
  refine shapeCast_apply _ _ (ix2 r (0 : Fin 1)) (ix1 r) ?_
  rw [Shape.rowMajor_val_two, Shape.rowMajor_val_one]
  show r.val = r.val * 1 + 0
  omega

set_option maxHeartbeats 400000 in
/-- Three columns side by side, read at `(r, j)`: column `j` at row `r`. -/
theorem three_columns_read {α : Type} (v0 v1 v2 : S200000x1.Idx → α) (r : Fin 200000) (j : Fin 3) :
    concatenate S200000x3 1 [⟨S200000x1, v0⟩, ⟨S200000x1, v1⟩, ⟨S200000x1, v2⟩]
        concatenates_S200000x1_S200000x1_S200000x1_S200000x3_d1 (ix2 r j)
      = (![v0, v1, v2] j) (ix2 r (0 : Fin 1)) := by
  match j with
  | ⟨0, _⟩ =>
    refine concatenate_apply_piece (t := S200000x3) (1 : Fin 2) [⟨S200000x1, v0⟩, ⟨S200000x1, v1⟩, ⟨S200000x1, v2⟩] _ _ 0 (by show 0 < 3; omega) S200000x1 v0 rfl rfl 0 rfl (ix2 r (0 : Fin 1)) (fun b hb => ?_) ?_
    · match b with
      | ⟨0, _⟩ => rfl
      | ⟨1, _⟩ => exact absurd rfl hb
    · rfl
  | ⟨1, _⟩ =>
    refine concatenate_apply_piece (t := S200000x3) (1 : Fin 2) [⟨S200000x1, v0⟩, ⟨S200000x1, v1⟩, ⟨S200000x1, v2⟩] _ _ 1 (by show 1 < 3; omega) S200000x1 v1 rfl rfl 1 rfl (ix2 r (0 : Fin 1)) (fun b hb => ?_) ?_
    · match b with
      | ⟨0, _⟩ => rfl
      | ⟨1, _⟩ => exact absurd rfl hb
    · rfl
  | ⟨2, _⟩ =>
    refine concatenate_apply_piece (t := S200000x3) (1 : Fin 2) [⟨S200000x1, v0⟩, ⟨S200000x1, v1⟩, ⟨S200000x1, v2⟩] _ _ 2 (by show 2 < 3; omega) S200000x1 v2 rfl rfl 2 rfl (ix2 r (0 : Fin 1)) (fun b hb => ?_) ?_
    · match b with
      | ⟨0, _⟩ => rfl
      | ⟨1, _⟩ => exact absurd rfl hb
    · rfl

/-! ## The region's coordinate block at a row -/

set_option maxHeartbeats 400000 in
/-- The first coordinate vector at row `r`: the cell coordinate on axis 0 of the block's point `r`. -/
theorem pay3_apply (x0 : Vec Ideal S200000x4 .f32) (r : Fin 200000) :
    k0_pay3 x0 (ix1 r) = cell 0 (x0 (ix2 r (0 : Fin 4))) := by
  unfold k0_pay3 cell
  show FloatOps.fptosi (F := Ideal) 32 (FloatOps.floor (FloatOps.divf (FloatOps.subf
    (shapeCast S200000 (extractStridedSlice S200000x1 ![0, 0] x0 slices_S200000x4_o0_0_S200000x1) shapeCasts_S200000x1_S200000 (ix1 r)) _) _)) = _
  rw [column_read x0 _ _ (0 : Fin 4) rfl rfl r]
  rfl

set_option maxHeartbeats 400000 in
/-- The second, on axis 1. -/
theorem pay4_apply (x0 : Vec Ideal S200000x4 .f32) (r : Fin 200000) :
    k0_pay4 x0 (ix1 r) = cell 1 (x0 (ix2 r (1 : Fin 4))) := by
  unfold k0_pay4 cell
  show FloatOps.fptosi (F := Ideal) 32 (FloatOps.floor (FloatOps.divf (FloatOps.subf
    (shapeCast S200000 (extractStridedSlice S200000x1 ![0, 1] x0 slices_S200000x4_o0_1_S200000x1) shapeCasts_S200000x1_S200000 (ix1 r)) _) _)) = _
  rw [column_read x0 _ _ (1 : Fin 4) rfl rfl r]
  rfl

set_option maxHeartbeats 400000 in
/-- The third, on axis 2. -/
theorem pay5_apply (x0 : Vec Ideal S200000x4 .f32) (r : Fin 200000) :
    k0_pay5 x0 (ix1 r) = cell 2 (x0 (ix2 r (2 : Fin 4))) := by
  unfold k0_pay5 cell
  show FloatOps.fptosi (F := Ideal) 32 (FloatOps.floor (FloatOps.divf (FloatOps.subf
    (shapeCast S200000 (extractStridedSlice S200000x1 ![0, 2] x0 slices_S200000x4_o0_2_S200000x1) shapeCasts_S200000x1_S200000 (ix1 r)) _) _)) = _
  rw [column_read x0 _ _ (2 : Fin 4) rfl rfl r]
  rfl

set_option maxHeartbeats 400000 in
/-- THE COORDINATE BLOCK at `(r, j)`: the cell coordinate on axis `j` of the block's point `r`. -/
theorem coor_block_apply (x0 : Vec Ideal S200000x4 .f32) (r : Fin 200000) (j : Fin 3) :
    k0_pay1 (k0_pay3 x0) (k0_pay4 x0) (k0_pay5 x0) (ix2 r j) = cell j (x0 (ix2 r (col4 j))) := by
  unfold k0_pay1
  refine (three_columns_read _ _ _ r j).trans ?_
  match j with
  | ⟨0, _⟩ => exact (as_column_read _ r).trans (pay3_apply x0 r)
  | ⟨1, _⟩ => exact (as_column_read _ r).trans (pay4_apply x0 r)
  | ⟨2, _⟩ => exact (as_column_read _ r).trans (pay5_apply x0 r)

/-! ## The region's cell-id block at a row -/

/-- The six range tests of a point's three coordinates, and-ed in the order the region takes them. -/
def inGrid (cx cy cz : BitVec 32) : BitVec 1 :=
  IntOp.andi (IntOp.andi (IntOp.andi (IntOp.andi (IntOp.andi (IntOp.cmpi .sge cx 0#32) (IntOp.cmpi .slt cx 440#32))
    (IntOp.cmpi .sge cy 0#32)) (IntOp.cmpi .slt cy 500#32)) (IntOp.cmpi .sge cz 0#32)) (IntOp.cmpi .slt cz 1#32)

/-- A point's linear cell id from its three coordinates, or the sentinel outside the grid. -/
def lin (cx cy cz : BitVec 32) : BitVec 32 :=
  Scalar.select (inGrid cx cy cz) (IntOp.addi (IntOp.addi (IntOp.muli cx 500#32) (IntOp.muli cy 1#32)) cz) 220000#32

set_option maxHeartbeats 400000 in
/-- The validity vector at row `r`. -/
theorem pay6_apply (x0 : Vec Ideal S200000x4 .f32) (r : Fin 200000) :
    k0_pay6 x0 (ix1 r) = inGrid (cell 0 (x0 (ix2 r (0 : Fin 4)))) (cell 1 (x0 (ix2 r (1 : Fin 4)))) (cell 2 (x0 (ix2 r (2 : Fin 4)))) := by
  unfold k0_pay6 inGrid
  show IntOp.andi (IntOp.andi (IntOp.andi (IntOp.andi (IntOp.andi (IntOp.cmpi .sge (k0_pay3 x0 (ix1 r)) 0#32) (IntOp.cmpi .slt (k0_pay3 x0 (ix1 r)) 440#32))
    (IntOp.cmpi .sge (k0_pay4 x0 (ix1 r)) 0#32)) (IntOp.cmpi .slt (k0_pay4 x0 (ix1 r)) 500#32)) (IntOp.cmpi .sge (k0_pay5 x0 (ix1 r)) 0#32)) (IntOp.cmpi .slt (k0_pay5 x0 (ix1 r)) 1#32) = _
  rw [pay3_apply, pay4_apply, pay5_apply]

set_option maxHeartbeats 400000 in
/-- THE CELL-ID BLOCK at row `r`: the linear cell id of the block's point `r`. -/
theorem lin_block_apply (x0 : Vec Ideal S200000x4 .f32) (r : Fin 200000) :
    k0_pay2 (k0_pay4 x0) (k0_pay5 x0) (k0_pay6 x0) (k0_pay7 x0) (ix2 r (0 : Fin 1))
      = lin (cell 0 (x0 (ix2 r (0 : Fin 4)))) (cell 1 (x0 (ix2 r (1 : Fin 4)))) (cell 2 (x0 (ix2 r (2 : Fin 4)))) := by
  unfold k0_pay2
  refine (as_column_read _ r).trans ?_
  unfold k0_pay7 lin
  show Scalar.select (k0_pay6 x0 (ix1 r)) (IntOp.addi (IntOp.addi (IntOp.muli (k0_pay3 x0 (ix1 r)) 500#32) (IntOp.muli (k0_pay4 x0 (ix1 r)) 1#32)) (k0_pay5 x0 (ix1 r))) 220000#32 = _
  rw [pay6_apply, pay3_apply, pay4_apply, pay5_apply]

/-! ## The reference's coordinate array at a row -/

/-- A literal row of three broadcast down the rows of the array, read at `(n, j)`: its entry `j`. -/
theorem row_read {α : Type} (f : Fin 3 → α)
    (h1 : Cert.ReferenceIdeal.S1x3.BroadcastsInDim Cert.ReferenceIdeal.S4000000x3 (![0, 1] : Fin 2 → Fin 2))
    (h2 : Cert.ReferenceIdeal.S3.BroadcastsInDim Cert.ReferenceIdeal.S1x3 (![1] : Fin 1 → Fin 2)) (n : Fin 4000000) (j : Fin 3) :
    broadcastInDim Cert.ReferenceIdeal.S4000000x3 ![0, 1] h1
        (broadcastInDim Cert.ReferenceIdeal.S1x3 ![1] h2 (fun i => f (Cert.ReferenceIdeal.S3.rowMajor i))) (ix2 n j) = f j := by
  refine (broadcastInDim_apply _ h1 _ (ix2 n j) (ix2 (0 : Fin 1) j) fun a => ?_).trans
    ((broadcastInDim_apply _ h2 _ (ix2 (0 : Fin 1) j) (ix1 j) fun a => ?_).trans ?_)
  · match a with
    | ⟨0, _⟩ => rfl
    | ⟨1, _⟩ => rfl
  · match a with
    | ⟨0, _⟩ => rfl
  · exact congrArg f (Fin.ext (Shape.rowMajor_val_one _))

set_option maxHeartbeats 400000 in
/-- THE COORDINATE ARRAY at `(n, j)`: the cell coordinate on axis `j` of point `n`. -/
theorem coorOf_apply (P : FVec Ideal Cert.ReferenceIdeal.S4000000x4 .f32) (n : Fin 4000000) (j : Fin 3) :
    Cert.ReferenceIdeal.RefRun.coorOf (F := Ideal) P (ix2 n j) = cell j (P (ix2 n (col4 j))) := by
  unfold Cert.ReferenceIdeal.RefRun.coorOf cell
  show FloatOps.fptosi (F := Ideal) 32 (FloatOps.hostUnary .floor (FloatOps.hostDivf (FloatOps.subf
      (extractStridedSlice _ _ P _ (ix2 n j))
      (broadcastInDim _ _ _ (broadcastInDim _ _ _ (fun i => FloatOps.ofBits .f32 (Cert.ReferenceIdeal.lit0 (Cert.ReferenceIdeal.S3.rowMajor i)))) (ix2 n j)))
      (broadcastInDim _ _ _ (broadcastInDim _ _ _ (fun i => FloatOps.ofBits .f32 (Cert.ReferenceIdeal.lit1 (Cert.ReferenceIdeal.S3.rowMajor i)))) (ix2 n j)))) = _
  rw [row_read (fun w => FloatOps.ofBits (F := Ideal) .f32 (Cert.ReferenceIdeal.lit0 w)),
    row_read (fun w => FloatOps.ofBits (F := Ideal) .f32 (Cert.ReferenceIdeal.lit1 w)),
    extractStridedSlice_apply _ P _ (ix2 n j) (ix2 n (col4 j)) (fun a => by
      match a with
      | ⟨0, _⟩ => show n.val = 0 + n.val; omega
      | ⟨1, _⟩ => show j.val = 0 + j.val; omega)]
  rfl

/-! ## The two orders of the six range tests -/

theorem one_and (x : BitVec 1) : 1#1 &&& x = x := by
  rcases BitVec.eq_zero_or_eq_one x with rfl | rfl <;> decide

/-- The region's chain of six is the reference's and of three pairs from the unit. -/
theorem inGrid_eq (cx cy cz : BitVec 32) :
    inGrid cx cy cz =
      IntOp.andi (IntOp.andi (IntOp.andi 1#1
        (IntOp.andi (IntOp.cmpi .sge cx 0#32) (IntOp.cmpi .slt cx 440#32)))
        (IntOp.andi (IntOp.cmpi .sge cy 0#32) (IntOp.cmpi .slt cy 500#32)))
        (IntOp.andi (IntOp.cmpi .sge cz 0#32) (IntOp.cmpi .slt cz 1#32)) := by
  unfold inGrid IntOp.andi
  simp only [one_and, BitVec.and_assoc]

end Cert.KernelIdeal.KValue

end
-- ==== Proof.KValue.lean ====
/-
  What the region leaves in its two output arrays, at the extended reals: the coordinate array holds the
  reference's cell coordinates of every point, and the cell-id array (one column) holds the reference's linear cell
  ids.  Block `t` of either output is computed from block `t` of the points, row by row, by the same scalar
  operations the reference applies to the whole array; the twenty blocks tile the arrays: row `r` of block `t` is
  row `200000 t + r` of the array, and row `n` of the array lies in block `n / 200000`.
-/
import proofs.«136472_j73985106641253_1_alg».proof.Proof.KFrame
import proofs.«136472_j73985106641253_1_alg».proof.Proof.RefSpec
import proofs.«136472_j73985106641253_1_alg».proof.Proof.Bridge
import proofs.«136472_j73985106641253_1_alg».proof.Proof.KValueA
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Cert.KernelIdeal.HFrame
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-! ## The blocks tile the arrays -/

/-- Block `t` of each of the three windows starts at row block `t`, column block 0. -/
theorem block_origin : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- Row `r` of block `t` is row `200000 t + r` of the array. -/
def rowOf (t : Fin cfg0.N) (r : Fin 200000) : Fin 4000000 :=
  ⟨t.val * 200000 + r.val, by have := point_lt t; have := r.isLt; omega⟩

/-- The launched points on core `c`. -/
abbrev pts (c : Dev nD) : FVec Ideal S4000000x4 .f32 := m ((c.tc : Thread nD τ).loc main_arg0)

set_option maxHeartbeats 400000 in
/-- The input block at point `t`, read at `(r, q)`: the launched points at row `200000 t + r`, column `q`. -/
theorem block_point (c : Dev nD) (t : Fin cfg0.N) (r : Fin 200000) (q : Fin 4) :
    (iblk m c 0 t : Vec Ideal S200000x4 .f32) (ix2 r q) = pts m c (ix2 (rowOf t r) q) := by
  obtain ⟨e0, e1, -⟩ := block_origin t
  unfold iblk
  rw [View.read_apply]
  show pts m c (((cfg0.win 0).blk t).view.emb (ix2 r q)) = pts m c (ix2 (rowOf t r) q)
  refine congrArg (pts m c) (funext fun a => Fin.ext ?_)
  match a with
  | ⟨0, _⟩ => show win0_0.index t (0 : Fin 2) * 200000 + 1 * r.val = t.val * 200000 + r.val; rw [e0]; omega
  | ⟨1, _⟩ => show win0_0.index t (1 : Fin 2) * 4 + 1 * q.val = q.val; rw [e1]; omega

/-! ## The coordinate array -/

/-- The reference's coordinates of the launched points. -/
abbrev coorArr (c : Dev nD) : IVec S4000000x3 32 := Cert.ReferenceIdeal.RefRun.coorOf (F := Ideal) (pts m c)

set_option maxHeartbeats 400000 in
/-- WHAT POINT `t` WRITES BACK into the coordinate array is block `t` of the reference's coordinates: at row `r`,
    column `j` both are the cell coordinate on axis `j` of point `200000 t + r`. -/
theorem flushed_coor (c : Dev nD) (t : Fin cfg0.N) :
    (dats (F := Ideal) m 0 c).flushed 1 t = ((cfg0.win 1).blk t).view.read (Elt Ideal) (coorArr m c) := by
  show (cfg0.win 1).cut (grid0.coords t) ((dats (F := Ideal) m 0 c).after 1 t) = _
  rw [after0_1, out0_1_eq]
  obtain ⟨-, -, e0, e1, -⟩ := block_origin t
  funext y
  have hy0 : (y 0).val < 200000 := (y 0).isLt
  have hy1 : (y 1).val < 3 := (y 1).isLt
  have exi : (cfg0.win 1).xinj (grid0.coords t) y = ix2 (⟨(y 0).val, hy0⟩ : Fin 200000) (⟨(y 1).val, hy1⟩ : Fin 3) :=
    funext fun a => by
      match a with
      | ⟨0, _⟩ => rfl
      | ⟨1, _⟩ => rfl
  have eemb : ((cfg0.win 1).blk t).view.emb y = ix2 (rowOf t ⟨(y 0).val, hy0⟩) (⟨(y 1).val, hy1⟩ : Fin 3) :=
    funext fun a => Fin.ext (by
      match a with
      | ⟨0, _⟩ => show win0_1.index t (0 : Fin 2) * 200000 + 1 * (y 0).val = t.val * 200000 + (y 0).val; rw [e0]; omega
      | ⟨1, _⟩ => show win0_1.index t (1 : Fin 2) * 3 + 1 * (y 1).val = (y 1).val; rw [e1]; omega)
  show k0_pay1 (k0_pay3 (iblk m c 0 t)) (k0_pay4 (iblk m c 0 t)) (k0_pay5 (iblk m c 0 t)) ((cfg0.win 1).xinj (grid0.coords t) y)
    = coorArr m c (((cfg0.win 1).blk t).view.emb y)
  rw [exi, eemb]
  refine (coor_block_apply (iblk m c 0 t) ⟨(y 0).val, hy0⟩ ⟨(y 1).val, hy1⟩).trans ?_
  rw [block_point m c t ⟨(y 0).val, hy0⟩ (col4 ⟨(y 1).val, hy1⟩)]
  exact (coorOf_apply (pts m c) (rowOf t ⟨(y 0).val, hy0⟩) ⟨(y 1).val, hy1⟩).symm

/-- An index of the coordinate array is in point `t`'s block iff each coordinate is in the block's range on its axis. -/
theorem mem_coor_block (t : Fin cfg0.N) (i : S4000000x3.Idx) :
    i ∈ ((cfg0.win 1).blk t).view.set ↔ ∀ a : Fin 2, win0_1.index t a * S200000x3.size a ≤ (i a).val ∧ (i a).val < win0_1.index t a * S200000x3.size a + S200000x3.size a := by
  show i ∈ ((View.whole main_v0_0).slice (win0_1.rect t)).set ↔ _
  rw [View.set_slice_whole, Rect.mem_set_unit]
  exact Iff.rfl

set_option maxHeartbeats 400000 in
/-- Row `n` of the coordinate array lies in the block of point `n / 200000`. -/
theorem coor_cover (i : S4000000x3.Idx) :
    ∃ t : Fin cfg0.N, (cfg0.win 1).flush t = true ∧ i ∈ ((cfg0.win 1).blk t).view.set := by
  have hi0 : (i 0).val < 4000000 := (i 0).isLt
  have hi1 : (i 1).val < 3 := (i 1).isLt
  have hlt : (i 0).val / 200000 < grid0.N := by rw [N_0]; omega
  obtain ⟨-, -, e0, e1, -⟩ := block_origin ⟨(i 0).val / 200000, hlt⟩
  have e0' : win0_1.index ⟨(i 0).val / 200000, hlt⟩ (0 : Fin 2) = (i 0).val / 200000 := e0
  refine ⟨⟨(i 0).val / 200000, hlt⟩, flush0_1 _, ?_⟩
  rw [mem_coor_block]
  intro a
  match a with
  | ⟨0, _⟩ =>
    show win0_1.index _ (0 : Fin 2) * 200000 ≤ (i 0).val ∧ (i 0).val < win0_1.index _ (0 : Fin 2) * 200000 + 200000
    rw [e0']; omega
  | ⟨1, _⟩ =>
    show win0_1.index _ (1 : Fin 2) * 3 ≤ (i 1).val ∧ (i 1).val < win0_1.index _ (1 : Fin 2) * 3 + 3
    rw [e1]; omega

/-- The coordinate array after the region is the reference's coordinates of the launched points. -/
theorem final_coor (c : Dev nD) :
    (dats (F := Ideal) m 0 c).arrAt 1 cfg0.N = Cert.ReferenceIdeal.RefRun.coorOf (F := Ideal) (m ((c.tc : Thread nD τ).loc main_arg0)) :=
  (dats (F := Ideal) m 0 c).arrAt_eq_of_cover 1 (coorArr m c) (fun t _ => flushed_coor m c t) coor_cover

/-! ## The cell-id array -/

set_option maxHeartbeats 400000 in
/-- The reference's cell id of point `n`: the linear id of its three cell coordinates, or the sentinel.  The reference
    tests the three coordinates' ranges pair by pair from the unit bit, the region in one chain; and is associative
    and has the unit bit as its unit, so the two bits are one. -/
theorem lin_point (P : FVec Ideal S4000000x4 .f32) (n : Fin 4000000) :
    Cert.ReferenceIdeal.RefRun.linOf (Cert.ReferenceIdeal.RefRun.coorOf (F := Ideal) P) (ix1 n)
      = lin (cell 0 (P (ix2 n (0 : Fin 4)))) (cell 1 (P (ix2 n (1 : Fin 4)))) (cell 2 (P (ix2 n (2 : Fin 4)))) := by
  rw [Cert.ReferenceIdeal.RefRun.linOf_apply, Cert.ReferenceIdeal.RefRun.validOf_apply,
    coorOf_apply P n 0, coorOf_apply P n 1, coorOf_apply P n 2]
  unfold lin
  rw [inGrid_eq]
  rfl

/-- The reference's cell ids of the launched points, stood up as one column. -/
def linArr (c : Dev nD) : IVec S4000000x1 32 :=
  fun i => Cert.ReferenceIdeal.RefRun.linOf (coorArr m c) (ix1 (⟨(i 0).val, idx2_lt0 i⟩ : Fin 4000000))

/-- Its row `n` is the reference's cell id of point `n`. -/
theorem linArr_row (c : Dev nD) (n : Fin 4000000) :
    linArr m c (ix2 n (0 : Fin 1)) = Cert.ReferenceIdeal.RefRun.linOf (coorArr m c) (ix1 n) := by
  unfold linArr
  rfl

set_option maxHeartbeats 400000 in
/-- WHAT POINT `t` WRITES BACK into the cell-id array is block `t` of any one-column array `G` that holds at every row
    `n` the cell id of point `n`: at row `r` of the block both are the cell id of point `200000 t + r`. -/
theorem flushed_lin_of (c : Dev nD) (t : Fin cfg0.N) (G : IVec S4000000x1 32)
    (hG : ∀ n : Fin 4000000, G (ix2 n (0 : Fin 1))
      = lin (cell 0 (pts m c (ix2 n (0 : Fin 4)))) (cell 1 (pts m c (ix2 n (1 : Fin 4)))) (cell 2 (pts m c (ix2 n (2 : Fin 4))))) :
    (dats (F := Ideal) m 0 c).flushed 2 t = ((cfg0.win 2).blk t).view.read (Elt Ideal) G := by
  show (cfg0.win 2).cut (grid0.coords t) ((dats (F := Ideal) m 0 c).after 2 t) = _
  rw [after0_2, out0_2_eq]
  obtain ⟨-, -, -, -, e0, e1⟩ := block_origin t
  funext y
  have hy0 : (y 0).val < 200000 := (y 0).isLt
  have hy1 : (y 1).val < 1 := (y 1).isLt
  have exi : (cfg0.win 2).xinj (grid0.coords t) y = ix2 (⟨(y 0).val, hy0⟩ : Fin 200000) (0 : Fin 1) :=
    funext fun a => by
      match a with
      | ⟨0, _⟩ => rfl
      | ⟨1, _⟩ => exact Fin.ext (by show (y 1).val = 0; omega)
  have eemb : ((cfg0.win 2).blk t).view.emb y = ix2 (rowOf t ⟨(y 0).val, hy0⟩) (0 : Fin 1) :=
    funext fun a => Fin.ext (by
      match a with
      | ⟨0, _⟩ => show win0_2.index t (0 : Fin 2) * 200000 + 1 * (y 0).val = t.val * 200000 + (y 0).val; rw [e0]; omega
      | ⟨1, _⟩ => show win0_2.index t (1 : Fin 2) * 1 + 1 * (y 1).val = 0; rw [e1]; omega)
  show k0_pay2 (k0_pay4 (iblk m c 0 t)) (k0_pay5 (iblk m c 0 t)) (k0_pay6 (iblk m c 0 t)) (k0_pay7 (iblk m c 0 t)) ((cfg0.win 2).xinj (grid0.coords t) y)
    = G (((cfg0.win 2).blk t).view.emb y)
  rw [exi, eemb]
  refine (lin_block_apply (iblk m c 0 t) ⟨(y 0).val, hy0⟩).trans ?_
  rw [block_point m c t ⟨(y 0).val, hy0⟩ 0, block_point m c t ⟨(y 0).val, hy0⟩ 1, block_point m c t ⟨(y 0).val, hy0⟩ 2]
  exact (hG (rowOf t ⟨(y 0).val, hy0⟩)).symm

/-- So point `t` writes back block `t` of the reference's cell ids. -/
theorem flushed_lin (c : Dev nD) (t : Fin cfg0.N) :
    (dats (F := Ideal) m 0 c).flushed 2 t = ((cfg0.win 2).blk t).view.read (Elt Ideal) (linArr m c) :=
  flushed_lin_of m c t (linArr m c) fun n => (linArr_row m c n).trans (lin_point (pts m c) n)

/-- An index of the cell-id array is in point `t`'s block iff each coordinate is in the block's range on its axis. -/
theorem mem_lin_block (t : Fin cfg0.N) (i : S4000000x1.Idx) :
    i ∈ ((cfg0.win 2).blk t).view.set ↔ ∀ a : Fin 2, win0_2.index t a * S200000x1.size a ≤ (i a).val ∧ (i a).val < win0_2.index t a * S200000x1.size a + S200000x1.size a := by
  show i ∈ ((View.whole main_v0_1).slice (win0_2.rect t)).set ↔ _
  rw [View.set_slice_whole, Rect.mem_set_unit]
  exact Iff.rfl

set_option maxHeartbeats 400000 in
/-- Row `n` of the cell-id array lies in the block of point `n / 200000`. -/
theorem lin_cover (i : S4000000x1.Idx) :
    ∃ t : Fin cfg0.N, (cfg0.win 2).flush t = true ∧ i ∈ ((cfg0.win 2).blk t).view.set := by
  have hi0 : (i 0).val < 4000000 := (i 0).isLt
  have hi1 : (i 1).val < 1 := (i 1).isLt
  have hlt : (i 0).val / 200000 < grid0.N := by rw [N_0]; omega
  obtain ⟨-, -, -, -, e0, e1⟩ := block_origin ⟨(i 0).val / 200000, hlt⟩
  have e0' : win0_2.index ⟨(i 0).val / 200000, hlt⟩ (0 : Fin 2) = (i 0).val / 200000 := e0
  refine ⟨⟨(i 0).val / 200000, hlt⟩, flush0_2 _, ?_⟩
  rw [mem_lin_block]
  intro a
  match a with
  | ⟨0, _⟩ =>
    show win0_2.index _ (0 : Fin 2) * 200000 ≤ (i 0).val ∧ (i 0).val < win0_2.index _ (0 : Fin 2) * 200000 + 200000
    rw [e0']; omega
  | ⟨1, _⟩ =>
    show win0_2.index _ (1 : Fin 2) * 1 ≤ (i 1).val ∧ (i 1).val < win0_2.index _ (1 : Fin 2) * 1 + 1
    rw [e1]; omega

set_option maxHeartbeats 400000 in
/-- The cell-id array after the region, read as a vector, is the reference's cell ids of the launched points. -/
theorem final_lin (c : Dev nD) :
    shapeCast S4000000 ((dats (F := Ideal) m 0 c).arrAt 2 cfg0.N) shapeCasts_S4000000x1_S4000000
      = Cert.ReferenceIdeal.RefRun.linOf (Cert.ReferenceIdeal.RefRun.coorOf (F := Ideal) (m ((c.tc : Thread nD τ).loc main_arg0))) := by
  rw [(dats (F := Ideal) m 0 c).arrAt_eq_of_cover 2 (linArr m c) (fun t _ => flushed_lin m c t) lin_cover]
  funext k
  obtain ⟨n, rfl⟩ : ∃ n : Fin 4000000, k = ix1 n := ⟨k 0, eq_ix1 k⟩
  refine (shapeCast_apply (linArr m c) _ (ix1 n) (ix2 n (0 : Fin 1)) ?_).trans (linArr_row m c n)
  rw [Shape.rowMajor_val_two, Shape.rowMajor_val_one]
  show n.val * 1 + 0 = n.val
  omega

end Cert.KernelIdeal.KValue

end
-- ==== Proof.lean ====
/-
  The hashing kernel against its reference.  Both programs compute, for each of 4,000,000 points, the cell
  coordinates floor((p - corner) / voxel) as signed words, whether they lie inside the 440 × 500 × 1 grid, and the
  linear cell id 500·x + y + z (the sentinel 220000 outside); the kernel does it block by block in one pipelined
  region, the reference with whole-array host operations.  At the extended reals the two are the same scalar
  operations on each point, so the region's two output arrays hold the reference's coordinates and cell ids.  After
  that both programs run the same host operations (first occurrence per cell, ranks, slots, the final scatters) on
  the same points, coordinates and cell ids — the kernel's program recovering validity as "cell id below the
  sentinel", which is what validity is — and so end with the same four results.  No ideal-pass rewrite was applied,
  so the preservation claim is empty.
-/
import proofs.«136472_j73985106641253_1_alg».proof.Defs
import proofs.«136472_j73985106641253_1_alg».proof.Proof.Gen.Kernel
import proofs.«136472_j73985106641253_1_alg».proof.Proof.Gen.KernelIdeal
import proofs.«136472_j73985106641253_1_alg».proof.Proof.Gen.ReferenceIdeal
import proofs.«136472_j73985106641253_1_alg».proof.Proof.Gen.Pre_finite_inputs
import proofs.«136472_j73985106641253_1_alg».proof.Proof.KFrame
import proofs.«136472_j73985106641253_1_alg».proof.Proof.KFrameBits
import proofs.«136472_j73985106641253_1_alg».proof.Proof.RefSpec
import proofs.«136472_j73985106641253_1_alg».proof.Proof.RefRun
import proofs.«136472_j73985106641253_1_alg».proof.Proof.Tail
import proofs.«136472_j73985106641253_1_alg».proof.Proof.KValue
import proofs.«136472_j73985106641253_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves the points as launched. -/
theorem frame_k : Cert.frame_Kernel := fun m ρ _ => Cert.Kernel.HFrame.frame m ρ

/-- So does its reading at the extended reals. -/
theorem frame_ki : Cert.frame_KernelIdeal := fun m ρ _ => Cert.KernelIdeal.HFrame.frame m ρ

/-- The reference writes the point array nowhere: after all its operations the array is the launch contents. -/
theorem ref_arg0 {F : FTy → Type} [FloatOps F] (L : Valuation Cert.ReferenceIdeal.τ Cert.ReferenceIdeal.sig (Elt F)) :
    after (Cert.ReferenceIdeal.RefRun.ops (F := F)) L (Proc.devRef .tc Cert.ReferenceIdeal.main_arg0) = L (Proc.devRef .tc Cert.ReferenceIdeal.main_arg0) := by
  rw [Cert.ReferenceIdeal.RefRun.ops, StableHlo.after_append, Cert.ReferenceIdeal.RefRun.tail_arg0, Cert.ReferenceIdeal.RefRun.head_arg0]

/-- The reference runs and leaves the points as launched. -/
theorem frame_ri : Cert.frame_ReferenceIdeal := fun m ρ _ =>
  (θ_run Cert.ReferenceIdeal.defs _ _).mono (fun _ h c => (h c Cert.ReferenceIdeal.main_arg0).trans (ref_arg0 _))
    (Cert.ReferenceIdeal.RefRun.run (F := Ideal) m ρ)

/-- The ideal pass rewrote nothing. -/
theorem preserves : Cert.preserves_Kernel_KernelIdeal := trivial

/-- The buffers the kernel program's later host operations start from: the launch contents with the region's
    arrays at what the region left. -/
abbrev kW (m : (ℓ : Loc Cert.KernelIdeal.nD Cert.KernelIdeal.τ Cert.KernelIdeal.sig) → Buf (Elt Ideal) ℓ) (c : Dev Cert.KernelIdeal.nD) :
    Valuation Cert.KernelIdeal.τ Cert.KernelIdeal.sig (Elt Ideal) :=
  Pipeline.withArrays Cert.KernelIdeal.spec0 c (Cert.KernelIdeal.HFrame.V0 m c)
    (fun w => (Cert.KernelIdeal.HFrame.dats m 0 c).arrAt w Cert.KernelIdeal.cfg0.N)

theorem algebraic : Cert.algebraic_KernelIdeal_ReferenceIdeal := by
  intro m ρ m' ρ' _ hagree
  refine ⟨fun c => after Cert.Tail.kTail (kW m c) (Proc.devRef .tc Cert.KernelIdeal.main_v79),
    fun c => after Cert.Tail.kTail (kW m c) (Proc.devRef .tc Cert.KernelIdeal.main_v92),
    fun c => after Cert.Tail.kTail (kW m c) (Proc.devRef .tc Cert.KernelIdeal.main_v102),
    fun c => after Cert.Tail.kTail (kW m c) (Proc.devRef .tc Cert.KernelIdeal.main_v104), ?_, ?_⟩
  · -- the kernel's program: each result is what the later host operations leave; the points are an input array
    refine (θ_run Cert.KernelIdeal.defs _ _).mono (fun r h c => ?_) (Cert.KernelIdeal.HFrame.run_main (F := Ideal) m ρ)
    exact ⟨(h c).2 Cert.KernelIdeal.main_v79 (Pipeline.mem_restRefs_of _ (by decide) (by decide)),
      (h c).2 Cert.KernelIdeal.main_v92 (Pipeline.mem_restRefs_of _ (by decide) (by decide)),
      (h c).2 Cert.KernelIdeal.main_v102 (Pipeline.mem_restRefs_of _ (by decide) (by decide)),
      (h c).2 Cert.KernelIdeal.main_v104 (Pipeline.mem_restRefs_of _ (by decide) (by decide)),
      ((h c).1 0).trans ((Cert.KernelIdeal.HFrame.dats m 0 c).arrAt_in 0 rfl _)⟩
  · -- the reference: its hashing step leaves what the region left, and the later operations are the same
    refine (θ_run Cert.ReferenceIdeal.defs _ _).mono (fun r h c => ?_) (Cert.ReferenceIdeal.RefRun.run (F := Ideal) m' ρ')
    have hm : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0) := hagree c
    have hP0 : kW m c (Proc.devRef .tc Cert.KernelIdeal.main_arg0)
        = m ((c.tc : Thread Cert.KernelIdeal.nD Cert.KernelIdeal.τ).loc Cert.KernelIdeal.main_arg0) :=
      (Pipeline.withArrays_arr Cert.KernelIdeal.spec0 Cert.KernelIdeal.Gen.launch0.win.arr_inj c _ _ 0).trans
        ((Cert.KernelIdeal.HFrame.dats m 0 c).arrAt_in 0 rfl _)
    have hC0 : kW m c (Proc.devRef .tc Cert.KernelIdeal.main_v0_0)
        = Cert.ReferenceIdeal.RefRun.coorOf (F := Ideal) (m ((c.tc : Thread Cert.KernelIdeal.nD Cert.KernelIdeal.τ).loc Cert.KernelIdeal.main_arg0)) :=
      (Pipeline.withArrays_arr Cert.KernelIdeal.spec0 Cert.KernelIdeal.Gen.launch0.win.arr_inj c _ _ 1).trans
        (Cert.KernelIdeal.KValue.final_coor m c)
    have hL0 : shapeCast Cert.KernelIdeal.S4000000 (kW m c (Proc.devRef .tc Cert.KernelIdeal.main_v0_1)) Cert.KernelIdeal.Facts₀.shapeCasts_S4000000x1_S4000000
        = Cert.ReferenceIdeal.RefRun.linOf (Cert.ReferenceIdeal.RefRun.coorOf (F := Ideal) (m ((c.tc : Thread Cert.KernelIdeal.nD Cert.KernelIdeal.τ).loc Cert.KernelIdeal.main_arg0))) :=
      (congrArg (fun a => shapeCast Cert.KernelIdeal.S4000000 a Cert.KernelIdeal.Facts₀.shapeCasts_S4000000x1_S4000000)
        (Pipeline.withArrays_arr Cert.KernelIdeal.spec0 Cert.KernelIdeal.Gen.launch0.win.arr_inj c _ _ 2)).trans
        (Cert.KernelIdeal.KValue.final_lin m c)
    obtain ⟨e0, e1, e2, e3⟩ := Cert.Tail.tail_eq (F := Ideal) (kW m c)
      (after Cert.ReferenceIdeal.RefRun.ops0 (launchContents m' c))
      (by rw [Cert.ReferenceIdeal.RefRun.head_arg0, hP0]; exact hm)
      (by rw [Cert.ReferenceIdeal.RefRun.head_coor, hC0]; exact congrArg _ hm)
      (by rw [Cert.ReferenceIdeal.RefRun.head_lin, hL0]; exact congrArg (fun P => Cert.ReferenceIdeal.RefRun.linOf (Cert.ReferenceIdeal.RefRun.coorOf (F := Ideal) P)) hm)
      (by rw [Cert.ReferenceIdeal.RefRun.head_valid, Cert.ReferenceIdeal.RefRun.head_lin]; exact Cert.ReferenceIdeal.RefRun.valid_eq_lin_lt _)
    have hsplit : ∀ b : Ref Cert.ReferenceIdeal.sig .tc, r.2.mem ((c.tc : Thread Cert.ReferenceIdeal.nD Cert.ReferenceIdeal.τ).loc b)
        = after Cert.Tail.rTail (after Cert.ReferenceIdeal.RefRun.ops0 (launchContents m' c)) (Proc.devRef .tc b) := fun b =>
      (h c b).trans (by rw [Cert.ReferenceIdeal.RefRun.ops, StableHlo.after_append])
    exact ⟨(hsplit _).trans e0, (hsplit _).trans e1, (hsplit _).trans e2, (hsplit _).trans e3,
      (h c Cert.ReferenceIdeal.main_arg0).trans (ref_arg0 _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
